-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S65536x256 : Shape := ⟨2, ![65536, 256]⟩
abbrev S65536 : Shape := ⟨1, ![65536]⟩
abbrev S256x256 : Shape := ⟨2, ![256, 256]⟩
abbrev S256 : Shape := ⟨1, ![256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S65536x256 : S_.BroadcastsInDim S65536x256 (![] : Fin 0 → Fin S65536x256.rank)
  reducesTo_S65536x256_S_d0_1 : S65536x256.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg5 : FVec F S256x256 .f32) (main_arg6 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  main_v28

def fn {F : FTy → Type} [FloatOps F] (main_arg0 : FVec F S8192x256 .f32) (main_arg1 : FVec F S65536x256 .f32) (main_arg2 : IVec S65536 32) (main_arg3 : FVec F S256x256 .f32) (main_arg4 : FVec F S256 .f32) (main_arg5 : FVec F S256x256 .f32) (main_arg6 : FVec F S256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S65536x256 .f32 := Host.absf main_arg1
  let main_cst_0 : FVec F S_ .f32 := constant S_ .f32 0x7F800000#32
  let main_v5 : FVec F S65536x256 .f32 := broadcastInDim S65536x256 ![] bcast_S_S65536x256 main_cst_0
  let main_v6 : IVec S65536x256 1 := cmpf .olt main_v4 main_v5
  let main_c_1 : IVec S_ 1 := constantI S_ 1 1#1
  let main_v7 : IVec S_ 1 := (fun x v => Host.reduce IntOp.andi x v reducesTo_S65536x256_S_d0_1 h_S_) main_v6 main_c_1
  let main_v8 : IVec S_ 1 := andi main_v3 main_v7
  let main_v9 : FVec F S256x256 .f32 := Host.absf main_arg3
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_v13 main_v16
-- ==== Kernel.lean ====
abbrev S8192x256 : Shape := ⟨2, ![8192, 256]⟩
abbrev S65536x256 : Shape := ⟨2, ![65536, 256]⟩
abbrev S65536 : Shape := ⟨1, ![65536]⟩
abbrev S256x256 : Shape := ⟨2, ![256, 256]⟩
abbrev S256 : Shape := ⟨1, ![256]⟩
abbrev S1x256 : Shape := ⟨2, ![1, 256]⟩
abbrev S65536x1 : Shape := ⟨2, ![65536, 1]⟩
abbrev S2x128x256 : Shape := ⟨3, ![2, 128, 256]⟩
abbrev S2x8x128 : Shape := ⟨3, ![2, 8, 128]⟩
abbrev S4096x256 : Shape := ⟨2, ![4096, 256]⟩
abbrev S4096x1 : Shape := ⟨2, ![4096, 1]⟩
abbrev S1x128x256 : Shape := ⟨3, ![1, 128, 256]⟩
abbrev S1x8x128 : Shape := ⟨3, ![1, 8, 128]⟩
abbrev S128x256 : Shape := ⟨2, ![128, 256]⟩
abbrev S8x128 : Shape := ⟨2, ![8, 128]⟩
abbrev S4096x128 : Shape := ⟨2, ![4096, 128]⟩
abbrev S8x4096 : Shape := ⟨2, ![8, 4096]⟩
abbrev S1x1x128 : Shape := ⟨3, ![1, 1, 128]⟩
abbrev S128 : Shape := ⟨1, ![128]⟩
abbrev S128x1 : Shape := ⟨2, ![128, 1]⟩
abbrev S_ : Shape := ⟨0, ![]⟩
abbrev S256x128 : Shape := ⟨2, ![256, 128]⟩
abbrev S1x128 : Shape := ⟨2, ![1, 128]⟩
abbrev S8192x128 : Shape := ⟨2, ![8192, 128]⟩
abbrev S2048x256 : Shape := ⟨2, ![2048, 256]⟩
abbrev S2048x128 : Shape := ⟨2, ![2048, 128]⟩
abbrev S2048 : Shape := ⟨1, ![2048]⟩
abbrev S2048x1 : Shape := ⟨2, ![2048, 1]⟩
abbrev S8192x100 : Shape := ⟨2, ![8192, 100]⟩

abbrev nBuf : Space → Nat
  | .hbm => 50
  | .vmem => 22
  | .smem => 0
  | _ => 0

abbrev bufTy : (tb : Table) → Fin (tcTables nBuf tb) → BufTy
  | .hbm, ⟨0, _⟩ => ⟨S8192x256, .f32⟩
  | .hbm, ⟨1, _⟩ => ⟨S65536x256, .f32⟩
  | .hbm, ⟨2, _⟩ => ⟨S65536, .i32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256x256, .f32⟩
  | .hbm, ⟨9, _⟩ => ⟨S1x256, .f32⟩
  | .hbm, ⟨10, _⟩ => ⟨S1x256, .f32⟩
  | .hbm, ⟨11, _⟩ => ⟨S65536x1, .i32⟩
  | .hbm, ⟨12, _⟩ => ⟨S2x128x256, .f32⟩
  | .hbm, ⟨13, _⟩ => ⟨S2x8x128, .f32⟩
  | .hbm, ⟨14, _⟩ => ⟨S1x128x256, .f32⟩
  | .hbm, ⟨15, _⟩ => ⟨S128x256, .f32⟩
  | .hbm, ⟨16, _⟩ => ⟨S1x128x256, .f32⟩
  | .hbm, ⟨17, _⟩ => ⟨S128x256, .f32⟩
  | .hbm, ⟨18, _⟩ => ⟨S128x256, .f32⟩
  | .hbm, ⟨19, _⟩ => ⟨S1x1x128, .f32⟩
  | .hbm, ⟨20, _⟩ => ⟨S128, .f32⟩
  | .hbm, ⟨21, _⟩ => ⟨S1x1x128, .f32⟩
  | .hbm, ⟨22, _⟩ => ⟨S128, .f32⟩
  | .hbm, ⟨23, _⟩ => ⟨S128, .f32⟩
  | .hbm, ⟨24, _⟩ => ⟨S128x1, .f32⟩
  | .hbm, ⟨25, _⟩ => ⟨S_, .f32⟩
  | .hbm, ⟨26, _⟩ => ⟨S128x1, .f32⟩
  | .hbm, ⟨27, _⟩ => ⟨S128x1, .f32⟩
  | .hbm, ⟨28, _⟩ => ⟨S128x256, .f32⟩
  | .hbm, ⟨29, _⟩ => ⟨S128x256, .f32⟩
  | .hbm, ⟨30, _⟩ => ⟨S128x256, .f32⟩
  | .hbm, ⟨31, _⟩ => ⟨S128x256, .f32⟩
  | .hbm, ⟨32, _⟩ => ⟨S128x256, .f32⟩
  | .hbm, ⟨33, _⟩ => ⟨S_, .f32⟩
  | .hbm, ⟨34, _⟩ => ⟨S128x1, .f32⟩
  | .hbm, ⟨35, _⟩ => ⟨S128x1, .i1⟩
  | .hbm, ⟨36, _⟩ => ⟨S_, .f32⟩
  | .hbm, ⟨37, _⟩ => ⟨S_, .f32⟩
  | .hbm, ⟨38, _⟩ => ⟨S128x256, .i1⟩
  | .hbm, ⟨39, _⟩ => ⟨S128x256, .f32⟩
  | .hbm, ⟨40, _⟩ => ⟨S128x256, .f32⟩
  | .hbm, ⟨41, _⟩ => ⟨S256x128, .f32⟩
  | .hbm, ⟨42, _⟩ => ⟨S256x128, .bf16⟩
  | .hbm, ⟨43, _⟩ => ⟨S128x256, .f32⟩
  | .hbm, ⟨44, _⟩ => ⟨S_, .f32⟩
  | .hbm, ⟨45, _⟩ => ⟨S128, .f32⟩
  | .hbm, ⟨46, _⟩ => ⟨S128x1, .f32⟩
  | .hbm, ⟨47, _⟩ => ⟨S1x128, .f32⟩
  | .hbm, ⟨48, _⟩ => ⟨S8192x128, .f32⟩
  | .hbm, ⟨49, _⟩ => ⟨S8192x100, .f32⟩
  | .local _ .vmem, ⟨0, _⟩ => ⟨S4096x256, .f32⟩
  | .local _ .vmem, ⟨1, _⟩ => ⟨S4096x256, .f32⟩
  | .local _ .vmem, ⟨2, _⟩ => ⟨S4096x1, .i32⟩
  | .local _ .vmem, ⟨3, _⟩ => ⟨S4096x1, .i32⟩
  | .local _ .vmem, ⟨4, _⟩ => ⟨S256x256, .f32⟩
  | .local _ .vmem, ⟨5, _⟩ => ⟨S1x256, .f32⟩
  | .local _ .vmem, ⟨6, _⟩ => ⟨S1x128x256, .f32⟩
  | .local _ .vmem, ⟨7, _⟩ => ⟨S1x128x256, .f32⟩
  | .local _ .vmem, ⟨8, _⟩ => ⟨S1x8x128, .f32⟩
  | .local _ .vmem, ⟨9, _⟩ => ⟨S1x8x128, .f32⟩
  | .local _ .vmem, ⟨10, _⟩ => ⟨S128x256, .f32⟩
  | .local _ .vmem, ⟨11, _⟩ => ⟨S8x128, .f32⟩
  | .local _ .vmem, ⟨12, _⟩ => ⟨S2048x256, .f32⟩
  | .local _ .vmem, ⟨13, _⟩ => ⟨S2048x256, .f32⟩
  | .local _ .vmem, ⟨14, _⟩ => ⟨S256x256, .f32⟩
  | .local _ .vmem, ⟨15, _⟩ => ⟨S1x256, .f32⟩
  | .local _ .vmem, ⟨16, _⟩ => ⟨S256x256, .f32⟩
  | .local _ .vmem, ⟨17, _⟩ => ⟨S1x256, .f32⟩
  | .local _ .vmem, ⟨18, _⟩ => ⟨S256x128, .bf16⟩
  | .local _ .vmem, ⟨19, _⟩ => ⟨S1x128, .f32⟩
  | .local _ .vmem, ⟨20, _⟩ => ⟨S2048x128, .f32⟩
  | .local _ .vmem, ⟨21, _⟩ => ⟨S2048x128, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_0 : Ref sig .tc := ⟨.hbm, 33, rfl⟩
abbrev main_v24 : Ref sig .tc := ⟨.hbm, 34, rfl⟩
abbrev main_v25 : Ref sig .tc := ⟨.hbm, 35, rfl⟩
abbrev main_cst_1 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_2 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v37 : BitVec 1 := Scalar.cmpi .eq arg1 c7_i32
  let v38 : BitVec 32 := Scalar.extui v37
  let c0_i32_20 : BitVec 32 := 0#32
  let v39 : BitVec 1 := Scalar.cmpi .ne v38 c0_i32_20
  v39

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2048x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  transposes_S256x256_S256x256_1_0 : S256x256.Transposes [1, 0] S256x256
  shapeCasts_S256_S1x256 : S256.ShapeCasts S1x256
  shapeCasts_S65536_S65536x1 : S65536.ShapeCasts S65536x1
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S4096x256_S4096x256_0_0 : ∀ a, (![0, 0] : Fin 2 → Nat) a + S4096x256.size a ≤ S4096x256.size a
  h_S4096x256 : 0 < S4096x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  iota_S4096x128_d1_w32 : S4096x128.Iotas .tc 32 [1]
  broadcasts_S4096x1_S4096x128 : S4096x1.Broadcasts S4096x128
  natLt_1_32 : 1 < 32
  inb_S1x128x256_S1x128x256_0_0_0 : ∀ a, (![0, 0, 0] : Fin 3 → Nat) a + S1x128x256.size a ≤ S1x128x256.size a
  h_S1x128x256 : 0 < S1x128x256.numel
  shapeCasts_S1x128x256_S128x256 : S1x128x256.ShapeCasts S128x256
  shapeCasts_S128x256_S1x128x256 : S128x256.ShapeCasts S1x128x256
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  slices_S2x128x256_S1x128x256_0_0_0 : S2x128x256.Slices ![0, 0, 0] S1x128x256
  slices_S2x128x256_S1x128x256_1_0_0 : S2x128x256.Slices ![1, 0, 0] S1x128x256
  slices_S2x8x128_S1x1x128_0_0_0 : S2x8x128.Slices ![0, 0, 0] S1x1x128
  shapeCasts_S1x1x128_S128 : S1x1x128.ShapeCasts S128
  slices_S2x8x128_S1x1x128_1_0_0 : S2x8x128.Slices ![1, 0, 0] S1x1x128
  shapeCasts_S128_S128x1 : S128.ShapeCasts S128x1
  bcast_S_S128x1 : S_.BroadcastsInDim S128x1 (![] : Fin 0 → Fin S128x1.rank)
  bcast_S128x1_S128x256_0_1 : S128x1.BroadcastsInDim S128x256 (![0, 1] : Fin 2 → Fin S128x256.rank)
  bcast_S1x256_S128x256_0_1 : S1x256.BroadcastsInDim S128x256 (![0, 1] : Fin 2 → Fin S128x256.rank)
  bcast_S_S128x256 : S_.BroadcastsInDim S128x256 (![] : Fin 0 → Fin S128x256.rank)
  transposes_S128x256_S256x128_1_0 : S128x256.Transposes [1, 0] S256x128
  reducesTo_S128x256_S128_d1 : S128x256.ReducesTo [1] S128
  h_S_ : 0 < S_.numel
  bcast_S128_S128x1_0 : S128.BroadcastsInDim S128x1 (![0] : Fin 1 → Fin S128x1.rank)
  transposes_S128x1_S1x128_1_0 : S128x1.Transposes [1, 0] S1x128
  inb_S2048x256_S2048x256_0_0 : ∀ a, (![0, 0] : Fin 2 → Nat) a + S2048x256.size a ≤ S2048x256.size a
  h_S2048x256 : 0 < S2048x256.numel
  broadcasts_S1x256_S2048x256 : S1x256.Broadcasts S2048x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  reduces_S2048x256_S2048 : S2048x256.Reduces [1] S2048
  shapeCasts_S2048_S2048x1 : S2048.ShapeCasts S2048x1
  broadcasts_S2048x1_S2048x128 : S2048x1.Broadcasts S2048x128
  broadcasts_S1x128_S2048x128 : S1x128.Broadcasts S2048x128
  inb_S2048x128_S2048x128_0_0 : ∀ a, (![0, 0] : Fin 2 → Nat) a + S2048x128.size a ≤ S2048x128.size a
  h_S2048x128 : 0 < S2048x128.numel
  slices_S8192x128_S8192x100_0_0 : S8192x128.Slices ![0, 0] S8192x100
  dot_S4096x256_S256x256_S4096x256_1_0_0_1_n_n_wf : DotDims.WF S4096x256 S256x256 S4096x256 [1] [0] [0] [1] [] []
  dot_S4096x128_S4096x256_S128x256_0_0_1_1_n_n_wf : DotDims.WF S4096x128 S4096x256 S128x256 [0] [0] [1] [1] [] []
  dot_S8x4096_S4096x128_S8x128_1_0_0_1_n_n_wf : DotDims.WF S8x4096 S4096x128 S8x128 [1] [0] [0] [1] [] []
  dot_S128x256_S256x256_S128x256_1_0_0_1_n_n_wf : DotDims.WF S128x256 S256x256 S128x256 [1] [0] [0] [1] [] []
  dot_S2048x256_S256x256_S2048x256_1_0_0_1_n_n_wf : DotDims.WF S2048x256 S256x256 S2048x256 [1] [0] [0] [1] [] []
  dot_S2048x256_S256x128_S2048x128_1_0_0_1_n_n_wf : DotDims.WF S2048x256 S256x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S65536x256.size a
  hwx0_0 : ∀ i : grid0.Coords, EltTy.bits .f32 = 32 ∨ (Rect.block (s := S65536x256) S4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1.size a ≤ S65536x1.size a
  hwx0_1 : ∀ i : grid0.Coords, EltTy.bits .i32 = 32 ∨ (Rect.block (s := S65536x1) S4096x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x256.size a ≤ S2x128x256.size a
  hwx0_4 : ∀ i : grid0.Coords, EltTy.bits .f32 = 32 ∨ (Rect.block (s := S2x128x256) S1x128x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x8x128.size a ≤ S2x8x128.size a
  hwx0_5 : ∀ i : grid0.Coords, EltTy.bits .f32 = 32 ∨ (Rect.block (s := S2x8x128) S1x8x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x256.size a ≤ S8192x256.size a
  hwx1_0 : ∀ i : grid1.Coords, EltTy.bits .f32 = 32 ∨ (Rect.block (s := S8192x256) S2048x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x128.size a ≤ S256x128.size a
  hwx1_5 : ∀ i : grid1.Coords, EltTy.bits .bf16 = 32 ∨ (Rect.block (s := S256x128) S256x128.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2048x128.size a ≤ S8192x128.size a
  hwx1_7 : ∀ i : grid1.Coords, EltTy.bits .f32 = 32 ∨ (Rect.block (s := S8192x128) S2048x128.size (cc1_transform_7 i) (hinb1_7 i)).WholeWords (EltTy.packing .f32)

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x128_S4096x256_S128x256_0_0_1_1_n_n : DotDims S4096x128 S4096x256 S128x256 where
  lhsContracting := [0]
  rhsContracting := [0]
  lhsNonContracting := [1]
  rhsNonContracting := [1]
  lhsBatch := []
  rhsBatch := []
  wf := dot_S4096x128_S4096x256_S128x256_0_0_1_1_n_n_wf
def dot_S8x4096_S4096x128_S8x128_1_0_0_1_n_n : DotDims S8x4096 S4096x128 S8x128 where
  lhsContracting := [1]
  rhsContracting := [0]
  lhsNonContracting := [0]
  rhsNonContracting := [1]
  lhsBatch := []
  rhsBatch := []
  wf := dot_S8x4096_S4096x128_S8x128_1_0_0_1_n_n_wf
def dot_S128x256_S256x256_S128x256_1_0_0_1_n_n : DotDims S128x256 S256x256 S128x256 where
  lhsContracting := [1]
  rhsContracting := [0]
  lhsNonContracting := [0]
  rhsNonContracting := [1]
  lhsBatch := []
  rhsBatch := []
  wf := dot_S128x256_S256x256_S128x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf

abbrev win0_0 : Pipeline.Window sig grid0 :=
  Pipeline.Window.ofSpec (Memref.whole main_arg1) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S4096x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5_0) S1x128x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5_1) S1x8x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

abbrev win1_0 : Pipeline.Window sig grid1 :=
  Pipeline.Window.ofSpec (Memref.whole main_arg0) S2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S256x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v32) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v33) S2048x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S8192x256 : Shape := ⟨2, ![8192, 256]⟩
abbrev S65536x256 : Shape := ⟨2, ![65536, 256]⟩
abbrev S65536 : Shape := ⟨1, ![65536]⟩
abbrev S256x256 : Shape := ⟨2, ![256, 256]⟩
abbrev S256 : Shape := ⟨1, ![256]⟩
abbrev S1x256 : Shape := ⟨2, ![1, 256]⟩
abbrev S_ : Shape := ⟨0, ![]⟩
abbrev S100x256 : Shape := ⟨2, ![100, 256]⟩
abbrev S65536x1 : Shape := ⟨2, ![65536, 1]⟩
abbrev S100 : Shape := ⟨1, ![100]⟩
abbrev S100x1 : Shape := ⟨2, ![100, 1]⟩
abbrev S8192x1x256 : Shape := ⟨3, ![8192, 1, 256]⟩
abbrev S1x100x256 : Shape := ⟨3, ![1, 100, 256]⟩
abbrev S8192x100x256 : Shape := ⟨3, ![8192, 100, 256]⟩
abbrev S8192x100 : Shape := ⟨2, ![8192, 100]⟩

abbrev nBuf : Space → Nat
  | .hbm => 67
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S65536x256, .f32⟩
  | .hbm, ⟨2, _⟩ => ⟨S65536, .i32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S8192x256, .f32⟩
  | .hbm, ⟨9, _⟩ => ⟨S1x256, .f32⟩
  | .hbm, ⟨10, _⟩ => ⟨S8192x256, .f32⟩
  | .hbm, ⟨11, _⟩ => ⟨S8192x256, .f32⟩
  | .hbm, ⟨12, _⟩ => ⟨S_, .f32⟩
  | .hbm, ⟨13, _⟩ => ⟨S8192x256, .f32⟩
  | .hbm, ⟨14, _⟩ => ⟨S8192x256, .f32⟩
  | .hbm, ⟨15, _⟩ => ⟨S256x256, .f32⟩
  | .hbm, ⟨16, _⟩ => ⟨S8192x256, .f32⟩
  | .hbm, ⟨17, _⟩ => ⟨S1x256, .f32⟩
  | .hbm, ⟨18, _⟩ => ⟨S8192x256, .f32⟩
  | .hbm, ⟨19, _⟩ => ⟨S8192x256, .f32⟩
  | .hbm, ⟨20, _⟩ => ⟨S256x256, .f32⟩
  | .hbm, ⟨21, _⟩ => ⟨S65536x256, .f32⟩
  | .hbm, ⟨22, _⟩ => ⟨S1x256, .f32⟩
  | .hbm, ⟨23, _⟩ => ⟨S65536x256, .f32⟩
  | .hbm, ⟨24, _⟩ => ⟨S65536x256, .f32⟩
  | .hbm, ⟨25, _⟩ => ⟨S_, .f32⟩
  | .hbm, ⟨26, _⟩ => ⟨S65536x256, .f32⟩
  | .hbm, ⟨27, _⟩ => ⟨S65536x256, .f32⟩
  | .hbm, ⟨28, _⟩ => ⟨S256x256, .f32⟩
  | .hbm, ⟨29, _⟩ => ⟨S65536x256, .f32⟩
  | .hbm, ⟨30, _⟩ => ⟨S1x256, .f32⟩
  | .hbm, ⟨31, _⟩ => ⟨S65536x256, .f32⟩
  | .hbm, ⟨32, _⟩ => ⟨S65536x256, .f32⟩
  | .hbm, ⟨33, _⟩ => ⟨S_, .f32⟩
  | .hbm, ⟨34, _⟩ => ⟨S100x256, .f32⟩
  | .hbm, ⟨35, _⟩ => ⟨S65536x1, .i32⟩
  | .hbm, ⟨36, _⟩ => ⟨S100x256, .f32⟩
  | .hbm, ⟨37, _⟩ => ⟨S_, .f32⟩
  | .hbm, ⟨38, _⟩ => ⟨S65536, .f32⟩
  | .hbm, ⟨39, _⟩ => ⟨S_, .f32⟩
  | .hbm, ⟨40, _⟩ => ⟨S100, .f32⟩
  | .hbm, ⟨41, _⟩ => ⟨S65536x1, .i32⟩
  | .hbm, ⟨42, _⟩ => ⟨S100, .f32⟩
  | .hbm, ⟨43, _⟩ => ⟨S100x1, .f32⟩
  | .hbm, ⟨44, _⟩ => ⟨S_, .f32⟩
  | .hbm, ⟨45, _⟩ => ⟨S100x1, .f32⟩
  | .hbm, ⟨46, _⟩ => ⟨S100x1, .i1⟩
  | .hbm, ⟨47, _⟩ => ⟨S_, .f32⟩
  | .hbm, ⟨48, _⟩ => ⟨S100, .f32⟩
  | .hbm, ⟨49, _⟩ => ⟨S100, .f32⟩
  | .hbm, ⟨50, _⟩ => ⟨S100x1, .f32⟩
  | .hbm, ⟨51, _⟩ => ⟨S100x256, .f32⟩
  | .hbm, ⟨52, _⟩ => ⟨S100x256, .f32⟩
  | .hbm, ⟨53, _⟩ => ⟨S_, .f32⟩
  | .hbm, ⟨54, _⟩ => ⟨S_, .f32⟩
  | .hbm, ⟨55, _⟩ => ⟨S100x256, .i1⟩
  | .hbm, ⟨56, _⟩ => ⟨S100x256, .f32⟩
  | .hbm, ⟨57, _⟩ => ⟨S100x256, .f32⟩
  | .hbm, ⟨58, _⟩ => ⟨S8192x1x256, .f32⟩
  | .hbm, ⟨59, _⟩ => ⟨S1x100x256, .f32⟩
  | .hbm, ⟨60, _⟩ => ⟨S8192x100x256, .f32⟩
  | .hbm, ⟨61, _⟩ => ⟨S8192x100x256, .f32⟩
  | .hbm, ⟨62, _⟩ => ⟨S8192x100x256, .f32⟩
  | .hbm, ⟨63, _⟩ => ⟨S8192x100x256, .f32⟩
  | .hbm, ⟨64, _⟩ => ⟨S_, .f32⟩
  | .hbm, ⟨65, _⟩ => ⟨S8192x100, .f32⟩
  | .hbm, ⟨66, _⟩ => ⟨S8192x100, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_cst : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call1_cst : Ref sig .tc := ⟨.hbm, 25, rfl⟩
abbrev main_call1_v0 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_0 : Ref sig .tc := ⟨.hbm, 37, rfl⟩
abbrev main_v25 : Ref sig .tc := ⟨.hbm, 38, rfl⟩
abbrev main_cst_1 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_2 : Ref sig .tc := ⟨.hbm, 44, rfl⟩
abbrev main_v30 : Ref sig .tc := ⟨.hbm, 45, rfl⟩
abbrev main_v31 : Ref sig .tc := ⟨.hbm, 46, rfl⟩
abbrev main_cst_3 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_4 : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_5 : Ref sig .tc := ⟨.hbm, 64, rfl⟩
abbrev main_v44 : Ref sig .tc := ⟨.hbm, 65, rfl⟩
abbrev main_v45 : Ref sig .tc := ⟨.hbm, 66, rfl⟩

abbrev nD : Nat := 1
abbrev τ : Topo := Topo.v7x

variable {F : FTy → Type} [FloatOps F]

class Facts₀ : Prop where
  transposes_S256x256_S256x256_1_0 : S256x256.Transposes [1, 0] S256x256
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S_S8192x256 : S_.BroadcastsInDim S8192x256 (![] : Fin 0 → Fin S8192x256.rank)
  bcast_S1x256_S65536x256_0_1 : S1x256.BroadcastsInDim S65536x256 (![0, 1] : Fin 2 → Fin S65536x256.rank)
  bcast_S_S65536x256 : S_.BroadcastsInDim S65536x256 (![] : Fin 0 → Fin S65536x256.rank)
  bcast_S_S100x256 : S_.BroadcastsInDim S100x256 (![] : Fin 0 → Fin S100x256.rank)
  bcast_S65536_S65536x1_0 : S65536.BroadcastsInDim S65536x1 (![0] : Fin 1 → Fin S65536x1.rank)
  bcast_S_S65536 : S_.BroadcastsInDim S65536 (![] : Fin 0 → Fin S65536.rank)
  bcast_S_S100 : S_.BroadcastsInDim S100 (![] : Fin 0 → Fin S100.rank)
  bcast_S100_S100x1_0 : S100.BroadcastsInDim S100x1 (![0] : Fin 1 → Fin S100x1.rank)
  bcast_S_S100x1 : S_.BroadcastsInDim S100x1 (![] : Fin 0 → Fin S100x1.rank)
  bcast_S100x1_S100x256_0_1 : S100x1.BroadcastsInDim S100x256 (![0, 1] : Fin 2 → Fin S100x256.rank)
  bcast_S8192x256_S8192x1x256_0_2 : S8192x256.BroadcastsInDim S8192x1x256 (![0, 2] : Fin 2 → Fin S8192x1x256.rank)
  bcast_S100x256_S1x100x256_1_2 : S100x256.BroadcastsInDim S1x100x256 (![1, 2] : Fin 2 → Fin S1x100x256.rank)
  bcast_S8192x1x256_S8192x100x256_0_1_2 : S8192x1x256.BroadcastsInDim S8192x100x256 (![0, 1, 2] : Fin 3 → Fin S8192x100x256.rank)
  bcast_S1x100x256_S8192x100x256_0_1_2 : S1x100x256.BroadcastsInDim S8192x100x256 (![0, 1, 2] : Fin 3 → Fin S8192x100x256.rank)
  reducesTo_S8192x100x256_S8192x100_d2 : S8192x100x256.ReducesTo [2] S8192x100
  h_S_ : 0 < S_.numel
  dot_S8192x256_S256x256_S8192x256_1_0_0_1_n_n_wf : DotDims.WF S8192x256 S256x256 S8192x256 [1] [0] [0] [1] [] []
  dot_S65536x256_S256x256_S65536x256_1_0_0_1_n_n_wf : DotDims.WF S65536x256 S256x256 S65536x256 [1] [0] [0] [1] [] []
  scatter_S100x256_S65536x1_S65536x256_1_0_0_1_wf : ScatterDims.WF S100x256 S65536x1 S65536x256 [1] [0] [0] 1
  scatter_S100_S65536x1_S65536_n_0_0_1_wf : ScatterDims.WF S100 S65536x1 S65536 [] [0] [0] 1

variable [Facts₀]

def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S65536x256_S256x256_S65536x256_1_0_0_1_n_n : DotDims S65536x256 S256x256 S65536x256 where
  lhsContracting := [1]
  rhsContracting := [0]
  lhsNonContracting := [0]
  rhsNonContracting := [1]
  lhsBatch := []
  rhsBatch := []
  wf := dot_S65536x256_S256x256_S65536x256_1_0_0_1_n_n_wf
def scatter_S100x256_S65536x1_S65536x256_1_0_0_1 : ScatterDims S100x256 S65536x1 S65536x256 where
  updateWindowDims := [1]
  insertedWindowDims := [0]
  scatterDimsToOperandDims := [0]
  indexVectorDim := 1
  wf := scatter_S100x256_S65536x1_S65536x256_1_0_0_1_wf
def scatter_S100_S65536x1_S65536_n_0_0_1 : ScatterDims S100 S65536x1 S65536 where
  updateWindowDims := []
  insertedWindowDims := [0]
  scatterDimsToOperandDims := [0]
  indexVectorDim := 1
  wf := scatter_S100_S65536x1_S65536_n_0_0_1_wf

class Facts : Prop extends Facts₀ where

variable [Facts]
-- ==== Proof.FrameB.ProtoRuns.lean ====
/-
  Region 0 of the kernel's program: the per-class accumulation, on a grid of 2 × 8 points. A point reads one block
  of 4096 support rows with their labels, the first layer's weights and bias, and two buffers the kernel keeps
  between points: the per-class sums (128 × 256) and the per-class counts (8 × 128, every row the same). At the
  first point of each row of the grid (second coordinate 0) the body zeroes both buffers; at every point it adds
  the block's contribution to both; at the last point of the row (second coordinate 7) it copies both into the
  output windows' buffers. This module decides the two conditions over the grid, says where the output windows
  are idle, and proves the body's triple in each of the three cases, the pieces each written buffer ends with being
  what the run finds.
-/
import proofs.«422305_j79542794322400_3_alg».proof.Proof.Gen.Kernel.Launch
import proofs.«422305_j79542794322400_3_alg».proof.Proof.Gen.Kernel.Skeleton
import proofs.«422305_j79542794322400_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, decided over the grid -/

/-- The reset condition: the point's second coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- The write-out condition: the point's second coordinate is 7. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Where the body does not write out, both output windows are idle and their blocks are not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
/-- Where it does, they are live. -/
theorem liveAt0_4 : ∀ t : Fin cfg0.N, cond0_1 (grid0.coords t) → cfg0.idle 4 (grid0.coords t) = false := by decide +kernel
theorem liveAt0_5 : ∀ t : Fin cfg0.N, cond0_1 (grid0.coords t) → cfg0.idle 5 (grid0.coords t) = false := by decide +kernel

/-! ## The buffers the body is called on -/

abbrev ms0_0 (t : Fin cfg0.N) : Memref sig .tc .vmem S4096x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x8x128 .f32 := win0_5.stage (cfg0.slots t 5)
abbrev hs0_5 (t : Fin cfg0.N) : (ms0_5 t).IsWhole := hstage0_5 ((cfg0.slots t 5).cast nbuf0_5)
/-- The two buffers kept between points: the sums and the counts. -/
abbrev scM0_0 : Memref sig .tc .vmem S128x256 .f32 := Memref.whole cc0_scratch0
abbrev scM0_1 : Memref sig .tc .vmem S8x128 .f32 := Memref.whole cc0_scratch1
/-- Views through which contents are stated. -/
abbrev VS0_0 : View sig .tc .vmem S128x256 .f32 := scM0_0.view
abbrev VS0_1 : View sig .tc .vmem S8x128 .f32 := scM0_1.view
abbrev VO0_4 : View sig .tc .vmem S1x128x256 .f32 := (Memref.whole cc0_stg4_0 : Memref sig .tc .vmem S1x128x256 .f32).view
abbrev VO0_5 : View sig .tc .vmem S1x8x128 .f32 := (Memref.whole cc0_stg5_0 : Memref sig .tc .vmem S1x8x128 .f32).view

/-- The other scoped buffers of the core that this region does not use (the later region's staging buffers), each
    at some contents. -/
def otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f))

/-- The class's invariant spelt out: the two kept buffers at some contents, the other scoped buffers, the generator
    register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ otherScoped (F := F) c) ∗ (∃ r, prngReg c r)) := by
  unfold Pipeline.ΦA otherScoped; rw [scopedRest0_eq]; simp only [scM0_0, scM0_1, owns_whole]; try rfl

/-! ## The body's triple, case by case -/

set_option maxHeartbeats 4000000 in
/-- FIRST POINT OF A ROW (reset taken, write-out not): the inputs' buffers at their contents, the two kept buffers at
    anything; the body ends with the inputs as they were and each kept buffer with the pieces the run finds written. -/
noncomputable def kernelRun0_A (c : Dev nD) (i : grid0.Coords) (arg2 : Memref sig .tc .vmem S4096x256 .f32) (harg2 : arg2.IsWhole) (arg3 : Memref sig .tc .vmem S4096x1 .i32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x128x256 .f32) (harg6 : arg6.IsWhole) (arg7 : Memref sig .tc .vmem S1x8x128 .f32) (harg7 : arg7.IsWhole) (arg8 : Memref sig .tc .vmem S128x256 .f32) (harg8 : arg8.IsWhole) (arg9 : Memref sig .tc .vmem S8x128 .f32) (harg9 : arg9.IsWhole) (hc0 : cond0_0 i) (hc1 : ¬cond0_1 i)
    (x0 : Vec F S4096x256 .f32) (x1 : Vec F S4096x1 .i32) (x2 : Vec F S256x256 .f32) (x3 : Vec F S1x256 .f32) :
    Σ' (LS0 : List (View.Piece (Elt F) S128x256 .f32)), { LS1 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)) -∗ K ⟨⟩))
          ⊢ wp frame (wpE (defs₀ (F := F)) Variants.none c none) E (cc0__proto_kernel i arg2 harg2 arg3 harg3 arg4 harg4 arg5 harg5 arg6 harg6 arg7 harg7 arg8 harg8 arg9 harg9) K } := by
  refine ⟨?_, ?_, fun E K => ?run⟩
  case run =>
    simp only [cc0__proto_kernel_eq_skeleton]; unfold cc0__proto_kernel_skel
    simp only [k0_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

set_option maxHeartbeats 4000000 in
/-- A MIDDLE POINT (neither branch taken): the kept buffers at what the point before left. -/
noncomputable def kernelRun0_B (c : Dev nD) (i : grid0.Coords) (arg2 : Memref sig .tc .vmem S4096x256 .f32) (harg2 : arg2.IsWhole) (arg3 : Memref sig .tc .vmem S4096x1 .i32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x128x256 .f32) (harg6 : arg6.IsWhole) (arg7 : Memref sig .tc .vmem S1x8x128 .f32) (harg7 : arg7.IsWhole) (arg8 : Memref sig .tc .vmem S128x256 .f32) (harg8 : arg8.IsWhole) (arg9 : Memref sig .tc .vmem S8x128 .f32) (harg9 : arg9.IsWhole) (hc0 : ¬cond0_0 i) (hc1 : ¬cond0_1 i)
    (x0 : Vec F S4096x256 .f32) (x1 : Vec F S4096x1 .i32) (x2 : Vec F S256x256 .f32) (x3 : Vec F S1x256 .f32) (xs0 : Vec F S128x256 .f32) (xs1 : Vec F S8x128 .f32) :
    Σ' (LS0 : List (View.Piece (Elt F) S128x256 .f32)), { LS1 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)) -∗ K ⟨⟩))
          ⊢ wp frame (wpE (defs₀ (F := F)) Variants.none c none) E (cc0__proto_kernel i arg2 harg2 arg3 harg3 arg4 harg4 arg5 harg5 arg6 harg6 arg7 harg7 arg8 harg8 arg9 harg9) K } := by
  refine ⟨?_, ?_, fun E K => ?run⟩
  case run =>
    simp only [cc0__proto_kernel_eq_skeleton]; unfold cc0__proto_kernel_skel
    simp only [k0_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

set_option maxHeartbeats 4000000 in
/-- LAST POINT OF A ROW (reset not taken, write-out taken): as a middle point, and the two output windows' buffers, at
    anything before, end with the pieces the run finds written. -/
noncomputable def kernelRun0_C (c : Dev nD) (i : grid0.Coords) (arg2 : Memref sig .tc .vmem S4096x256 .f32) (harg2 : arg2.IsWhole) (arg3 : Memref sig .tc .vmem S4096x1 .i32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x128x256 .f32) (harg6 : arg6.IsWhole) (arg7 : Memref sig .tc .vmem S1x8x128 .f32) (harg7 : arg7.IsWhole) (arg8 : Memref sig .tc .vmem S128x256 .f32) (harg8 : arg8.IsWhole) (arg9 : Memref sig .tc .vmem S8x128 .f32) (harg9 : arg9.IsWhole) (hc0 : ¬cond0_0 i) (hc1 : cond0_1 i)
    (x0 : Vec F S4096x256 .f32) (x1 : Vec F S4096x1 .i32) (x2 : Vec F S256x256 .f32) (x3 : Vec F S1x256 .f32) (xs0 : Vec F S128x256 .f32) (xs1 : Vec F S8x128 .f32) :
    Σ' (L4 : List (View.Piece (Elt F) S1x128x256 .f32)) (L5 : List (View.Piece (Elt F) S1x8x128 .f32)) (LS0 : List (View.Piece (Elt F) S128x256 .f32)), { LS1 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d)
            ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)) -∗ K ⟨⟩))
          ⊢ wp frame (wpE (defs₀ (F := F)) Variants.none c none) E (cc0__proto_kernel i arg2 harg2 arg3 harg3 arg4 harg4 arg5 harg5 arg6 harg6 arg7 harg7 arg8 harg8 arg9 harg9) K } := by
  refine ⟨?_, ?_, ?_, ?_, fun E K => ?run⟩
  case run =>
    simp only [cc0__proto_kernel_eq_skeleton]; unfold cc0__proto_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [HS0]; · iexists _; iexact HS0
    iexists _; iexact HS1

end Cert.Kernel.Hand

end
-- ==== Proof.FrameB.ProtoData.lean ====
/-
  Region 0, continued: what the two kept buffers hold after each grid point, by recursion on the point (the first
  point of a row of the grid starts from the reset, every other point from what the point before left), what the
  two output windows' buffers hold at the last point of a row, the region's invariant (the kept buffers at those
  contents), the pipeline's proof data over the arrays as the region finds them, and the body obligation at every
  point by cases on the point's place in its row.
-/
import proofs.«422305_j79542794322400_3_alg».proof.Proof.FrameB.ProtoRuns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves in the buffers it writes: the found pieces read back -/

def sA0 (c : Dev nD) (i : grid0.Coords) (arg2 : Memref sig .tc .vmem S4096x256 .f32) (harg2 : arg2.IsWhole) (arg3 : Memref sig .tc .vmem S4096x1 .i32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x128x256 .f32) (harg6 : arg6.IsWhole) (arg7 : Memref sig .tc .vmem S1x8x128 .f32) (harg7 : arg7.IsWhole) (arg8 : Memref sig .tc .vmem S128x256 .f32) (harg8 : arg8.IsWhole) (arg9 : Memref sig .tc .vmem S8x128 .f32) (harg9 : arg9.IsWhole) (hc0 : cond0_0 i) (hc1 : ¬cond0_1 i) (x0 : Vec F S4096x256 .f32) (x1 : Vec F S4096x1 .i32) (x2 : Vec F S256x256 .f32) (x3 : Vec F S1x256 .f32) : Vec F S128x256 .f32 :=
  VS0_0.read (Elt F) (VS0_0.writes (Elt F) VS0_0.junk (kernelRun0_A c i arg2 harg2 arg3 harg3 arg4 harg4 arg5 harg5 arg6 harg6 arg7 harg7 arg8 harg8 arg9 harg9 hc0 hc1 x0 x1 x2 x3).1)
def sA1 (c : Dev nD) (i : grid0.Coords) (arg2 : Memref sig .tc .vmem S4096x256 .f32) (harg2 : arg2.IsWhole) (arg3 : Memref sig .tc .vmem S4096x1 .i32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x128x256 .f32) (harg6 : arg6.IsWhole) (arg7 : Memref sig .tc .vmem S1x8x128 .f32) (harg7 : arg7.IsWhole) (arg8 : Memref sig .tc .vmem S128x256 .f32) (harg8 : arg8.IsWhole) (arg9 : Memref sig .tc .vmem S8x128 .f32) (harg9 : arg9.IsWhole) (hc0 : cond0_0 i) (hc1 : ¬cond0_1 i) (x0 : Vec F S4096x256 .f32) (x1 : Vec F S4096x1 .i32) (x2 : Vec F S256x256 .f32) (x3 : Vec F S1x256 .f32) : Vec F S8x128 .f32 :=
  VS0_1.read (Elt F) (VS0_1.writes (Elt F) VS0_1.junk (kernelRun0_A c i arg2 harg2 arg3 harg3 arg4 harg4 arg5 harg5 arg6 harg6 arg7 harg7 arg8 harg8 arg9 harg9 hc0 hc1 x0 x1 x2 x3).2.1)
theorem scoverA_0 (c : Dev nD) (i : grid0.Coords) (arg2 : Memref sig .tc .vmem S4096x256 .f32) (harg2 : arg2.IsWhole) (arg3 : Memref sig .tc .vmem S4096x1 .i32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x128x256 .f32) (harg6 : arg6.IsWhole) (arg7 : Memref sig .tc .vmem S1x8x128 .f32) (harg7 : arg7.IsWhole) (arg8 : Memref sig .tc .vmem S128x256 .f32) (harg8 : arg8.IsWhole) (arg9 : Memref sig .tc .vmem S8x128 .f32) (harg9 : arg9.IsWhole) (hc0 : cond0_0 i) (hc1 : ¬cond0_1 i) (x0 : Vec F S4096x256 .f32) (x1 : Vec F S4096x1 .i32) (x2 : Vec F S256x256 .f32) (x3 : Vec F S1x256 .f32) (y : S128x256.Idx) :
    ∃ pc ∈ (kernelRun0_A c i arg2 harg2 arg3 harg3 arg4 harg4 arg5 harg5 arg6 harg6 arg7 harg7 arg8 harg8 arg9 harg9 hc0 hc1 x0 x1 x2 x3).1, y ∈ pc.1.set :=
  View.cover_of_tiledL (kernelRun0_A c i arg2 harg2 arg3 harg3 arg4 harg4 arg5 harg5 arg6 harg6 arg7 harg7 arg8 harg8 arg9 harg9 hc0 hc1 x0 x1 x2 x3).1 S128x256.size (by sl_kernel_rfl) y
theorem scoverA_1 (c : Dev nD) (i : grid0.Coords) (arg2 : Memref sig .tc .vmem S4096x256 .f32) (harg2 : arg2.IsWhole) (arg3 : Memref sig .tc .vmem S4096x1 .i32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x128x256 .f32) (harg6 : arg6.IsWhole) (arg7 : Memref sig .tc .vmem S1x8x128 .f32) (harg7 : arg7.IsWhole) (arg8 : Memref sig .tc .vmem S128x256 .f32) (harg8 : arg8.IsWhole) (arg9 : Memref sig .tc .vmem S8x128 .f32) (harg9 : arg9.IsWhole) (hc0 : cond0_0 i) (hc1 : ¬cond0_1 i) (x0 : Vec F S4096x256 .f32) (x1 : Vec F S4096x1 .i32) (x2 : Vec F S256x256 .f32) (x3 : Vec F S1x256 .f32) (y : S8x128.Idx) :
    ∃ pc ∈ (kernelRun0_A c i arg2 harg2 arg3 harg3 arg4 harg4 arg5 harg5 arg6 harg6 arg7 harg7 arg8 harg8 arg9 harg9 hc0 hc1 x0 x1 x2 x3).2.1, y ∈ pc.1.set :=
  View.cover_of_tiledL (kernelRun0_A c i arg2 harg2 arg3 harg3 arg4 harg4 arg5 harg5 arg6 harg6 arg7 harg7 arg8 harg8 arg9 harg9 hc0 hc1 x0 x1 x2 x3).2.1 S8x128.size (by sl_kernel_rfl) y

def sB0 (c : Dev nD) (i : grid0.Coords) (arg2 : Memref sig .tc .vmem S4096x256 .f32) (harg2 : arg2.IsWhole) (arg3 : Memref sig .tc .vmem S4096x1 .i32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x128x256 .f32) (harg6 : arg6.IsWhole) (arg7 : Memref sig .tc .vmem S1x8x128 .f32) (harg7 : arg7.IsWhole) (arg8 : Memref sig .tc .vmem S128x256 .f32) (harg8 : arg8.IsWhole) (arg9 : Memref sig .tc .vmem S8x128 .f32) (harg9 : arg9.IsWhole) (hc0 : ¬cond0_0 i) (hc1 : ¬cond0_1 i) (x0 : Vec F S4096x256 .f32) (x1 : Vec F S4096x1 .i32) (x2 : Vec F S256x256 .f32) (x3 : Vec F S1x256 .f32) (xs0 : Vec F S128x256 .f32) (xs1 : Vec F S8x128 .f32) : Vec F S128x256 .f32 :=
  VS0_0.read (Elt F) (VS0_0.writes (Elt F) VS0_0.junk (kernelRun0_B c i arg2 harg2 arg3 harg3 arg4 harg4 arg5 harg5 arg6 harg6 arg7 harg7 arg8 harg8 arg9 harg9 hc0 hc1 x0 x1 x2 x3 xs0 xs1).1)
def sB1 (c : Dev nD) (i : grid0.Coords) (arg2 : Memref sig .tc .vmem S4096x256 .f32) (harg2 : arg2.IsWhole) (arg3 : Memref sig .tc .vmem S4096x1 .i32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x128x256 .f32) (harg6 : arg6.IsWhole) (arg7 : Memref sig .tc .vmem S1x8x128 .f32) (harg7 : arg7.IsWhole) (arg8 : Memref sig .tc .vmem S128x256 .f32) (harg8 : arg8.IsWhole) (arg9 : Memref sig .tc .vmem S8x128 .f32) (harg9 : arg9.IsWhole) (hc0 : ¬cond0_0 i) (hc1 : ¬cond0_1 i) (x0 : Vec F S4096x256 .f32) (x1 : Vec F S4096x1 .i32) (x2 : Vec F S256x256 .f32) (x3 : Vec F S1x256 .f32) (xs0 : Vec F S128x256 .f32) (xs1 : Vec F S8x128 .f32) : Vec F S8x128 .f32 :=
  VS0_1.read (Elt F) (VS0_1.writes (Elt F) VS0_1.junk (kernelRun0_B c i arg2 harg2 arg3 harg3 arg4 harg4 arg5 harg5 arg6 harg6 arg7 harg7 arg8 harg8 arg9 harg9 hc0 hc1 x0 x1 x2 x3 xs0 xs1).2.1)
theorem scoverB_0 (c : Dev nD) (i : grid0.Coords) (arg2 : Memref sig .tc .vmem S4096x256 .f32) (harg2 : arg2.IsWhole) (arg3 : Memref sig .tc .vmem S4096x1 .i32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x128x256 .f32) (harg6 : arg6.IsWhole) (arg7 : Memref sig .tc .vmem S1x8x128 .f32) (harg7 : arg7.IsWhole) (arg8 : Memref sig .tc .vmem S128x256 .f32) (harg8 : arg8.IsWhole) (arg9 : Memref sig .tc .vmem S8x128 .f32) (harg9 : arg9.IsWhole) (hc0 : ¬cond0_0 i) (hc1 : ¬cond0_1 i) (x0 : Vec F S4096x256 .f32) (x1 : Vec F S4096x1 .i32) (x2 : Vec F S256x256 .f32) (x3 : Vec F S1x256 .f32) (xs0 : Vec F S128x256 .f32) (xs1 : Vec F S8x128 .f32) (y : S128x256.Idx) :
    ∃ pc ∈ (kernelRun0_B c i arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun0_B c i arg2 harg2 arg3 harg3 arg4 harg4 arg5 harg5 arg6 harg6 arg7 harg7 arg8 harg8 arg9 harg9 hc0 hc1 x0 x1 x2 x3 xs0 xs1).1 S128x256.size (by sl_kernel_rfl) y
theorem scoverB_1 (c : Dev nD) (i : grid0.Coords) (arg2 : Memref sig .tc .vmem S4096x256 .f32) (harg2 : arg2.IsWhole) (arg3 : Memref sig .tc .vmem S4096x1 .i32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x128x256 .f32) (harg6 : arg6.IsWhole) (arg7 : Memref sig .tc .vmem S1x8x128 .f32) (harg7 : arg7.IsWhole) (arg8 : Memref sig .tc .vmem S128x256 .f32) (harg8 : arg8.IsWhole) (arg9 : Memref sig .tc .vmem S8x128 .f32) (harg9 : arg9.IsWhole) (hc0 : ¬cond0_0 i) (hc1 : ¬cond0_1 i) (x0 : Vec F S4096x256 .f32) (x1 : Vec F S4096x1 .i32) (x2 : Vec F S256x256 .f32) (x3 : Vec F S1x256 .f32) (xs0 : Vec F S128x256 .f32) (xs1 : Vec F S8x128 .f32) (y : S8x128.Idx) :
    ∃ pc ∈ (kernelRun0_B c i arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRun0_B c i arg2 harg2 arg3 harg3 arg4 harg4 arg5 harg5 arg6 harg6 arg7 harg7 arg8 harg8 arg9 harg9 hc0 hc1 x0 x1 x2 x3 xs0 xs1).2.1 S8x128.size (by sl_kernel_rfl) y

def o4C (c : Dev nD) (i : grid0.Coords) (arg2 : Memref sig .tc .vmem S4096x256 .f32) (harg2 : arg2.IsWhole) (arg3 : Memref sig .tc .vmem S4096x1 .i32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x128x256 .f32) (harg6 : arg6.IsWhole) (arg7 : Memref sig .tc .vmem S1x8x128 .f32) (harg7 : arg7.IsWhole) (arg8 : Memref sig .tc .vmem S128x256 .f32) (harg8 : arg8.IsWhole) (arg9 : Memref sig .tc .vmem S8x128 .f32) (harg9 : arg9.IsWhole) (hc0 : ¬cond0_0 i) (hc1 : cond0_1 i) (x0 : Vec F S4096x256 .f32) (x1 : Vec F S4096x1 .i32) (x2 : Vec F S256x256 .f32) (x3 : Vec F S1x256 .f32) (xs0 : Vec F S128x256 .f32) (xs1 : Vec F S8x128 .f32) : Vec F S1x128x256 .f32 :=
  VO0_4.read (Elt F) (VO0_4.writes (Elt F) VO0_4.junk (kernelRun0_C c i arg2 harg2 arg3 harg3 arg4 harg4 arg5 harg5 arg6 harg6 arg7 harg7 arg8 harg8 arg9 harg9 hc0 hc1 x0 x1 x2 x3 xs0 xs1).1)
def o5C (c : Dev nD) (i : grid0.Coords) (arg2 : Memref sig .tc .vmem S4096x256 .f32) (harg2 : arg2.IsWhole) (arg3 : Memref sig .tc .vmem S4096x1 .i32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x128x256 .f32) (harg6 : arg6.IsWhole) (arg7 : Memref sig .tc .vmem S1x8x128 .f32) (harg7 : arg7.IsWhole) (arg8 : Memref sig .tc .vmem S128x256 .f32) (harg8 : arg8.IsWhole) (arg9 : Memref sig .tc .vmem S8x128 .f32) (harg9 : arg9.IsWhole) (hc0 : ¬cond0_0 i) (hc1 : cond0_1 i) (x0 : Vec F S4096x256 .f32) (x1 : Vec F S4096x1 .i32) (x2 : Vec F S256x256 .f32) (x3 : Vec F S1x256 .f32) (xs0 : Vec F S128x256 .f32) (xs1 : Vec F S8x128 .f32) : Vec F S1x8x128 .f32 :=
  VO0_5.read (Elt F) (VO0_5.writes (Elt F) VO0_5.junk (kernelRun0_C c i arg2 harg2 arg3 harg3 arg4 harg4 arg5 harg5 arg6 harg6 arg7 harg7 arg8 harg8 arg9 harg9 hc0 hc1 x0 x1 x2 x3 xs0 xs1).2.1)
def sC0 (c : Dev nD) (i : grid0.Coords) (arg2 : Memref sig .tc .vmem S4096x256 .f32) (harg2 : arg2.IsWhole) (arg3 : Memref sig .tc .vmem S4096x1 .i32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x128x256 .f32) (harg6 : arg6.IsWhole) (arg7 : Memref sig .tc .vmem S1x8x128 .f32) (harg7 : arg7.IsWhole) (arg8 : Memref sig .tc .vmem S128x256 .f32) (harg8 : arg8.IsWhole) (arg9 : Memref sig .tc .vmem S8x128 .f32) (harg9 : arg9.IsWhole) (hc0 : ¬cond0_0 i) (hc1 : cond0_1 i) (x0 : Vec F S4096x256 .f32) (x1 : Vec F S4096x1 .i32) (x2 : Vec F S256x256 .f32) (x3 : Vec F S1x256 .f32) (xs0 : Vec F S128x256 .f32) (xs1 : Vec F S8x128 .f32) : Vec F S128x256 .f32 :=
  VS0_0.read (Elt F) (VS0_0.writes (Elt F) VS0_0.junk (kernelRun0_C c i arg2 harg2 arg3 harg3 arg4 harg4 arg5 harg5 arg6 harg6 arg7 harg7 arg8 harg8 arg9 harg9 hc0 hc1 x0 x1 x2 x3 xs0 xs1).2.2.1)
def sC1 (c : Dev nD) (i : grid0.Coords) (arg2 : Memref sig .tc .vmem S4096x256 .f32) (harg2 : arg2.IsWhole) (arg3 : Memref sig .tc .vmem S4096x1 .i32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x128x256 .f32) (harg6 : arg6.IsWhole) (arg7 : Memref sig .tc .vmem S1x8x128 .f32) (harg7 : arg7.IsWhole) (arg8 : Memref sig .tc .vmem S128x256 .f32) (harg8 : arg8.IsWhole) (arg9 : Memref sig .tc .vmem S8x128 .f32) (harg9 : arg9.IsWhole) (hc0 : ¬cond0_0 i) (hc1 : cond0_1 i) (x0 : Vec F S4096x256 .f32) (x1 : Vec F S4096x1 .i32) (x2 : Vec F S256x256 .f32) (x3 : Vec F S1x256 .f32) (xs0 : Vec F S128x256 .f32) (xs1 : Vec F S8x128 .f32) : Vec F S8x128 .f32 :=
  VS0_1.read (Elt F) (VS0_1.writes (Elt F) VS0_1.junk (kernelRun0_C c i arg2 harg2 arg3 harg3 arg4 harg4 arg5 harg5 arg6 harg6 arg7 harg7 arg8 harg8 arg9 harg9 hc0 hc1 x0 x1 x2 x3 xs0 xs1).2.2.2.1)
theorem coverC_4 (c : Dev nD) (i : grid0.Coords) (arg2 : Memref sig .tc .vmem S4096x256 .f32) (harg2 : arg2.IsWhole) (arg3 : Memref sig .tc .vmem S4096x1 .i32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x128x256 .f32) (harg6 : arg6.IsWhole) (arg7 : Memref sig .tc .vmem S1x8x128 .f32) (harg7 : arg7.IsWhole) (arg8 : Memref sig .tc .vmem S128x256 .f32) (harg8 : arg8.IsWhole) (arg9 : Memref sig .tc .vmem S8x128 .f32) (harg9 : arg9.IsWhole) (hc0 : ¬cond0_0 i) (hc1 : cond0_1 i) (x0 : Vec F S4096x256 .f32) (x1 : Vec F S4096x1 .i32) (x2 : Vec F S256x256 .f32) (x3 : Vec F S1x256 .f32) (xs0 : Vec F S128x256 .f32) (xs1 : Vec F S8x128 .f32) (y : S1x128x256.Idx) :
    ∃ pc ∈ (kernelRun0_C c i arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs0 xs1).1 S1x128x256.size (by sl_kernel_rfl) y
theorem coverC_5 (c : Dev nD) (i : grid0.Coords) (arg2 : Memref sig .tc .vmem S4096x256 .f32) (harg2 : arg2.IsWhole) (arg3 : Memref sig .tc .vmem S4096x1 .i32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x128x256 .f32) (harg6 : arg6.IsWhole) (arg7 : Memref sig .tc .vmem S1x8x128 .f32) (harg7 : arg7.IsWhole) (arg8 : Memref sig .tc .vmem S128x256 .f32) (harg8 : arg8.IsWhole) (arg9 : Memref sig .tc .vmem S8x128 .f32) (harg9 : arg9.IsWhole) (hc0 : ¬cond0_0 i) (hc1 : cond0_1 i) (x0 : Vec F S4096x256 .f32) (x1 : Vec F S4096x1 .i32) (x2 : Vec F S256x256 .f32) (x3 : Vec F S1x256 .f32) (xs0 : Vec F S128x256 .f32) (xs1 : Vec F S8x128 .f32) (y : S1x8x128.Idx) :
    ∃ pc ∈ (kernelRun0_C c i arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs0 xs1).2.1 S1x8x128.size (by sl_kernel_rfl) y
theorem scoverC_0 (c : Dev nD) (i : grid0.Coords) (arg2 : Memref sig .tc .vmem S4096x256 .f32) (harg2 : arg2.IsWhole) (arg3 : Memref sig .tc .vmem S4096x1 .i32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x128x256 .f32) (harg6 : arg6.IsWhole) (arg7 : Memref sig .tc .vmem S1x8x128 .f32) (harg7 : arg7.IsWhole) (arg8 : Memref sig .tc .vmem S128x256 .f32) (harg8 : arg8.IsWhole) (arg9 : Memref sig .tc .vmem S8x128 .f32) (harg9 : arg9.IsWhole) (hc0 : ¬cond0_0 i) (hc1 : cond0_1 i) (x0 : Vec F S4096x256 .f32) (x1 : Vec F S4096x1 .i32) (x2 : Vec F S256x256 .f32) (x3 : Vec F S1x256 .f32) (xs0 : Vec F S128x256 .f32) (xs1 : Vec F S8x128 .f32) (y : S128x256.Idx) :
    ∃ pc ∈ (kernelRun0_C c i arg2 harg2 arg3 harg3 arg4 harg4 arg5 harg5 arg6 harg6 arg7 harg7 arg8 harg8 arg9 harg9 hc0 hc1 x0 x1 x2 x3 xs0 xs1).2.2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs0 xs1).2.2.1 S128x256.size (by sl_kernel_rfl) y
theorem scoverC_1 (c : Dev nD) (i : grid0.Coords) (arg2 : Memref sig .tc .vmem S4096x256 .f32) (harg2 : arg2.IsWhole) (arg3 : Memref sig .tc .vmem S4096x1 .i32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x128x256 .f32) (harg6 : arg6.IsWhole) (arg7 : Memref sig .tc .vmem S1x8x128 .f32) (harg7 : arg7.IsWhole) (arg8 : Memref sig .tc .vmem S128x256 .f32) (harg8 : arg8.IsWhole) (arg9 : Memref sig .tc .vmem S8x128 .f32) (harg9 : arg9.IsWhole) (hc0 : ¬cond0_0 i) (hc1 : cond0_1 i) (x0 : Vec F S4096x256 .f32) (x1 : Vec F S4096x1 .i32) (x2 : Vec F S256x256 .f32) (x3 : Vec F S1x256 .f32) (xs0 : Vec F S128x256 .f32) (xs1 : Vec F S8x128 .f32) (y : S8x128.Idx) :
    ∃ pc ∈ (kernelRun0_C c i arg2 harg2 arg3 harg3 arg4 harg4 arg5 harg5 arg6 harg6 arg7 harg7 arg8 harg8 arg9 harg9 hc0 hc1 x0 x1 x2 x3 xs0 xs1).2.2.2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs0 xs1).2.2.2.1 S8x128.size (by sl_kernel_rfl) y

section
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The accumulation: the kept buffers after each point -/

/-- The sums and the counts after the body at position n: at the first point of a row what the reset case leaves,
    elsewhere what the case leaves over what the point before left. -/
def scAt0 (c : Dev nD) : (n : ℕ) → n < cfg0.N → Vec F S128x256 .f32 × Vec F S8x128 .f32
  | 0, hn =>
    (sA0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _)
        ((hcond0_0 ⟨0, hn⟩).mpr (Nat.zero_mod _)) (fun h => (fun h => by (try dsimp only at h); omega) ((hcond0_1 ⟨0, hn⟩).mp h))
        (iblk0 V c 0 ⟨0, hn⟩) (iblk0 V c 1 ⟨0, hn⟩) (iblk0 V c 2 ⟨0, hn⟩) (iblk0 V c 3 ⟨0, hn⟩),
     sA1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _)
        ((hcond0_0 ⟨0, hn⟩).mpr (Nat.zero_mod _)) (fun h => (fun h => by (try dsimp only at h); omega) ((hcond0_1 ⟨0, hn⟩).mp h))
        (iblk0 V c 0 ⟨0, hn⟩) (iblk0 V c 1 ⟨0, hn⟩) (iblk0 V c 2 ⟨0, hn⟩) (iblk0 V c 3 ⟨0, hn⟩))
  | n + 1, hn =>
    if h0 : (n + 1) % 8 = 0 then
      (sA0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _)
          ((hcond0_0 ⟨n + 1, hn⟩).mpr h0) (fun h => (fun h => by (try dsimp only at h); omega) ((hcond0_1 ⟨n + 1, hn⟩).mp h))
          (iblk0 V c 0 ⟨n + 1, hn⟩) (iblk0 V c 1 ⟨n + 1, hn⟩) (iblk0 V c 2 ⟨n + 1, hn⟩) (iblk0 V c 3 ⟨n + 1, hn⟩),
       sA1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _)
          ((hcond0_0 ⟨n + 1, hn⟩).mpr h0) (fun h => (fun h => by (try dsimp only at h); omega) ((hcond0_1 ⟨n + 1, hn⟩).mp h))
          (iblk0 V c 0 ⟨n + 1, hn⟩) (iblk0 V c 1 ⟨n + 1, hn⟩) (iblk0 V c 2 ⟨n + 1, hn⟩) (iblk0 V c 3 ⟨n + 1, hn⟩))
    else
      if h1 : (n + 1) % 8 = 7 then
        (sC0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _)
            (fun h => h0 ((hcond0_0 ⟨n + 1, hn⟩).mp h)) ((hcond0_1 ⟨n + 1, hn⟩).mpr h1)
            (iblk0 V c 0 ⟨n + 1, hn⟩) (iblk0 V c 1 ⟨n + 1, hn⟩) (iblk0 V c 2 ⟨n + 1, hn⟩) (iblk0 V c 3 ⟨n + 1, hn⟩) (scAt0 c n (Nat.lt_of_succ_lt hn)).1 (scAt0 c n (Nat.lt_of_succ_lt hn)).2,
         sC1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _)
            (fun h => h0 ((hcond0_0 ⟨n + 1, hn⟩).mp h)) ((hcond0_1 ⟨n + 1, hn⟩).mpr h1)
            (iblk0 V c 0 ⟨n + 1, hn⟩) (iblk0 V c 1 ⟨n + 1, hn⟩) (iblk0 V c 2 ⟨n + 1, hn⟩) (iblk0 V c 3 ⟨n + 1, hn⟩) (scAt0 c n (Nat.lt_of_succ_lt hn)).1 (scAt0 c n (Nat.lt_of_succ_lt hn)).2)
      else
        (sB0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _)
            (fun h => h0 ((hcond0_0 ⟨n + 1, hn⟩).mp h)) (fun h => h1 ((hcond0_1 ⟨n + 1, hn⟩).mp h))
            (iblk0 V c 0 ⟨n + 1, hn⟩) (iblk0 V c 1 ⟨n + 1, hn⟩) (iblk0 V c 2 ⟨n + 1, hn⟩) (iblk0 V c 3 ⟨n + 1, hn⟩) (scAt0 c n (Nat.lt_of_succ_lt hn)).1 (scAt0 c n (Nat.lt_of_succ_lt hn)).2,
         sB1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _)
            (fun h => h0 ((hcond0_0 ⟨n + 1, hn⟩).mp h)) (fun h => h1 ((hcond0_1 ⟨n + 1, hn⟩).mp h))
            (iblk0 V c 0 ⟨n + 1, hn⟩) (iblk0 V c 1 ⟨n + 1, hn⟩) (iblk0 V c 2 ⟨n + 1, hn⟩) (iblk0 V c 3 ⟨n + 1, hn⟩) (scAt0 c n (Nat.lt_of_succ_lt hn)).1 (scAt0 c n (Nat.lt_of_succ_lt hn)).2)

/-- At the first point of a row: the reset case's contents. -/
theorem scAt0_A (c : Dev nD) (t : Fin cfg0.N) (h0 : t.val % 8 = 0) (h1 : ¬t.val % 8 = 7) :
    scAt0 V c t.val t.isLt
      = (sA0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t),
         sA1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t)) := by
  obtain ⟨n, hn⟩ := t
  cases n with
  | zero => exact rfl
  | succ n => exact (dif_pos h0).trans rfl

/-- At a middle point: the accumulating case's contents over what the point before left. -/
theorem scAt0_B (c : Dev nD) (t : Fin cfg0.N) (h0 : ¬t.val % 8 = 0) (h1 : ¬t.val % 8 = 7) :
    scAt0 V c t.val t.isLt
      = (sB0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (scAt0 V c (t.val - 1) (Nat.lt_of_le_of_lt (Nat.sub_le _ _) t.isLt)).1 (scAt0 V c (t.val - 1) (Nat.lt_of_le_of_lt (Nat.sub_le _ _) t.isLt)).2,
         sB1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (scAt0 V c (t.val - 1) (Nat.lt_of_le_of_lt (Nat.sub_le _ _) t.isLt)).1 (scAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At the last point of a row: the writing case's contents over what the point before left. -/
theorem scAt0_C (c : Dev nD) (t : Fin cfg0.N) (h0 : ¬t.val % 8 = 0) (h1 : t.val % 8 = 7) :
    scAt0 V c t.val t.isLt
      = (sC0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (scAt0 V c (t.val - 1) (Nat.lt_of_le_of_lt (Nat.sub_le _ _) t.isLt)).1 (scAt0 V c (t.val - 1) (Nat.lt_of_le_of_lt (Nat.sub_le _ _) t.isLt)).2,
         sC1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (scAt0 V c (t.val - 1) (Nat.lt_of_le_of_lt (Nat.sub_le _ _) t.isLt)).1 (scAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- What the sums' output window's buffer holds after the body: at the last point of a row the copy the writing case
    makes; elsewhere the window is idle and this value is consulted by nothing. -/
def out4At (c : Dev nD) (t : Fin cfg0.N) : Vec F S1x128x256 .f32 :=
  if h1 : t.val % 8 = 7 then
    o4C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => (fun h => by (try dsimp only at h); omega) ((hcond0_0 t).mp h)) ((hcond0_1 t).mpr h1) (iblk0 V c 0 t) (iblk0 V c 1 t) (iblk0 V c 2 t) (iblk0 V c 3 t) (scAt0 V c (t.val - 1) (Nat.lt_of_le_of_lt (Nat.sub_le _ _) t.isLt)).1 (scAt0 V c (t.val - 1) (Nat.lt_of_le_of_lt (Nat.sub_le _ _) t.isLt)).2
  else VO0_4.read (Elt F) VO0_4.junk
/-- The same for the counts' output window. -/
def out5At (c : Dev nD) (t : Fin cfg0.N) : Vec F S1x8x128 .f32 :=
  if h1 : t.val % 8 = 7 then
    o5C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => (fun h => by (try dsimp only at h); omega) ((hcond0_0 t).mp h)) ((hcond0_1 t).mpr h1) (iblk0 V c 0 t) (iblk0 V c 1 t) (iblk0 V c 2 t) (iblk0 V c 3 t) (scAt0 V c (t.val - 1) (Nat.lt_of_le_of_lt (Nat.sub_le _ _) t.isLt)).1 (scAt0 V c (t.val - 1) (Nat.lt_of_le_of_lt (Nat.sub_le _ _) t.isLt)).2
  else VO0_5.read (Elt F) VO0_5.junk

theorem out4At_C (c : Dev nD) (t : Fin cfg0.N) (h0 : ¬t.val % 8 = 0) (h1 : t.val % 8 = 7) :
    out4At V c t = o4C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (scAt0 V c (t.val - 1) (Nat.lt_of_le_of_lt (Nat.sub_le _ _) t.isLt)).1 (scAt0 V c (t.val - 1) (Nat.lt_of_le_of_lt (Nat.sub_le _ _) t.isLt)).2 := by
  unfold out4At; exact dif_pos h1
theorem out5At_C (c : Dev nD) (t : Fin cfg0.N) (h0 : ¬t.val % 8 = 0) (h1 : t.val % 8 = 7) :
    out5At V c t = o5C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (scAt0 V c (t.val - 1) (Nat.lt_of_le_of_lt (Nat.sub_le _ _) t.isLt)).1 (scAt0 V c (t.val - 1) (Nat.lt_of_le_of_lt (Nat.sub_le _ _) t.isLt)).2 := by
  unfold out5At; exact dif_pos h1

/-! ## The region's invariant -/

/-- Before position n: before the first point the class's invariant (the kept buffers at anything); afterwards the
    kept buffers at what the point before left, the other scoped buffers at anything, the generator register at some
    state. -/
def PhiS (c : Dev nD) : (n : ℕ) → n ≤ cfg0.N → sProp 𝕄
  | 0, _ => Pipeline.ΦA spec0 c
  | n + 1, hn => iprop(iprop(owns (c : Thread nD τ) scM0_0 fullShare ((scAt0 V c n hn).1) ∗ owns (c : Thread nD τ) scM0_1 fullShare ((scAt0 V c n hn).2) ∗ otherScoped (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((scAt0 V c n hn).1) ∗ owns (c : Thread nD τ) scM0_1 fullShare ((scAt0 V c n hn).2) ∗ otherScoped (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare ((scAt0 V c (n - 1) (by omega)).1) ∗ owns (c : Thread nD τ) scM0_1 fullShare ((scAt0 V c (n - 1) (by omega)).2) ∗ otherScoped (F := F) c) ∗ (∃ r, prngReg c r)) := by
  cases n with
  | zero => exact absurd rfl hz
  | succ n => rfl

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out4At V c t
    | ⟨5, _⟩ => out5At V c t
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out4At V c t := by dsimp only [dat0]
theorem after0_5 (c : Dev nD) (t : Fin cfg0.N) : (dat0 V c).after 5 t = out5At V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

end

end Cert.Kernel.Hand

end
-- ==== Proof.FrameB.Head.lean ====
/-
  Region 1 of the kernel's program: the distance kernel, one grid point per block of 2048 query rows.
  At a point the body reads seven input blocks (the query block and six whole operands: both weight matrices
  transposed, both biases as rows, the prototypes transposed, their squared norms) and stores one block of the
  output whole. This module states what that store leaves in the output's staging buffer as a function of the
  seven blocks, proves the body's triple, and gives the pipeline's proof data over the arrays as the region
  finds them (a parameter), with the per-point obligation.
-/
import proofs.«422305_j79542794322400_3_alg».proof.Proof.Gen.Kernel.Launch
import proofs.«422305_j79542794322400_3_alg».proof.Proof.Gen.Kernel.Skeleton
import proofs.«422305_j79542794322400_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, whether the point fetches it or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, whether the point fetches it or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, whether the point fetches it or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, whether the point fetches it or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every point, whether the point fetches it or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's staging buffer holds its block at every point, whether the point fetches it or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's staging buffer holds its block at every point, whether the point fetches it or not. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

end

/-! ## The body's accesses: every load and the one store take a whole buffer -/

abbrev rq : Rect S2048x256 := Rect.unit (s := S2048x256) ![0, 0] S2048x256.size inb_S2048x256_S2048x256_0_0
abbrev rw : Rect S256x256 := Rect.unit (s := S256x256) ![0, 0] S256x256.size inb_S256x256_S256x256_0_0
abbrev rb : Rect S1x256 := Rect.unit (s := S1x256) ![0, 0] S1x256.size inb_S1x256_S1x256_0_0
abbrev rp : Rect S256x128 := Rect.unit (s := S256x128) ![0, 0] S256x128.size inb_S256x128_S256x128_0_0
abbrev rn : Rect S1x128 := Rect.unit (s := S1x128) ![0, 0] S1x128.size inb_S1x128_S1x128_0_0
abbrev ro : Rect S2048x128 := Rect.unit (s := S2048x128) ![0, 0] S2048x128.size inb_S2048x128_S2048x128_0_0

/-- What the body leaves in the output's staging buffer, from the seven input blocks: the negated clamped
    distance expression of the loaded blocks, stored over the whole buffer. -/
def out1_7 (x0 : Vec F S2048x256 .f32) (x1 : Vec F S256x256 .f32) (x2 : Vec F S1x256 .f32) (x3 : Vec F S256x256 .f32) (x4 : Vec F S1x256 .f32) (x5 : Vec F S256x128 .bf16) (x6 : Vec F S1x128 .f32) : Vec F S2048x128 .f32 :=
  View.canon [⟨ro, k1_pay1 (k1_pay2 (View.ld x0 rq) (View.ld x1 rw) (View.ld x2 rb) (View.ld x3 rw) (View.ld x4 rb) (View.ld x5 rp) (View.ld x6 rn))⟩]

/-- The one store covers the buffer. -/
theorem cover1_7 (p0 : Vec F S2048x128 .f32) (y : S2048x128.Idx) :
    ∃ pc ∈ ([⟨ro, p0⟩] : List (View.Piece (Elt F) S2048x128 .f32)), y ∈ pc.1.set :=
  View.cover_of_tiled [⟨ro, p0⟩] S2048x128.size (by rfl) y

set_option maxHeartbeats 4000000 in
/-- The body on whole staging buffers: the inputs at their contents, the output at anything; it ends with the
    inputs as they were and the output at `out1_7` of the inputs. -/
theorem sound_kernel1 (c : Dev nD) (E : Set ℕ) (i : grid1.Coords) (arg1 : Memref sig .tc .vmem S2048x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x128 .bf16) (harg6 : arg6.IsWhole) (arg7 : Memref sig .tc .vmem S1x128 .f32) (harg7 : arg7.IsWhole) (arg8 : Memref sig .tc .vmem S2048x128 .f32) (harg8 : arg8.IsWhole)
    (x0 : Vec F S2048x256 .f32) (x1 : Vec F S256x256 .f32) (x2 : Vec F S1x256 .f32) (x3 : Vec F S256x256 .f32) (x4 : Vec F S1x256 .f32) (x5 : Vec F S256x128 .bf16) (x6 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out1_7 x0 x1 x2 x3 x4 x5 x6)) -∗ K ⟨⟩))
      ⊢ wp frame (wpE (defs₀ (F := F)) Variants.none c none) E (cc1__head_kernel i arg1 harg1 arg2 harg2 arg3 harg3 arg4 harg4 arg5 harg5 arg6 harg6 arg7 harg7 arg8 harg8) K := by
  simp only [cc1__head_kernel_eq_skeleton]; unfold cc1__head_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

section
variable (V : (c : Dev nD) → (b : Ref sig .tc) → Buf (Elt F) ((c : Thread nD τ).loc b))

/-! ## The pipeline's proof data -/

/-- The proof data of the distance pipeline on core c: the arrays as the region finds them; after the body at a
    point each input's buffer at its block and the output's at `out1_7` of the seven input blocks; the invariant the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t
    = out1_7 (iblk1 V c 0 t) (iblk1 V c 1 t) (iblk1 V c 2 t) (iblk1 V c 3 t) (iblk1 V c 4 t) (iblk1 V c 5 t) (iblk1 V c 6 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' buffers hold their blocks, so the body's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end

end Cert.Kernel.Hand

end
-- ==== Proof.FrameB.Vals.lean ====
/-
  The TensorCore's buffer contents at each boundary of @main's seven segments, folded from the launch memory:
  after the first host stretch (the transposes and reshapes), after region 0 (its arrays at what its write-backs
  leave, every other buffer as before), after the three host stretches between the regions (the partial sums
  combined, the mean, the second layer, the guard, the transposed prototypes and their squared norms), after region 1,
  and after the final slice.
-/
import proofs.«422305_j79542794322400_3_alg».proof.Proof.FrameB.ProtoData
import proofs.«422305_j79542794322400_3_alg».proof.Proof.FrameB.Head

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- Core c's buffers at launch. -/
abbrev W0 : Dev nD → Valuation τ sig (Elt F) := fun c b => m ((c : Dev nD), b)
/-- After the first host stretch (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the three host stretches between the regions (region 1's entry). -/
abbrev W3 : Dev nD → Valuation τ sig (Elt F) := fun c => StableHlo.after hostOps1 (W2 m c)
abbrev W4 : Dev nD → Valuation τ sig (Elt F) := fun c => StableHlo.after hostOps1_1 (W3 m c)
abbrev W5 : Dev nD → Valuation τ sig (Elt F) := fun c => StableHlo.after hostOps1_2 (W4 m c)
abbrev V5 : (c : Dev nD) → (b : Ref sig .tc) → Buf (Elt F) ((c : Thread nD τ).loc b) := fun c b => W5 m c b
/-- At region 1's exit. -/
def W6 (c : Dev nD) : Valuation τ sig (Elt F) :=
  Pipeline.withArrays spec1 c (W5 m c) fun w => (dat1 (V5 m) c).arrAt w cfg1.N
theorem W6_arr (c : Dev nD) (w : Fin cfg1.W) :
    W6 m c (Proc.devRef .tc (Pipeline.arrRef spec1 w)) = (dat1 (V5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
abbrev V6 : (c : Dev nD) → (b : Ref sig .tc) → Buf (Elt F) ((c : Thread nD τ).loc b) := fun c b => W6 m c b
theorem hF1 (c : Dev nD) (w : Fin cfg1.W) : (dat1 (V5 m) c).arrAt w cfg1.N = V6 m c (Pipeline.arrRef spec1 w) :=
  (W6_arr m c w).symm
theorem hrest1 (c : Dev nD) : ∀ b, b ∉ Finset.univ.image (Pipeline.arrRef spec1) → V6 m c b = V5 m c b :=
  fun b hb => W6_of_ne m c b fun w e => hb (Finset.mem_image.mpr ⟨w, Finset.mem_univ _, e⟩)

/-- After the final slice: the contents the program ends with. -/
abbrev W7 : Dev nD → Valuation τ sig (Elt F) := fun c => StableHlo.after hostOps2 (W6 m c)

end Cert.Kernel.Hand

end
-- ==== Proof.FrameB.ProtoBody.lean ====
/-
  Region 0, the obligation: at every grid point the body, called on the windows' current buffers holding their
  blocks and on the kept buffers as the invariant holds them, runs and leaves the invariant at the next position:
  by cases on the point's place in its row (first, middle, last), each case the body's triple for it, the kept
  buffers' found pieces covering them.
-/
import proofs.«422305_j79542794322400_3_alg».proof.Proof.FrameB.ProtoData

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 8000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS V c (t.val + 1) t.isLt from rfl, PhiS_succ]
  have hN : t.val < 16 := lt_of_lt_of_eq t.isLt (show cfg0.N = 16 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  by_cases h0 : t.val % 8 = 0
  · have h1 : ¬t.val % 8 = 7 := by omega
    rw [Dat.leavesExact_idle (dat0 V c) 4 t (idleAt0_4 t (fun h => h1 ((hcond0_1 t).mp h))) (noFlush0_4 t (fun h => h1 ((hcond0_1 t).mp h)))]
    rw [Dat.leavesExact_idle (dat0 V c) 5 t (idleAt0_5 t (fun h => h1 ((hcond0_1 t).mp h))) (noFlush0_5 t (fun h => h1 ((hcond0_1 t).mp h)))]
    rw [scAt0_A V c t h0 h1]
    unfold sA0 sA1; (try dsimp only)
    by_cases hz : t.val = 0
    · rw [PhiS_castSucc V c t, PhiS_zero V c _ _ hz, PhiA0_eq]
      iintro ⟨⟨⟨HS0, HS1, Hoth⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ _ _ ((hcond0_0 t).mpr h0) (fun h => h1 ((hcond0_1 t).mp h)) (iblk0 V c 0 t) (iblk0 V c 1 t) (iblk0 V c 2 t) (iblk0 V c 3 t)).2.2 Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (scoverA_0 c _ _ _ _ _ _ _ _ _ _ _ _ _ _ _ _ _ _ _ _ _ _ _)
          isplitl [HS1]
          · unfold owns; iexists _; isplitr
            swap; · iexact HS1
            ipureintro; exact View.read_writes_of_cover _ _ _ _ _ (scoverA_1 c _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
    · rw [PhiS_castSucc V c t, PhiS_pos V c _ _ hz]
      iintro ⟨⟨⟨HS0, HS1, Hoth⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ _ _ ((hcond0_0 t).mpr h0) (fun h => h1 ((hcond0_1 t).mp h)) (iblk0 V c 0 t) (iblk0 V c 1 t) (iblk0 V c 2 t) (iblk0 V c 3 t)).2.2 Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      iintro ⟨H0, H1, H2, H3, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (scoverA_0 c _ _ _ _ _ _ _ _ _ _ _ _ _ _ _ _ _ _ _ _ _ _ _)
          isplitl [HS1]
          · unfold owns; iexists _; isplitr
            swap; · iexact HS1
            ipureintro; exact View.read_writes_of_cover _ _ _ _ _ (scoverA_1 c _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
  · have hz : t.val ≠ 0 := fun hz => h0 (by rw [hz])
    by_cases h1 : t.val % 8 = 7
    · rw [show (dat0 V c).leavesExact 4 t = owns (c : Thread nD τ) (ms0_4 t) fullShare ((dat0 V c).after 4 t) from by
        unfold Dat.leavesExact; rw [liveAt0_4 t ((hcond0_1 t).mpr h1)], after0_4]
      rw [show (dat0 V c).leavesExact 5 t = owns (c : Thread nD τ) (ms0_5 t) fullShare ((dat0 V c).after 5 t) from by
        unfold Dat.leavesExact; rw [liveAt0_5 t ((hcond0_1 t).mpr h1)], after0_5]
      rw [scAt0_C V c t h0 h1, out4At_C V c t h0 h1, out5At_C V c t h0 h1]
      unfold sC0 sC1 o4C o5C; (try dsimp only)
      rw [PhiS_castSucc V c t, PhiS_pos V c _ _ hz]
      iintro ⟨⟨⟨HS0, HS1, Hoth⟩, Hg⟩, Ho, ⟨%d0, H0⟩, ⟨%d1, H1⟩, ⟨%d2, H2⟩, ⟨%d3, H3⟩, ⟨%d4, H4⟩, ⟨%d5, H5⟩⟩
      iapply ((kernelRun0_C c (grid0.coords t) _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) _ _).2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      iintro ⟨H0, H1, H2, H3, ⟨%e4, H4⟩, ⟨%e5, H5⟩, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (scoverC_0 c _ _ _ _ _ _ _ _ _ _ _ _ _ _ _ _ _ _ _ _ _ _ _ _ _)
          isplitl [HS1]
          · unfold owns; iexists _; isplitr
            swap; · iexact HS1
            ipureintro; exact View.read_writes_of_cover _ _ _ _ _ (scoverC_1 c _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (coverC_4 c _ _ _ _ _ _ _ _ _ _ _ _ _ _ _ _ _ _ _ _ _ _ _ _ _)
      unfold owns; iexists _; isplitr
      swap; · iexact H5
      ipureintro; exact View.read_writes_of_cover _ _ _ _ _ (coverC_5 c _ _ _ _ _ _ _ _ _ _ _ _ _ _ _ _ _ _ _ _ _ _ _ _ _)
    · rw [Dat.leavesExact_idle (dat0 V c) 4 t (idleAt0_4 t (fun h => h1 ((hcond0_1 t).mp h))) (noFlush0_4 t (fun h => h1 ((hcond0_1 t).mp h)))]
      rw [Dat.leavesExact_idle (dat0 V c) 5 t (idleAt0_5 t (fun h => h1 ((hcond0_1 t).mp h))) (noFlush0_5 t (fun h => h1 ((hcond0_1 t).mp h)))]
      rw [scAt0_B V c t h0 h1]
      unfold sB0 sB1; (try dsimp only)
      rw [PhiS_castSucc V c t, PhiS_pos V c _ _ hz]
      iintro ⟨⟨⟨HS0, HS1, Hoth⟩, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) _ _).2.2 Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (scoverB_0 c _ _ _ _ _ _ _ _ _ _ _ _ _ _ _ _ _ _ _ _ _ _ _ _ _)
          isplitl [HS1]
          · unfold owns; iexists _; isplitr
            swap; · iexact HS1
            ipureintro; exact View.read_writes_of_cover _ _ _ _ _ (scoverB_1 c _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is handed is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point the invariant gives the class's invariant back: the kept buffers' named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, Hoth⟩, Hg⟩
  isplitl [HS0 HS1 Hoth]
  · isplitl [HS0]; · iexists _; iexact HS0
    isplitl [HS1]; · iexists _; iexact HS1
    iexact Hoth
  iexact Hg

theorem hout0 (c : Dev nD) : (dat0 V c).Φ (Fin.last cfg0.N) ⊢ Pipeline.ΦA spec0 c :=
  Phi_out0 V c _ (by rw [Fin.val_last]; have : cfg0.N = 16 := N_0; omega)

end

end Cert.Kernel.Hand

end
-- ==== Proof.FrameB.Run.lean ====
/-
  The run of the kernel's program: @main as seven segments (a host stretch, region 0, three host stretches,
  region 1, a host stretch), each region entered from every unscoped buffer at the boundary's contents and left
  at the next boundary's, the kept buffers and the generator register inside the regions' invariants, nothing owed.
  Every weakly fair execution terminates with every unscoped buffer at the last boundary's contents; the argument
  arrays are written by no segment.
-/
import proofs.«422305_j79542794322400_3_alg».proof.Proof.FrameB.Vals
import proofs.«422305_j79542794322400_3_alg».proof.Proof.FrameB.ProtoBody
import proofs.«422305_j79542794322400_3_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    dues, at nothing. -/
abbrev R (c : Dev nD) : sProp 𝕄 := iprop((∃ r, prngReg c r) ∗ ∃ W, owes (c : Thread nD τ) (0 : CellTallies nD τ sig Unit) W)
/-- A host stretch as a segment over the unscoped references from the contents W, R riding along: it leaves those
    references at the contents after the stretch. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state without the dues: every unscoped buffer at the last boundary's contents, the generator
    register at some state. -/
abbrev Tₙ (c : Dev nD) : sProp 𝕄 := iprop(StableHlo.held (c : Thread nD τ) (Pipeline.ucRefs τ sig) (W7 m c) ∗ ∃ r, prngReg c r)

/-- The last host stretch leaves the last thread state beside the core's dues, at nothing. -/
theorem last_link (c : Dev nD) :
    iprop(StableHlo.held (c : Thread nD τ) (Pipeline.ucRefs τ sig) (W7 m c) ∗ R (F := F) c)
      ⊢ iprop(Tₙ m c ∗ ∃ W, owes (c : Thread nD τ) (0 : CellTallies nD τ sig Unit) W) := by
  iintro ⟨Hh, Hp, HO⟩
  isplitl [Hh Hp]
  · isplitl [Hh]; · iexact Hh
    iexact Hp
  iexact HO

/-! ## The regions as segments -/

set_option backward.isDefEq.respectTransparency.types false in
/-- REGION 0 over the thread state: entered from every unscoped buffer at the boundary before it, left at the
    boundary after it. Its arrays are split out of the unscoped buffers and put back at the exit contents; the
    generator register goes into the region's invariant and comes back; nothing is owed; the kernel has no semaphore
    of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans (Q := Pipeline.ΦA spec0 c) ?_ (hin0 (V1 m) c)
    unfold Pipeline.ΦA
    iintro ⟨Hp, -, Hr⟩
    isplitl [Hr]; · iexact Hr
    iexact Hp
  hout c := by
    refine BIBase.Entails.trans (Q := Pipeline.ΦA spec0 c) (hout0 (V1 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at the boundary before it, left at the
    boundary after it. Its arrays are split out of the unscoped buffers and put back at the exit contents; the
    generator register goes into the region's invariant and comes back; nothing is owed; the kernel has no semaphore
    of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (V5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V5 m c) (V6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's seven segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .host (hseg hostOps1_2 hostOps1_2_sub hostOps1_2_fresh (W4 m)),
    .region (reg1 m),
    .host (hseg hostOps2 hostOps2_sub hostOps2_fresh (W6 m)) ]
/-- @main is the run of the segments. -/
theorem main_run (c : Dev nD) : main (F := F) c = Pipeline.Seg.run (segs m) := (main_chain c).trans (by chain_rfl)

set_option backward.isDefEq.respectTransparency.types false in
/-- THE RUN: every weakly fair execution of @main from memory m with zero counters terminates, and every final memory
    holds every unscoped buffer of every core at the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun c => last_link m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h => h)

/-- No segment writes an argument array: the last boundary has each at its launch contents. -/
theorem W7_main_arg0 (c : Dev nD) : W7 m c (Proc.devRef .tc main_arg0) = m ((c : Thread nD τ).loc main_arg0) :=
  calc W7 m c (Proc.devRef .tc main_arg0)
    _ = W6 m c (Proc.devRef .tc main_arg0) := StableHlo.after_of_writes_sub hostOps2 _ hostOps2_writes (by decide)
    _ = W5 m c (Proc.devRef .tc main_arg0) := (W6_arr m c 0).trans (((dat1 (V5 m) c).arrAt_in 0 rfl _).trans (A_eq1 (V5 m) c 0))
    _ = W4 m c (Proc.devRef .tc main_arg0) := StableHlo.after_of_writes_sub hostOps1_2 _ hostOps1_2_writes (by decide)
    _ = W3 m c (Proc.devRef .tc main_arg0) := StableHlo.after_of_writes_sub hostOps1_1 _ hostOps1_1_writes (by decide)
    _ = W2 m c (Proc.devRef .tc main_arg0) := StableHlo.after_of_writes_sub hostOps1 _ hostOps1_writes (by decide)
    _ = W1 m c (Proc.devRef .tc main_arg0) := W2_of_ne m c main_arg0 (by decide)
    _ = W0 m c (Proc.devRef .tc main_arg0) := StableHlo.after_of_writes_sub hostOps0 _ hostOps0_writes (by decide)
    _ = m ((c : Thread nD τ).loc main_arg0) := rfl
theorem W7_main_arg1 (c : Dev nD) : W7 m c (Proc.devRef .tc main_arg1) = m ((c : Thread nD τ).loc main_arg1) :=
  calc W7 m c (Proc.devRef .tc main_arg1)
    _ = W6 m c (Proc.devRef .tc main_arg1) := StableHlo.after_of_writes_sub hostOps2 _ hostOps2_writes (by decide)
    _ = W5 m c (Proc.devRef .tc main_arg1) := W6_of_ne m c main_arg1 (by decide)
    _ = W4 m c (Proc.devRef .tc main_arg1) := StableHlo.after_of_writes_sub hostOps1_2 _ hostOps1_2_writes (by decide)
    _ = W3 m c (Proc.devRef .tc main_arg1) := StableHlo.after_of_writes_sub hostOps1_1 _ hostOps1_1_writes (by decide)
    _ = W2 m c (Proc.devRef .tc main_arg1) := StableHlo.after_of_writes_sub hostOps1 _ hostOps1_writes (by decide)
    _ = W1 m c (Proc.devRef .tc main_arg1) := (W2_arr m c 0).trans (((dat0 (V1 m) c).arrAt_in 0 rfl _).trans (A_eq0 (V1 m) c 0))
    _ = W0 m c (Proc.devRef .tc main_arg1) := StableHlo.after_of_writes_sub hostOps0 _ hostOps0_writes (by decide)
    _ = m ((c : Thread nD τ).loc main_arg1) := rfl
theorem W7_main_arg2 (c : Dev nD) : W7 m c (Proc.devRef .tc main_arg2) = m ((c : Thread nD τ).loc main_arg2) :=
  calc W7 m c (Proc.devRef .tc main_arg2)
    _ = W6 m c (Proc.devRef .tc main_arg2) := StableHlo.after_of_writes_sub hostOps2 _ hostOps2_writes (by decide)
    _ = W5 m c (Proc.devRef .tc main_arg2) := W6_of_ne m c main_arg2 (by decide)
    _ = W4 m c (Proc.devRef .tc main_arg2) := StableHlo.after_of_writes_sub hostOps1_2 _ hostOps1_2_writes (by decide)
    _ = W3 m c (Proc.devRef .tc main_arg2) := StableHlo.after_of_writes_sub hostOps1_1 _ hostOps1_1_writes (by decide)
    _ = W2 m c (Proc.devRef .tc main_arg2) := StableHlo.after_of_writes_sub hostOps1 _ hostOps1_writes (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl
theorem W7_main_arg3 (c : Dev nD) : W7 m c (Proc.devRef .tc main_arg3) = m ((c : Thread nD τ).loc main_arg3) :=
  calc W7 m c (Proc.devRef .tc main_arg3)
    _ = W6 m c (Proc.devRef .tc main_arg3) := StableHlo.after_of_writes_sub hostOps2 _ hostOps2_writes (by decide)
    _ = W5 m c (Proc.devRef .tc main_arg3) := W6_of_ne m c main_arg3 (by decide)
    _ = W4 m c (Proc.devRef .tc main_arg3) := StableHlo.after_of_writes_sub hostOps1_2 _ hostOps1_2_writes (by decide)
    _ = W3 m c (Proc.devRef .tc main_arg3) := StableHlo.after_of_writes_sub hostOps1_1 _ hostOps1_1_writes (by decide)
    _ = W2 m c (Proc.devRef .tc main_arg3) := StableHlo.after_of_writes_sub hostOps1 _ hostOps1_writes (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl
theorem W7_main_arg4 (c : Dev nD) : W7 m c (Proc.devRef .tc main_arg4) = m ((c : Thread nD τ).loc main_arg4) :=
  calc W7 m c (Proc.devRef .tc main_arg4)
    _ = W6 m c (Proc.devRef .tc main_arg4) := StableHlo.after_of_writes_sub hostOps2 _ hostOps2_writes (by decide)
    _ = W5 m c (Proc.devRef .tc main_arg4) := W6_of_ne m c main_arg4 (by decide)
    _ = W4 m c (Proc.devRef .tc main_arg4) := StableHlo.after_of_writes_sub hostOps1_2 _ hostOps1_2_writes (by decide)
    _ = W3 m c (Proc.devRef .tc main_arg4) := StableHlo.after_of_writes_sub hostOps1_1 _ hostOps1_1_writes (by decide)
    _ = W2 m c (Proc.devRef .tc main_arg4) := StableHlo.after_of_writes_sub hostOps1 _ hostOps1_writes (by decide)
    _ = W1 m c (Proc.devRef .tc main_arg4) := W2_of_ne m c main_arg4 (by decide)
    _ = W0 m c (Proc.devRef .tc main_arg4) := StableHlo.after_of_writes_sub hostOps0 _ hostOps0_writes (by decide)
    _ = m ((c : Thread nD τ).loc main_arg4) := rfl
theorem W7_main_arg5 (c : Dev nD) : W7 m c (Proc.devRef .tc main_arg5) = m ((c : Thread nD τ).loc main_arg5) :=
  calc W7 m c (Proc.devRef .tc main_arg5)
    _ = W6 m c (Proc.devRef .tc main_arg5) := StableHlo.after_of_writes_sub hostOps2 _ hostOps2_writes (by decide)
    _ = W5 m c (Proc.devRef .tc main_arg5) := W6_of_ne m c main_arg5 (by decide)
    _ = W4 m c (Proc.devRef .tc main_arg5) := StableHlo.after_of_writes_sub hostOps1_2 _ hostOps1_2_writes (by decide)
    _ = W3 m c (Proc.devRef .tc main_arg5) := StableHlo.after_of_writes_sub hostOps1_1 _ hostOps1_1_writes (by decide)
    _ = W2 m c (Proc.devRef .tc main_arg5) := StableHlo.after_of_writes_sub hostOps1 _ hostOps1_writes (by decide)
    _ = W1 m c (Proc.devRef .tc main_arg5) := W2_of_ne m c main_arg5 (by decide)
    _ = W0 m c (Proc.devRef .tc main_arg5) := StableHlo.after_of_writes_sub hostOps0 _ hostOps0_writes (by decide)
    _ = m ((c : Thread nD τ).loc main_arg5) := rfl
theorem W7_main_arg6 (c : Dev nD) : W7 m c (Proc.devRef .tc main_arg6) = m ((c : Thread nD τ).loc main_arg6) :=
  calc W7 m c (Proc.devRef .tc main_arg6)
    _ = W6 m c (Proc.devRef .tc main_arg6) := StableHlo.after_of_writes_sub hostOps2 _ hostOps2_writes (by decide)
    _ = W5 m c (Proc.devRef .tc main_arg6) := W6_of_ne m c main_arg6 (by decide)
    _ = W4 m c (Proc.devRef .tc main_arg6) := StableHlo.after_of_writes_sub hostOps1_2 _ hostOps1_2_writes (by decide)
    _ = W3 m c (Proc.devRef .tc main_arg6) := StableHlo.after_of_writes_sub hostOps1_1 _ hostOps1_1_writes (by decide)
    _ = W2 m c (Proc.devRef .tc main_arg6) := StableHlo.after_of_writes_sub hostOps1 _ hostOps1_writes (by decide)
    _ = W1 m c (Proc.devRef .tc main_arg6) := W2_of_ne m c main_arg6 (by decide)
    _ = W0 m c (Proc.devRef .tc main_arg6) := StableHlo.after_of_writes_sub hostOps0 _ hostOps0_writes (by decide)
    _ = m ((c : Thread nD τ).loc main_arg6) := rfl

end Cert.Kernel.Hand

end
-- ==== Proof.FrameI.ProtoRuns.lean ====
/-
  Region 0 of the kernel's program: the per-class accumulation, on a grid of 2 × 8 points. A point reads one block
  of 4096 support rows with their labels, the first layer's weights and bias, and two buffers the kernel keeps
  between points: the per-class sums (128 × 256) and the per-class counts (8 × 128, every row the same). At the
  first point of each row of the grid (second coordinate 0) the body zeroes both buffers; at every point it adds
  the block's contribution to both; at the last point of the row (second coordinate 7) it copies both into the
  output windows' buffers. This module decides the two conditions over the grid, says where the output windows
  are idle, and proves the body's triple in each of the three cases, the pieces each written buffer ends with being
  what the run finds.
-/
import proofs.«422305_j79542794322400_3_alg».proof.Proof.Gen.KernelIdeal.Launch
import proofs.«422305_j79542794322400_3_alg».proof.Proof.Gen.KernelIdeal.Skeleton
import proofs.«422305_j79542794322400_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, decided over the grid -/

/-- The reset condition: the point's second coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- The write-out condition: the point's second coordinate is 7. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Where the body does not write out, both output windows are idle and their blocks are not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
/-- Where it does, they are live. -/
theorem liveAt0_4 : ∀ t : Fin cfg0.N, cond0_1 (grid0.coords t) → cfg0.idle 4 (grid0.coords t) = false := by decide +kernel
theorem liveAt0_5 : ∀ t : Fin cfg0.N, cond0_1 (grid0.coords t) → cfg0.idle 5 (grid0.coords t) = false := by decide +kernel

/-! ## The buffers the body is called on -/

abbrev ms0_0 (t : Fin cfg0.N) : Memref sig .tc .vmem S4096x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x8x128 .f32 := win0_5.stage (cfg0.slots t 5)
abbrev hs0_5 (t : Fin cfg0.N) : (ms0_5 t).IsWhole := hstage0_5 ((cfg0.slots t 5).cast nbuf0_5)
/-- The two buffers kept between points: the sums and the counts. -/
abbrev scM0_0 : Memref sig .tc .vmem S128x256 .f32 := Memref.whole cc0_scratch0
abbrev scM0_1 : Memref sig .tc .vmem S8x128 .f32 := Memref.whole cc0_scratch1
/-- Views through which contents are stated. -/
abbrev VS0_0 : View sig .tc .vmem S128x256 .f32 := scM0_0.view
abbrev VS0_1 : View sig .tc .vmem S8x128 .f32 := scM0_1.view
abbrev VO0_4 : View sig .tc .vmem S1x128x256 .f32 := (Memref.whole cc0_stg4_0 : Memref sig .tc .vmem S1x128x256 .f32).view
abbrev VO0_5 : View sig .tc .vmem S1x8x128 .f32 := (Memref.whole cc0_stg5_0 : Memref sig .tc .vmem S1x8x128 .f32).view

/-- The other scoped buffers of the core that this region does not use (the later region's staging buffers), each
    at some contents. -/
def otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f))

/-- The class's invariant spelt out: the two kept buffers at some contents, the other scoped buffers, the generator
    register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ otherScoped (F := F) c) ∗ (∃ r, prngReg c r)) := by
  unfold Pipeline.ΦA otherScoped; rw [scopedRest0_eq]; simp only [scM0_0, scM0_1, owns_whole]; try rfl

/-! ## The body's triple, case by case -/

set_option maxHeartbeats 4000000 in
/-- FIRST POINT OF A ROW (reset taken, write-out not): the inputs' buffers at their contents, the two kept buffers at
    anything; the body ends with the inputs as they were and each kept buffer with the pieces the run finds written. -/
noncomputable def kernelRun0_A (c : Dev nD) (i : grid0.Coords) (arg2 : Memref sig .tc .vmem S4096x256 .f32) (harg2 : arg2.IsWhole) (arg3 : Memref sig .tc .vmem S4096x1 .i32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x128x256 .f32) (harg6 : arg6.IsWhole) (arg7 : Memref sig .tc .vmem S1x8x128 .f32) (harg7 : arg7.IsWhole) (arg8 : Memref sig .tc .vmem S128x256 .f32) (harg8 : arg8.IsWhole) (arg9 : Memref sig .tc .vmem S8x128 .f32) (harg9 : arg9.IsWhole) (hc0 : cond0_0 i) (hc1 : ¬cond0_1 i)
    (x0 : Vec F S4096x256 .f32) (x1 : Vec F S4096x1 .i32) (x2 : Vec F S256x256 .f32) (x3 : Vec F S1x256 .f32) :
    Σ' (LS0 : List (View.Piece (Elt F) S128x256 .f32)), { LS1 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)) -∗ K ⟨⟩))
          ⊢ wp frame (wpE (defs₀ (F := F)) Variants.none c none) E (cc0__proto_kernel i arg2 harg2 arg3 harg3 arg4 harg4 arg5 harg5 arg6 harg6 arg7 harg7 arg8 harg8 arg9 harg9) K } := by
  refine ⟨?_, ?_, fun E K => ?run⟩
  case run =>
    simp only [cc0__proto_kernel_eq_skeleton]; unfold cc0__proto_kernel_skel
    simp only [k0_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

set_option maxHeartbeats 4000000 in
/-- A MIDDLE POINT (neither branch taken): the kept buffers at what the point before left. -/
noncomputable def kernelRun0_B (c : Dev nD) (i : grid0.Coords) (arg2 : Memref sig .tc .vmem S4096x256 .f32) (harg2 : arg2.IsWhole) (arg3 : Memref sig .tc .vmem S4096x1 .i32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x128x256 .f32) (harg6 : arg6.IsWhole) (arg7 : Memref sig .tc .vmem S1x8x128 .f32) (harg7 : arg7.IsWhole) (arg8 : Memref sig .tc .vmem S128x256 .f32) (harg8 : arg8.IsWhole) (arg9 : Memref sig .tc .vmem S8x128 .f32) (harg9 : arg9.IsWhole) (hc0 : ¬cond0_0 i) (hc1 : ¬cond0_1 i)
    (x0 : Vec F S4096x256 .f32) (x1 : Vec F S4096x1 .i32) (x2 : Vec F S256x256 .f32) (x3 : Vec F S1x256 .f32) (xs0 : Vec F S128x256 .f32) (xs1 : Vec F S8x128 .f32) :
    Σ' (LS0 : List (View.Piece (Elt F) S128x256 .f32)), { LS1 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)) -∗ K ⟨⟩))
          ⊢ wp frame (wpE (defs₀ (F := F)) Variants.none c none) E (cc0__proto_kernel i arg2 harg2 arg3 harg3 arg4 harg4 arg5 harg5 arg6 harg6 arg7 harg7 arg8 harg8 arg9 harg9) K } := by
  refine ⟨?_, ?_, fun E K => ?run⟩
  case run =>
    simp only [cc0__proto_kernel_eq_skeleton]; unfold cc0__proto_kernel_skel
    simp only [k0_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

set_option maxHeartbeats 4000000 in
/-- LAST POINT OF A ROW (reset not taken, write-out taken): as a middle point, and the two output windows' buffers, at
    anything before, end with the pieces the run finds written. -/
noncomputable def kernelRun0_C (c : Dev nD) (i : grid0.Coords) (arg2 : Memref sig .tc .vmem S4096x256 .f32) (harg2 : arg2.IsWhole) (arg3 : Memref sig .tc .vmem S4096x1 .i32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x128x256 .f32) (harg6 : arg6.IsWhole) (arg7 : Memref sig .tc .vmem S1x8x128 .f32) (harg7 : arg7.IsWhole) (arg8 : Memref sig .tc .vmem S128x256 .f32) (harg8 : arg8.IsWhole) (arg9 : Memref sig .tc .vmem S8x128 .f32) (harg9 : arg9.IsWhole) (hc0 : ¬cond0_0 i) (hc1 : cond0_1 i)
    (x0 : Vec F S4096x256 .f32) (x1 : Vec F S4096x1 .i32) (x2 : Vec F S256x256 .f32) (x3 : Vec F S1x256 .f32) (xs0 : Vec F S128x256 .f32) (xs1 : Vec F S8x128 .f32) :
    Σ' (L4 : List (View.Piece (Elt F) S1x128x256 .f32)) (L5 : List (View.Piece (Elt F) S1x8x128 .f32)) (LS0 : List (View.Piece (Elt F) S128x256 .f32)), { LS1 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d)
            ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)) -∗ K ⟨⟩))
          ⊢ wp frame (wpE (defs₀ (F := F)) Variants.none c none) E (cc0__proto_kernel i arg2 harg2 arg3 harg3 arg4 harg4 arg5 harg5 arg6 harg6 arg7 harg7 arg8 harg8 arg9 harg9) K } := by
  refine ⟨?_, ?_, ?_, ?_, fun E K => ?run⟩
  case run =>
    simp only [cc0__proto_kernel_eq_skeleton]; unfold cc0__proto_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [HS0]; · iexists _; iexact HS0
    iexists _; iexact HS1

end Cert.KernelIdeal.Hand

end
-- ==== Proof.FrameI.ProtoData.lean ====
/-
  Region 0, continued: what the two kept buffers hold after each grid point, by recursion on the point (the first
  point of a row of the grid starts from the reset, every other point from what the point before left), what the
  two output windows' buffers hold at the last point of a row, the region's invariant (the kept buffers at those
  contents), the pipeline's proof data over the arrays as the region finds them, and the body obligation at every
  point by cases on the point's place in its row.
-/
import proofs.«422305_j79542794322400_3_alg».proof.Proof.FrameI.ProtoRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves in the buffers it writes: the found pieces read back -/

def sA0 (c : Dev nD) (i : grid0.Coords) (arg2 : Memref sig .tc .vmem S4096x256 .f32) (harg2 : arg2.IsWhole) (arg3 : Memref sig .tc .vmem S4096x1 .i32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x128x256 .f32) (harg6 : arg6.IsWhole) (arg7 : Memref sig .tc .vmem S1x8x128 .f32) (harg7 : arg7.IsWhole) (arg8 : Memref sig .tc .vmem S128x256 .f32) (harg8 : arg8.IsWhole) (arg9 : Memref sig .tc .vmem S8x128 .f32) (harg9 : arg9.IsWhole) (hc0 : cond0_0 i) (hc1 : ¬cond0_1 i) (x0 : Vec F S4096x256 .f32) (x1 : Vec F S4096x1 .i32) (x2 : Vec F S256x256 .f32) (x3 : Vec F S1x256 .f32) : Vec F S128x256 .f32 :=
  VS0_0.read (Elt F) (VS0_0.writes (Elt F) VS0_0.junk (kernelRun0_A c i arg2 harg2 arg3 harg3 arg4 harg4 arg5 harg5 arg6 harg6 arg7 harg7 arg8 harg8 arg9 harg9 hc0 hc1 x0 x1 x2 x3).1)
def sA1 (c : Dev nD) (i : grid0.Coords) (arg2 : Memref sig .tc .vmem S4096x256 .f32) (harg2 : arg2.IsWhole) (arg3 : Memref sig .tc .vmem S4096x1 .i32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x128x256 .f32) (harg6 : arg6.IsWhole) (arg7 : Memref sig .tc .vmem S1x8x128 .f32) (harg7 : arg7.IsWhole) (arg8 : Memref sig .tc .vmem S128x256 .f32) (harg8 : arg8.IsWhole) (arg9 : Memref sig .tc .vmem S8x128 .f32) (harg9 : arg9.IsWhole) (hc0 : cond0_0 i) (hc1 : ¬cond0_1 i) (x0 : Vec F S4096x256 .f32) (x1 : Vec F S4096x1 .i32) (x2 : Vec F S256x256 .f32) (x3 : Vec F S1x256 .f32) : Vec F S8x128 .f32 :=
  VS0_1.read (Elt F) (VS0_1.writes (Elt F) VS0_1.junk (kernelRun0_A c i arg2 harg2 arg3 harg3 arg4 harg4 arg5 harg5 arg6 harg6 arg7 harg7 arg8 harg8 arg9 harg9 hc0 hc1 x0 x1 x2 x3).2.1)
theorem scoverA_0 (c : Dev nD) (i : grid0.Coords) (arg2 : Memref sig .tc .vmem S4096x256 .f32) (harg2 : arg2.IsWhole) (arg3 : Memref sig .tc .vmem S4096x1 .i32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x128x256 .f32) (harg6 : arg6.IsWhole) (arg7 : Memref sig .tc .vmem S1x8x128 .f32) (harg7 : arg7.IsWhole) (arg8 : Memref sig .tc .vmem S128x256 .f32) (harg8 : arg8.IsWhole) (arg9 : Memref sig .tc .vmem S8x128 .f32) (harg9 : arg9.IsWhole) (hc0 : cond0_0 i) (hc1 : ¬cond0_1 i) (x0 : Vec F S4096x256 .f32) (x1 : Vec F S4096x1 .i32) (x2 : Vec F S256x256 .f32) (x3 : Vec F S1x256 .f32) (y : S128x256.Idx) :
    ∃ pc ∈ (kernelRun0_A c i arg2 harg2 arg3 harg3 arg4 harg4 arg5 harg5 arg6 harg6 arg7 harg7 arg8 harg8 arg9 harg9 hc0 hc1 x0 x1 x2 x3).1, y ∈ pc.1.set :=
  View.cover_of_tiledL (kernelRun0_A c i arg2 harg2 arg3 harg3 arg4 harg4 arg5 harg5 arg6 harg6 arg7 harg7 arg8 harg8 arg9 harg9 hc0 hc1 x0 x1 x2 x3).1 S128x256.size (by sl_kernel_rfl) y
theorem scoverA_1 (c : Dev nD) (i : grid0.Coords) (arg2 : Memref sig .tc .vmem S4096x256 .f32) (harg2 : arg2.IsWhole) (arg3 : Memref sig .tc .vmem S4096x1 .i32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x128x256 .f32) (harg6 : arg6.IsWhole) (arg7 : Memref sig .tc .vmem S1x8x128 .f32) (harg7 : arg7.IsWhole) (arg8 : Memref sig .tc .vmem S128x256 .f32) (harg8 : arg8.IsWhole) (arg9 : Memref sig .tc .vmem S8x128 .f32) (harg9 : arg9.IsWhole) (hc0 : cond0_0 i) (hc1 : ¬cond0_1 i) (x0 : Vec F S4096x256 .f32) (x1 : Vec F S4096x1 .i32) (x2 : Vec F S256x256 .f32) (x3 : Vec F S1x256 .f32) (y : S8x128.Idx) :
    ∃ pc ∈ (kernelRun0_A c i arg2 harg2 arg3 harg3 arg4 harg4 arg5 harg5 arg6 harg6 arg7 harg7 arg8 harg8 arg9 harg9 hc0 hc1 x0 x1 x2 x3).2.1, y ∈ pc.1.set :=
  View.cover_of_tiledL (kernelRun0_A c i arg2 harg2 arg3 harg3 arg4 harg4 arg5 harg5 arg6 harg6 arg7 harg7 arg8 harg8 arg9 harg9 hc0 hc1 x0 x1 x2 x3).2.1 S8x128.size (by sl_kernel_rfl) y

def sB0 (c : Dev nD) (i : grid0.Coords) (arg2 : Memref sig .tc .vmem S4096x256 .f32) (harg2 : arg2.IsWhole) (arg3 : Memref sig .tc .vmem S4096x1 .i32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x128x256 .f32) (harg6 : arg6.IsWhole) (arg7 : Memref sig .tc .vmem S1x8x128 .f32) (harg7 : arg7.IsWhole) (arg8 : Memref sig .tc .vmem S128x256 .f32) (harg8 : arg8.IsWhole) (arg9 : Memref sig .tc .vmem S8x128 .f32) (harg9 : arg9.IsWhole) (hc0 : ¬cond0_0 i) (hc1 : ¬cond0_1 i) (x0 : Vec F S4096x256 .f32) (x1 : Vec F S4096x1 .i32) (x2 : Vec F S256x256 .f32) (x3 : Vec F S1x256 .f32) (xs0 : Vec F S128x256 .f32) (xs1 : Vec F S8x128 .f32) : Vec F S128x256 .f32 :=
  VS0_0.read (Elt F) (VS0_0.writes (Elt F) VS0_0.junk (kernelRun0_B c i arg2 harg2 arg3 harg3 arg4 harg4 arg5 harg5 arg6 harg6 arg7 harg7 arg8 harg8 arg9 harg9 hc0 hc1 x0 x1 x2 x3 xs0 xs1).1)
def sB1 (c : Dev nD) (i : grid0.Coords) (arg2 : Memref sig .tc .vmem S4096x256 .f32) (harg2 : arg2.IsWhole) (arg3 : Memref sig .tc .vmem S4096x1 .i32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x128x256 .f32) (harg6 : arg6.IsWhole) (arg7 : Memref sig .tc .vmem S1x8x128 .f32) (harg7 : arg7.IsWhole) (arg8 : Memref sig .tc .vmem S128x256 .f32) (harg8 : arg8.IsWhole) (arg9 : Memref sig .tc .vmem S8x128 .f32) (harg9 : arg9.IsWhole) (hc0 : ¬cond0_0 i) (hc1 : ¬cond0_1 i) (x0 : Vec F S4096x256 .f32) (x1 : Vec F S4096x1 .i32) (x2 : Vec F S256x256 .f32) (x3 : Vec F S1x256 .f32) (xs0 : Vec F S128x256 .f32) (xs1 : Vec F S8x128 .f32) : Vec F S8x128 .f32 :=
  VS0_1.read (Elt F) (VS0_1.writes (Elt F) VS0_1.junk (kernelRun0_B c i arg2 harg2 arg3 harg3 arg4 harg4 arg5 harg5 arg6 harg6 arg7 harg7 arg8 harg8 arg9 harg9 hc0 hc1 x0 x1 x2 x3 xs0 xs1).2.1)
theorem scoverB_0 (c : Dev nD) (i : grid0.Coords) (arg2 : Memref sig .tc .vmem S4096x256 .f32) (harg2 : arg2.IsWhole) (arg3 : Memref sig .tc .vmem S4096x1 .i32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x128x256 .f32) (harg6 : arg6.IsWhole) (arg7 : Memref sig .tc .vmem S1x8x128 .f32) (harg7 : arg7.IsWhole) (arg8 : Memref sig .tc .vmem S128x256 .f32) (harg8 : arg8.IsWhole) (arg9 : Memref sig .tc .vmem S8x128 .f32) (harg9 : arg9.IsWhole) (hc0 : ¬cond0_0 i) (hc1 : ¬cond0_1 i) (x0 : Vec F S4096x256 .f32) (x1 : Vec F S4096x1 .i32) (x2 : Vec F S256x256 .f32) (x3 : Vec F S1x256 .f32) (xs0 : Vec F S128x256 .f32) (xs1 : Vec F S8x128 .f32) (y : S128x256.Idx) :
    ∃ pc ∈ (kernelRun0_B c i arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun0_B c i arg2 harg2 arg3 harg3 arg4 harg4 arg5 harg5 arg6 harg6 arg7 harg7 arg8 harg8 arg9 harg9 hc0 hc1 x0 x1 x2 x3 xs0 xs1).1 S128x256.size (by sl_kernel_rfl) y
theorem scoverB_1 (c : Dev nD) (i : grid0.Coords) (arg2 : Memref sig .tc .vmem S4096x256 .f32) (harg2 : arg2.IsWhole) (arg3 : Memref sig .tc .vmem S4096x1 .i32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x128x256 .f32) (harg6 : arg6.IsWhole) (arg7 : Memref sig .tc .vmem S1x8x128 .f32) (harg7 : arg7.IsWhole) (arg8 : Memref sig .tc .vmem S128x256 .f32) (harg8 : arg8.IsWhole) (arg9 : Memref sig .tc .vmem S8x128 .f32) (harg9 : arg9.IsWhole) (hc0 : ¬cond0_0 i) (hc1 : ¬cond0_1 i) (x0 : Vec F S4096x256 .f32) (x1 : Vec F S4096x1 .i32) (x2 : Vec F S256x256 .f32) (x3 : Vec F S1x256 .f32) (xs0 : Vec F S128x256 .f32) (xs1 : Vec F S8x128 .f32) (y : S8x128.Idx) :
    ∃ pc ∈ (kernelRun0_B c i arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRun0_B c i arg2 harg2 arg3 harg3 arg4 harg4 arg5 harg5 arg6 harg6 arg7 harg7 arg8 harg8 arg9 harg9 hc0 hc1 x0 x1 x2 x3 xs0 xs1).2.1 S8x128.size (by sl_kernel_rfl) y

def o4C (c : Dev nD) (i : grid0.Coords) (arg2 : Memref sig .tc .vmem S4096x256 .f32) (harg2 : arg2.IsWhole) (arg3 : Memref sig .tc .vmem S4096x1 .i32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x128x256 .f32) (harg6 : arg6.IsWhole) (arg7 : Memref sig .tc .vmem S1x8x128 .f32) (harg7 : arg7.IsWhole) (arg8 : Memref sig .tc .vmem S128x256 .f32) (harg8 : arg8.IsWhole) (arg9 : Memref sig .tc .vmem S8x128 .f32) (harg9 : arg9.IsWhole) (hc0 : ¬cond0_0 i) (hc1 : cond0_1 i) (x0 : Vec F S4096x256 .f32) (x1 : Vec F S4096x1 .i32) (x2 : Vec F S256x256 .f32) (x3 : Vec F S1x256 .f32) (xs0 : Vec F S128x256 .f32) (xs1 : Vec F S8x128 .f32) : Vec F S1x128x256 .f32 :=
  VO0_4.read (Elt F) (VO0_4.writes (Elt F) VO0_4.junk (kernelRun0_C c i arg2 harg2 arg3 harg3 arg4 harg4 arg5 harg5 arg6 harg6 arg7 harg7 arg8 harg8 arg9 harg9 hc0 hc1 x0 x1 x2 x3 xs0 xs1).1)
def o5C (c : Dev nD) (i : grid0.Coords) (arg2 : Memref sig .tc .vmem S4096x256 .f32) (harg2 : arg2.IsWhole) (arg3 : Memref sig .tc .vmem S4096x1 .i32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x128x256 .f32) (harg6 : arg6.IsWhole) (arg7 : Memref sig .tc .vmem S1x8x128 .f32) (harg7 : arg7.IsWhole) (arg8 : Memref sig .tc .vmem S128x256 .f32) (harg8 : arg8.IsWhole) (arg9 : Memref sig .tc .vmem S8x128 .f32) (harg9 : arg9.IsWhole) (hc0 : ¬cond0_0 i) (hc1 : cond0_1 i) (x0 : Vec F S4096x256 .f32) (x1 : Vec F S4096x1 .i32) (x2 : Vec F S256x256 .f32) (x3 : Vec F S1x256 .f32) (xs0 : Vec F S128x256 .f32) (xs1 : Vec F S8x128 .f32) : Vec F S1x8x128 .f32 :=
  VO0_5.read (Elt F) (VO0_5.writes (Elt F) VO0_5.junk (kernelRun0_C c i arg2 harg2 arg3 harg3 arg4 harg4 arg5 harg5 arg6 harg6 arg7 harg7 arg8 harg8 arg9 harg9 hc0 hc1 x0 x1 x2 x3 xs0 xs1).2.1)
def sC0 (c : Dev nD) (i : grid0.Coords) (arg2 : Memref sig .tc .vmem S4096x256 .f32) (harg2 : arg2.IsWhole) (arg3 : Memref sig .tc .vmem S4096x1 .i32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x128x256 .f32) (harg6 : arg6.IsWhole) (arg7 : Memref sig .tc .vmem S1x8x128 .f32) (harg7 : arg7.IsWhole) (arg8 : Memref sig .tc .vmem S128x256 .f32) (harg8 : arg8.IsWhole) (arg9 : Memref sig .tc .vmem S8x128 .f32) (harg9 : arg9.IsWhole) (hc0 : ¬cond0_0 i) (hc1 : cond0_1 i) (x0 : Vec F S4096x256 .f32) (x1 : Vec F S4096x1 .i32) (x2 : Vec F S256x256 .f32) (x3 : Vec F S1x256 .f32) (xs0 : Vec F S128x256 .f32) (xs1 : Vec F S8x128 .f32) : Vec F S128x256 .f32 :=
  VS0_0.read (Elt F) (VS0_0.writes (Elt F) VS0_0.junk (kernelRun0_C c i arg2 harg2 arg3 harg3 arg4 harg4 arg5 harg5 arg6 harg6 arg7 harg7 arg8 harg8 arg9 harg9 hc0 hc1 x0 x1 x2 x3 xs0 xs1).2.2.1)
def sC1 (c : Dev nD) (i : grid0.Coords) (arg2 : Memref sig .tc .vmem S4096x256 .f32) (harg2 : arg2.IsWhole) (arg3 : Memref sig .tc .vmem S4096x1 .i32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x128x256 .f32) (harg6 : arg6.IsWhole) (arg7 : Memref sig .tc .vmem S1x8x128 .f32) (harg7 : arg7.IsWhole) (arg8 : Memref sig .tc .vmem S128x256 .f32) (harg8 : arg8.IsWhole) (arg9 : Memref sig .tc .vmem S8x128 .f32) (harg9 : arg9.IsWhole) (hc0 : ¬cond0_0 i) (hc1 : cond0_1 i) (x0 : Vec F S4096x256 .f32) (x1 : Vec F S4096x1 .i32) (x2 : Vec F S256x256 .f32) (x3 : Vec F S1x256 .f32) (xs0 : Vec F S128x256 .f32) (xs1 : Vec F S8x128 .f32) : Vec F S8x128 .f32 :=
  VS0_1.read (Elt F) (VS0_1.writes (Elt F) VS0_1.junk (kernelRun0_C c i arg2 harg2 arg3 harg3 arg4 harg4 arg5 harg5 arg6 harg6 arg7 harg7 arg8 harg8 arg9 harg9 hc0 hc1 x0 x1 x2 x3 xs0 xs1).2.2.2.1)
theorem coverC_4 (c : Dev nD) (i : grid0.Coords) (arg2 : Memref sig .tc .vmem S4096x256 .f32) (harg2 : arg2.IsWhole) (arg3 : Memref sig .tc .vmem S4096x1 .i32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x128x256 .f32) (harg6 : arg6.IsWhole) (arg7 : Memref sig .tc .vmem S1x8x128 .f32) (harg7 : arg7.IsWhole) (arg8 : Memref sig .tc .vmem S128x256 .f32) (harg8 : arg8.IsWhole) (arg9 : Memref sig .tc .vmem S8x128 .f32) (harg9 : arg9.IsWhole) (hc0 : ¬cond0_0 i) (hc1 : cond0_1 i) (x0 : Vec F S4096x256 .f32) (x1 : Vec F S4096x1 .i32) (x2 : Vec F S256x256 .f32) (x3 : Vec F S1x256 .f32) (xs0 : Vec F S128x256 .f32) (xs1 : Vec F S8x128 .f32) (y : S1x128x256.Idx) :
    ∃ pc ∈ (kernelRun0_C c i arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs0 xs1).1 S1x128x256.size (by sl_kernel_rfl) y
theorem coverC_5 (c : Dev nD) (i : grid0.Coords) (arg2 : Memref sig .tc .vmem S4096x256 .f32) (harg2 : arg2.IsWhole) (arg3 : Memref sig .tc .vmem S4096x1 .i32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x128x256 .f32) (harg6 : arg6.IsWhole) (arg7 : Memref sig .tc .vmem S1x8x128 .f32) (harg7 : arg7.IsWhole) (arg8 : Memref sig .tc .vmem S128x256 .f32) (harg8 : arg8.IsWhole) (arg9 : Memref sig .tc .vmem S8x128 .f32) (harg9 : arg9.IsWhole) (hc0 : ¬cond0_0 i) (hc1 : cond0_1 i) (x0 : Vec F S4096x256 .f32) (x1 : Vec F S4096x1 .i32) (x2 : Vec F S256x256 .f32) (x3 : Vec F S1x256 .f32) (xs0 : Vec F S128x256 .f32) (xs1 : Vec F S8x128 .f32) (y : S1x8x128.Idx) :
    ∃ pc ∈ (kernelRun0_C c i arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs0 xs1).2.1 S1x8x128.size (by sl_kernel_rfl) y
theorem scoverC_0 (c : Dev nD) (i : grid0.Coords) (arg2 : Memref sig .tc .vmem S4096x256 .f32) (harg2 : arg2.IsWhole) (arg3 : Memref sig .tc .vmem S4096x1 .i32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x128x256 .f32) (harg6 : arg6.IsWhole) (arg7 : Memref sig .tc .vmem S1x8x128 .f32) (harg7 : arg7.IsWhole) (arg8 : Memref sig .tc .vmem S128x256 .f32) (harg8 : arg8.IsWhole) (arg9 : Memref sig .tc .vmem S8x128 .f32) (harg9 : arg9.IsWhole) (hc0 : ¬cond0_0 i) (hc1 : cond0_1 i) (x0 : Vec F S4096x256 .f32) (x1 : Vec F S4096x1 .i32) (x2 : Vec F S256x256 .f32) (x3 : Vec F S1x256 .f32) (xs0 : Vec F S128x256 .f32) (xs1 : Vec F S8x128 .f32) (y : S128x256.Idx) :
    ∃ pc ∈ (kernelRun0_C c i arg2 harg2 arg3 harg3 arg4 harg4 arg5 harg5 arg6 harg6 arg7 harg7 arg8 harg8 arg9 harg9 hc0 hc1 x0 x1 x2 x3 xs0 xs1).2.2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs0 xs1).2.2.1 S128x256.size (by sl_kernel_rfl) y
theorem scoverC_1 (c : Dev nD) (i : grid0.Coords) (arg2 : Memref sig .tc .vmem S4096x256 .f32) (harg2 : arg2.IsWhole) (arg3 : Memref sig .tc .vmem S4096x1 .i32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x128x256 .f32) (harg6 : arg6.IsWhole) (arg7 : Memref sig .tc .vmem S1x8x128 .f32) (harg7 : arg7.IsWhole) (arg8 : Memref sig .tc .vmem S128x256 .f32) (harg8 : arg8.IsWhole) (arg9 : Memref sig .tc .vmem S8x128 .f32) (harg9 : arg9.IsWhole) (hc0 : ¬cond0_0 i) (hc1 : cond0_1 i) (x0 : Vec F S4096x256 .f32) (x1 : Vec F S4096x1 .i32) (x2 : Vec F S256x256 .f32) (x3 : Vec F S1x256 .f32) (xs0 : Vec F S128x256 .f32) (xs1 : Vec F S8x128 .f32) (y : S8x128.Idx) :
    ∃ pc ∈ (kernelRun0_C c i arg2 harg2 arg3 harg3 arg4 harg4 arg5 harg5 arg6 harg6 arg7 harg7 arg8 harg8 arg9 harg9 hc0 hc1 x0 x1 x2 x3 xs0 xs1).2.2.2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs0 xs1).2.2.2.1 S8x128.size (by sl_kernel_rfl) y

section
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The accumulation: the kept buffers after each point -/

/-- The sums and the counts after the body at position n: at the first point of a row what the reset case leaves,
    elsewhere what the case leaves over what the point before left. -/
def scAt0 (c : Dev nD) : (n : ℕ) → n < cfg0.N → Vec F S128x256 .f32 × Vec F S8x128 .f32
  | 0, hn =>
    (sA0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _)
        ((hcond0_0 ⟨0, hn⟩).mpr (Nat.zero_mod _)) (fun h => (fun h => by (try dsimp only at h); omega) ((hcond0_1 ⟨0, hn⟩).mp h))
        (iblk0 V c 0 ⟨0, hn⟩) (iblk0 V c 1 ⟨0, hn⟩) (iblk0 V c 2 ⟨0, hn⟩) (iblk0 V c 3 ⟨0, hn⟩),
     sA1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _)
        ((hcond0_0 ⟨0, hn⟩).mpr (Nat.zero_mod _)) (fun h => (fun h => by (try dsimp only at h); omega) ((hcond0_1 ⟨0, hn⟩).mp h))
        (iblk0 V c 0 ⟨0, hn⟩) (iblk0 V c 1 ⟨0, hn⟩) (iblk0 V c 2 ⟨0, hn⟩) (iblk0 V c 3 ⟨0, hn⟩))
  | n + 1, hn =>
    if h0 : (n + 1) % 8 = 0 then
      (sA0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _)
          ((hcond0_0 ⟨n + 1, hn⟩).mpr h0) (fun h => (fun h => by (try dsimp only at h); omega) ((hcond0_1 ⟨n + 1, hn⟩).mp h))
          (iblk0 V c 0 ⟨n + 1, hn⟩) (iblk0 V c 1 ⟨n + 1, hn⟩) (iblk0 V c 2 ⟨n + 1, hn⟩) (iblk0 V c 3 ⟨n + 1, hn⟩),
       sA1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _)
          ((hcond0_0 ⟨n + 1, hn⟩).mpr h0) (fun h => (fun h => by (try dsimp only at h); omega) ((hcond0_1 ⟨n + 1, hn⟩).mp h))
          (iblk0 V c 0 ⟨n + 1, hn⟩) (iblk0 V c 1 ⟨n + 1, hn⟩) (iblk0 V c 2 ⟨n + 1, hn⟩) (iblk0 V c 3 ⟨n + 1, hn⟩))
    else
      if h1 : (n + 1) % 8 = 7 then
        (sC0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _)
            (fun h => h0 ((hcond0_0 ⟨n + 1, hn⟩).mp h)) ((hcond0_1 ⟨n + 1, hn⟩).mpr h1)
            (iblk0 V c 0 ⟨n + 1, hn⟩) (iblk0 V c 1 ⟨n + 1, hn⟩) (iblk0 V c 2 ⟨n + 1, hn⟩) (iblk0 V c 3 ⟨n + 1, hn⟩) (scAt0 c n (Nat.lt_of_succ_lt hn)).1 (scAt0 c n (Nat.lt_of_succ_lt hn)).2,
         sC1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _)
            (fun h => h0 ((hcond0_0 ⟨n + 1, hn⟩).mp h)) ((hcond0_1 ⟨n + 1, hn⟩).mpr h1)
            (iblk0 V c 0 ⟨n + 1, hn⟩) (iblk0 V c 1 ⟨n + 1, hn⟩) (iblk0 V c 2 ⟨n + 1, hn⟩) (iblk0 V c 3 ⟨n + 1, hn⟩) (scAt0 c n (Nat.lt_of_succ_lt hn)).1 (scAt0 c n (Nat.lt_of_succ_lt hn)).2)
      else
        (sB0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _)
            (fun h => h0 ((hcond0_0 ⟨n + 1, hn⟩).mp h)) (fun h => h1 ((hcond0_1 ⟨n + 1, hn⟩).mp h))
            (iblk0 V c 0 ⟨n + 1, hn⟩) (iblk0 V c 1 ⟨n + 1, hn⟩) (iblk0 V c 2 ⟨n + 1, hn⟩) (iblk0 V c 3 ⟨n + 1, hn⟩) (scAt0 c n (Nat.lt_of_succ_lt hn)).1 (scAt0 c n (Nat.lt_of_succ_lt hn)).2,
         sB1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _)
            (fun h => h0 ((hcond0_0 ⟨n + 1, hn⟩).mp h)) (fun h => h1 ((hcond0_1 ⟨n + 1, hn⟩).mp h))
            (iblk0 V c 0 ⟨n + 1, hn⟩) (iblk0 V c 1 ⟨n + 1, hn⟩) (iblk0 V c 2 ⟨n + 1, hn⟩) (iblk0 V c 3 ⟨n + 1, hn⟩) (scAt0 c n (Nat.lt_of_succ_lt hn)).1 (scAt0 c n (Nat.lt_of_succ_lt hn)).2)

/-- At the first point of a row: the reset case's contents. -/
theorem scAt0_A (c : Dev nD) (t : Fin cfg0.N) (h0 : t.val % 8 = 0) (h1 : ¬t.val % 8 = 7) :
    scAt0 V c t.val t.isLt
      = (sA0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t),
         sA1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t)) := by
  obtain ⟨n, hn⟩ := t
  cases n with
  | zero => exact rfl
  | succ n => exact (dif_pos h0).trans rfl

/-- At a middle point: the accumulating case's contents over what the point before left. -/
theorem scAt0_B (c : Dev nD) (t : Fin cfg0.N) (h0 : ¬t.val % 8 = 0) (h1 : ¬t.val % 8 = 7) :
    scAt0 V c t.val t.isLt
      = (sB0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (scAt0 V c (t.val - 1) (Nat.lt_of_le_of_lt (Nat.sub_le _ _) t.isLt)).1 (scAt0 V c (t.val - 1) (Nat.lt_of_le_of_lt (Nat.sub_le _ _) t.isLt)).2,
         sB1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (scAt0 V c (t.val - 1) (Nat.lt_of_le_of_lt (Nat.sub_le _ _) t.isLt)).1 (scAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At the last point of a row: the writing case's contents over what the point before left. -/
theorem scAt0_C (c : Dev nD) (t : Fin cfg0.N) (h0 : ¬t.val % 8 = 0) (h1 : t.val % 8 = 7) :
    scAt0 V c t.val t.isLt
      = (sC0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (scAt0 V c (t.val - 1) (Nat.lt_of_le_of_lt (Nat.sub_le _ _) t.isLt)).1 (scAt0 V c (t.val - 1) (Nat.lt_of_le_of_lt (Nat.sub_le _ _) t.isLt)).2,
         sC1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (scAt0 V c (t.val - 1) (Nat.lt_of_le_of_lt (Nat.sub_le _ _) t.isLt)).1 (scAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- What the sums' output window's buffer holds after the body: at the last point of a row the copy the writing case
    makes; elsewhere the window is idle and this value is consulted by nothing. -/
def out4At (c : Dev nD) (t : Fin cfg0.N) : Vec F S1x128x256 .f32 :=
  if h1 : t.val % 8 = 7 then
    o4C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => (fun h => by (try dsimp only at h); omega) ((hcond0_0 t).mp h)) ((hcond0_1 t).mpr h1) (iblk0 V c 0 t) (iblk0 V c 1 t) (iblk0 V c 2 t) (iblk0 V c 3 t) (scAt0 V c (t.val - 1) (Nat.lt_of_le_of_lt (Nat.sub_le _ _) t.isLt)).1 (scAt0 V c (t.val - 1) (Nat.lt_of_le_of_lt (Nat.sub_le _ _) t.isLt)).2
  else VO0_4.read (Elt F) VO0_4.junk
/-- The same for the counts' output window. -/
def out5At (c : Dev nD) (t : Fin cfg0.N) : Vec F S1x8x128 .f32 :=
  if h1 : t.val % 8 = 7 then
    o5C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => (fun h => by (try dsimp only at h); omega) ((hcond0_0 t).mp h)) ((hcond0_1 t).mpr h1) (iblk0 V c 0 t) (iblk0 V c 1 t) (iblk0 V c 2 t) (iblk0 V c 3 t) (scAt0 V c (t.val - 1) (Nat.lt_of_le_of_lt (Nat.sub_le _ _) t.isLt)).1 (scAt0 V c (t.val - 1) (Nat.lt_of_le_of_lt (Nat.sub_le _ _) t.isLt)).2
  else VO0_5.read (Elt F) VO0_5.junk

theorem out4At_C (c : Dev nD) (t : Fin cfg0.N) (h0 : ¬t.val % 8 = 0) (h1 : t.val % 8 = 7) :
    out4At V c t = o4C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (scAt0 V c (t.val - 1) (Nat.lt_of_le_of_lt (Nat.sub_le _ _) t.isLt)).1 (scAt0 V c (t.val - 1) (Nat.lt_of_le_of_lt (Nat.sub_le _ _) t.isLt)).2 := by
  unfold out4At; exact dif_pos h1
theorem out5At_C (c : Dev nD) (t : Fin cfg0.N) (h0 : ¬t.val % 8 = 0) (h1 : t.val % 8 = 7) :
    out5At V c t = o5C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (scAt0 V c (t.val - 1) (Nat.lt_of_le_of_lt (Nat.sub_le _ _) t.isLt)).1 (scAt0 V c (t.val - 1) (Nat.lt_of_le_of_lt (Nat.sub_le _ _) t.isLt)).2 := by
  unfold out5At; exact dif_pos h1

/-! ## The region's invariant -/

/-- Before position n: before the first point the class's invariant (the kept buffers at anything); afterwards the
    kept buffers at what the point before left, the other scoped buffers at anything, the generator register at some
    state. -/
def PhiS (c : Dev nD) : (n : ℕ) → n ≤ cfg0.N → sProp 𝕄
  | 0, _ => Pipeline.ΦA spec0 c
  | n + 1, hn => iprop(iprop(owns (c : Thread nD τ) scM0_0 fullShare ((scAt0 V c n hn).1) ∗ owns (c : Thread nD τ) scM0_1 fullShare ((scAt0 V c n hn).2) ∗ otherScoped (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((scAt0 V c n hn).1) ∗ owns (c : Thread nD τ) scM0_1 fullShare ((scAt0 V c n hn).2) ∗ otherScoped (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare ((scAt0 V c (n - 1) (by omega)).1) ∗ owns (c : Thread nD τ) scM0_1 fullShare ((scAt0 V c (n - 1) (by omega)).2) ∗ otherScoped (F := F) c) ∗ (∃ r, prngReg c r)) := by
  cases n with
  | zero => exact absurd rfl hz
  | succ n => rfl

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out4At V c t
    | ⟨5, _⟩ => out5At V c t
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out4At V c t := by dsimp only [dat0]
theorem after0_5 (c : Dev nD) (t : Fin cfg0.N) : (dat0 V c).after 5 t = out5At V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

end

end Cert.KernelIdeal.Hand

end
-- ==== Proof.FrameI.Head.lean ====
/-
  Region 1 of the kernel's program: the distance kernel, one grid point per block of 2048 query rows.
  At a point the body reads seven input blocks (the query block and six whole operands: both weight matrices
  transposed, both biases as rows, the prototypes transposed, their squared norms) and stores one block of the
  output whole. This module states what that store leaves in the output's staging buffer as a function of the
  seven blocks, proves the body's triple, and gives the pipeline's proof data over the arrays as the region
  finds them (a parameter), with the per-point obligation.
-/
import proofs.«422305_j79542794322400_3_alg».proof.Proof.Gen.KernelIdeal.Launch
import proofs.«422305_j79542794322400_3_alg».proof.Proof.Gen.KernelIdeal.Skeleton
import proofs.«422305_j79542794322400_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, whether the point fetches it or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, whether the point fetches it or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, whether the point fetches it or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, whether the point fetches it or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every point, whether the point fetches it or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's staging buffer holds its block at every point, whether the point fetches it or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's staging buffer holds its block at every point, whether the point fetches it or not. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

end

/-! ## The body's accesses: every load and the one store take a whole buffer -/

abbrev rq : Rect S2048x256 := Rect.unit (s := S2048x256) ![0, 0] S2048x256.size inb_S2048x256_S2048x256_0_0
abbrev rw : Rect S256x256 := Rect.unit (s := S256x256) ![0, 0] S256x256.size inb_S256x256_S256x256_0_0
abbrev rb : Rect S1x256 := Rect.unit (s := S1x256) ![0, 0] S1x256.size inb_S1x256_S1x256_0_0
abbrev rp : Rect S256x128 := Rect.unit (s := S256x128) ![0, 0] S256x128.size inb_S256x128_S256x128_0_0
abbrev rn : Rect S1x128 := Rect.unit (s := S1x128) ![0, 0] S1x128.size inb_S1x128_S1x128_0_0
abbrev ro : Rect S2048x128 := Rect.unit (s := S2048x128) ![0, 0] S2048x128.size inb_S2048x128_S2048x128_0_0

/-- What the body leaves in the output's staging buffer, from the seven input blocks: the negated clamped
    distance expression of the loaded blocks, stored over the whole buffer. -/
def out1_7 (x0 : Vec F S2048x256 .f32) (x1 : Vec F S256x256 .f32) (x2 : Vec F S1x256 .f32) (x3 : Vec F S256x256 .f32) (x4 : Vec F S1x256 .f32) (x5 : Vec F S256x128 .bf16) (x6 : Vec F S1x128 .f32) : Vec F S2048x128 .f32 :=
  View.canon [⟨ro, k1_pay1 (k1_pay2 (View.ld x0 rq) (View.ld x1 rw) (View.ld x2 rb) (View.ld x3 rw) (View.ld x4 rb) (View.ld x5 rp) (View.ld x6 rn))⟩]

/-- The one store covers the buffer. -/
theorem cover1_7 (p0 : Vec F S2048x128 .f32) (y : S2048x128.Idx) :
    ∃ pc ∈ ([⟨ro, p0⟩] : List (View.Piece (Elt F) S2048x128 .f32)), y ∈ pc.1.set :=
  View.cover_of_tiled [⟨ro, p0⟩] S2048x128.size (by rfl) y

set_option maxHeartbeats 4000000 in
/-- The body on whole staging buffers: the inputs at their contents, the output at anything; it ends with the
    inputs as they were and the output at `out1_7` of the inputs. -/
theorem sound_kernel1 (c : Dev nD) (E : Set ℕ) (i : grid1.Coords) (arg1 : Memref sig .tc .vmem S2048x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x128 .bf16) (harg6 : arg6.IsWhole) (arg7 : Memref sig .tc .vmem S1x128 .f32) (harg7 : arg7.IsWhole) (arg8 : Memref sig .tc .vmem S2048x128 .f32) (harg8 : arg8.IsWhole)
    (x0 : Vec F S2048x256 .f32) (x1 : Vec F S256x256 .f32) (x2 : Vec F S1x256 .f32) (x3 : Vec F S256x256 .f32) (x4 : Vec F S1x256 .f32) (x5 : Vec F S256x128 .bf16) (x6 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out1_7 x0 x1 x2 x3 x4 x5 x6)) -∗ K ⟨⟩))
      ⊢ wp frame (wpE (defs₀ (F := F)) Variants.none c none) E (cc1__head_kernel i arg1 harg1 arg2 harg2 arg3 harg3 arg4 harg4 arg5 harg5 arg6 harg6 arg7 harg7 arg8 harg8) K := by
  simp only [cc1__head_kernel_eq_skeleton]; unfold cc1__head_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

section
variable (V : (c : Dev nD) → (b : Ref sig .tc) → Buf (Elt F) ((c : Thread nD τ).loc b))

/-! ## The pipeline's proof data -/

/-- The proof data of the distance pipeline on core c: the arrays as the region finds them; after the body at a
    point each input's buffer at its block and the output's at `out1_7` of the seven input blocks; the invariant the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t
    = out1_7 (iblk1 V c 0 t) (iblk1 V c 1 t) (iblk1 V c 2 t) (iblk1 V c 3 t) (iblk1 V c 4 t) (iblk1 V c 5 t) (iblk1 V c 6 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' buffers hold their blocks, so the body's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end

end Cert.KernelIdeal.Hand

end
-- ==== Proof.FrameI.Vals.lean ====
/-
  The TensorCore's buffer contents at each boundary of @main's seven segments, folded from the launch memory:
  after the first host stretch (the transposes and reshapes), after region 0 (its arrays at what its write-backs
  leave, every other buffer as before), after the three host stretches between the regions (the partial sums
  combined, the mean, the second layer, the guard, the transposed prototypes and their squared norms), after region 1,
  and after the final slice.
-/
import proofs.«422305_j79542794322400_3_alg».proof.Proof.FrameI.ProtoData
import proofs.«422305_j79542794322400_3_alg».proof.Proof.FrameI.Head

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- Core c's buffers at launch. -/
abbrev W0 : Dev nD → Valuation τ sig (Elt F) := fun c b => m ((c : Dev nD), b)
/-- After the first host stretch (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the three host stretches between the regions (region 1's entry). -/
abbrev W3 : Dev nD → Valuation τ sig (Elt F) := fun c => StableHlo.after hostOps1 (W2 m c)
abbrev W4 : Dev nD → Valuation τ sig (Elt F) := fun c => StableHlo.after hostOps1_1 (W3 m c)
abbrev W5 : Dev nD → Valuation τ sig (Elt F) := fun c => StableHlo.after hostOps1_2 (W4 m c)
abbrev V5 : (c : Dev nD) → (b : Ref sig .tc) → Buf (Elt F) ((c : Thread nD τ).loc b) := fun c b => W5 m c b
/-- At region 1's exit. -/
def W6 (c : Dev nD) : Valuation τ sig (Elt F) :=
  Pipeline.withArrays spec1 c (W5 m c) fun w => (dat1 (V5 m) c).arrAt w cfg1.N
theorem W6_arr (c : Dev nD) (w : Fin cfg1.W) :
    W6 m c (Proc.devRef .tc (Pipeline.arrRef spec1 w)) = (dat1 (V5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
abbrev V6 : (c : Dev nD) → (b : Ref sig .tc) → Buf (Elt F) ((c : Thread nD τ).loc b) := fun c b => W6 m c b
theorem hF1 (c : Dev nD) (w : Fin cfg1.W) : (dat1 (V5 m) c).arrAt w cfg1.N = V6 m c (Pipeline.arrRef spec1 w) :=
  (W6_arr m c w).symm
theorem hrest1 (c : Dev nD) : ∀ b, b ∉ Finset.univ.image (Pipeline.arrRef spec1) → V6 m c b = V5 m c b :=
  fun b hb => W6_of_ne m c b fun w e => hb (Finset.mem_image.mpr ⟨w, Finset.mem_univ _, e⟩)

/-- After the final slice: the contents the program ends with. -/
abbrev W7 : Dev nD → Valuation τ sig (Elt F) := fun c => StableHlo.after hostOps2 (W6 m c)

end Cert.KernelIdeal.Hand

end
-- ==== Proof.FrameI.ProtoBody.lean ====
/-
  Region 0, the obligation: at every grid point the body, called on the windows' current buffers holding their
  blocks and on the kept buffers as the invariant holds them, runs and leaves the invariant at the next position:
  by cases on the point's place in its row (first, middle, last), each case the body's triple for it, the kept
  buffers' found pieces covering them.
-/
import proofs.«422305_j79542794322400_3_alg».proof.Proof.FrameI.ProtoData

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 8000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS V c (t.val + 1) t.isLt from rfl, PhiS_succ]
  have hN : t.val < 16 := lt_of_lt_of_eq t.isLt (show cfg0.N = 16 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  by_cases h0 : t.val % 8 = 0
  · have h1 : ¬t.val % 8 = 7 := by omega
    rw [Dat.leavesExact_idle (dat0 V c) 4 t (idleAt0_4 t (fun h => h1 ((hcond0_1 t).mp h))) (noFlush0_4 t (fun h => h1 ((hcond0_1 t).mp h)))]
    rw [Dat.leavesExact_idle (dat0 V c) 5 t (idleAt0_5 t (fun h => h1 ((hcond0_1 t).mp h))) (noFlush0_5 t (fun h => h1 ((hcond0_1 t).mp h)))]
    rw [scAt0_A V c t h0 h1]
    unfold sA0 sA1; (try dsimp only)
    by_cases hz : t.val = 0
    · rw [PhiS_castSucc V c t, PhiS_zero V c _ _ hz, PhiA0_eq]
      iintro ⟨⟨⟨HS0, HS1, Hoth⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ _ _ ((hcond0_0 t).mpr h0) (fun h => h1 ((hcond0_1 t).mp h)) (iblk0 V c 0 t) (iblk0 V c 1 t) (iblk0 V c 2 t) (iblk0 V c 3 t)).2.2 Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (scoverA_0 c _ _ _ _ _ _ _ _ _ _ _ _ _ _ _ _ _ _ _ _ _ _ _)
          isplitl [HS1]
          · unfold owns; iexists _; isplitr
            swap; · iexact HS1
            ipureintro; exact View.read_writes_of_cover _ _ _ _ _ (scoverA_1 c _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
    · rw [PhiS_castSucc V c t, PhiS_pos V c _ _ hz]
      iintro ⟨⟨⟨HS0, HS1, Hoth⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ _ _ ((hcond0_0 t).mpr h0) (fun h => h1 ((hcond0_1 t).mp h)) (iblk0 V c 0 t) (iblk0 V c 1 t) (iblk0 V c 2 t) (iblk0 V c 3 t)).2.2 Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      iintro ⟨H0, H1, H2, H3, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (scoverA_0 c _ _ _ _ _ _ _ _ _ _ _ _ _ _ _ _ _ _ _ _ _ _ _)
          isplitl [HS1]
          · unfold owns; iexists _; isplitr
            swap; · iexact HS1
            ipureintro; exact View.read_writes_of_cover _ _ _ _ _ (scoverA_1 c _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
  · have hz : t.val ≠ 0 := fun hz => h0 (by rw [hz])
    by_cases h1 : t.val % 8 = 7
    · rw [show (dat0 V c).leavesExact 4 t = owns (c : Thread nD τ) (ms0_4 t) fullShare ((dat0 V c).after 4 t) from by
        unfold Dat.leavesExact; rw [liveAt0_4 t ((hcond0_1 t).mpr h1)], after0_4]
      rw [show (dat0 V c).leavesExact 5 t = owns (c : Thread nD τ) (ms0_5 t) fullShare ((dat0 V c).after 5 t) from by
        unfold Dat.leavesExact; rw [liveAt0_5 t ((hcond0_1 t).mpr h1)], after0_5]
      rw [scAt0_C V c t h0 h1, out4At_C V c t h0 h1, out5At_C V c t h0 h1]
      unfold sC0 sC1 o4C o5C; (try dsimp only)
      rw [PhiS_castSucc V c t, PhiS_pos V c _ _ hz]
      iintro ⟨⟨⟨HS0, HS1, Hoth⟩, Hg⟩, Ho, ⟨%d0, H0⟩, ⟨%d1, H1⟩, ⟨%d2, H2⟩, ⟨%d3, H3⟩, ⟨%d4, H4⟩, ⟨%d5, H5⟩⟩
      iapply ((kernelRun0_C c (grid0.coords t) _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) _ _).2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      iintro ⟨H0, H1, H2, H3, ⟨%e4, H4⟩, ⟨%e5, H5⟩, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (scoverC_0 c _ _ _ _ _ _ _ _ _ _ _ _ _ _ _ _ _ _ _ _ _ _ _ _ _)
          isplitl [HS1]
          · unfold owns; iexists _; isplitr
            swap; · iexact HS1
            ipureintro; exact View.read_writes_of_cover _ _ _ _ _ (scoverC_1 c _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (coverC_4 c _ _ _ _ _ _ _ _ _ _ _ _ _ _ _ _ _ _ _ _ _ _ _ _ _)
      unfold owns; iexists _; isplitr
      swap; · iexact H5
      ipureintro; exact View.read_writes_of_cover _ _ _ _ _ (coverC_5 c _ _ _ _ _ _ _ _ _ _ _ _ _ _ _ _ _ _ _ _ _ _ _ _ _)
    · rw [Dat.leavesExact_idle (dat0 V c) 4 t (idleAt0_4 t (fun h => h1 ((hcond0_1 t).mp h))) (noFlush0_4 t (fun h => h1 ((hcond0_1 t).mp h)))]
      rw [Dat.leavesExact_idle (dat0 V c) 5 t (idleAt0_5 t (fun h => h1 ((hcond0_1 t).mp h))) (noFlush0_5 t (fun h => h1 ((hcond0_1 t).mp h)))]
      rw [scAt0_B V c t h0 h1]
      unfold sB0 sB1; (try dsimp only)
      rw [PhiS_castSucc V c t, PhiS_pos V c _ _ hz]
      iintro ⟨⟨⟨HS0, HS1, Hoth⟩, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) _ _).2.2 Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (scoverB_0 c _ _ _ _ _ _ _ _ _ _ _ _ _ _ _ _ _ _ _ _ _ _ _ _ _)
          isplitl [HS1]
          · unfold owns; iexists _; isplitr
            swap; · iexact HS1
            ipureintro; exact View.read_writes_of_cover _ _ _ _ _ (scoverB_1 c _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is handed is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point the invariant gives the class's invariant back: the kept buffers' named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, Hoth⟩, Hg⟩
  isplitl [HS0 HS1 Hoth]
  · isplitl [HS0]; · iexists _; iexact HS0
    isplitl [HS1]; · iexists _; iexact HS1
    iexact Hoth
  iexact Hg

theorem hout0 (c : Dev nD) : (dat0 V c).Φ (Fin.last cfg0.N) ⊢ Pipeline.ΦA spec0 c :=
  Phi_out0 V c _ (by rw [Fin.val_last]; have : cfg0.N = 16 := N_0; omega)

end

end Cert.KernelIdeal.Hand

end
-- ==== Proof.FrameI.Run.lean ====
/-
  The run of the kernel's program: @main as seven segments (a host stretch, region 0, three host stretches,
  region 1, a host stretch), each region entered from every unscoped buffer at the boundary's contents and left
  at the next boundary's, the kept buffers and the generator register inside the regions' invariants, nothing owed.
  Every weakly fair execution terminates with every unscoped buffer at the last boundary's contents; the argument
  arrays are written by no segment.
-/
import proofs.«422305_j79542794322400_3_alg».proof.Proof.FrameI.Vals
import proofs.«422305_j79542794322400_3_alg».proof.Proof.FrameI.ProtoBody
import proofs.«422305_j79542794322400_3_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    dues, at nothing. -/
abbrev R (c : Dev nD) : sProp 𝕄 := iprop((∃ r, prngReg c r) ∗ ∃ W, owes (c : Thread nD τ) (0 : CellTallies nD τ sig Unit) W)
/-- A host stretch as a segment over the unscoped references from the contents W, R riding along: it leaves those
    references at the contents after the stretch. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state without the dues: every unscoped buffer at the last boundary's contents, the generator
    register at some state. -/
abbrev Tₙ (c : Dev nD) : sProp 𝕄 := iprop(StableHlo.held (c : Thread nD τ) (Pipeline.ucRefs τ sig) (W7 m c) ∗ ∃ r, prngReg c r)

/-- The last host stretch leaves the last thread state beside the core's dues, at nothing. -/
theorem last_link (c : Dev nD) :
    iprop(StableHlo.held (c : Thread nD τ) (Pipeline.ucRefs τ sig) (W7 m c) ∗ R (F := F) c)
      ⊢ iprop(Tₙ m c ∗ ∃ W, owes (c : Thread nD τ) (0 : CellTallies nD τ sig Unit) W) := by
  iintro ⟨Hh, Hp, HO⟩
  isplitl [Hh Hp]
  · isplitl [Hh]; · iexact Hh
    iexact Hp
  iexact HO

/-! ## The regions as segments -/

set_option backward.isDefEq.respectTransparency.types false in
/-- REGION 0 over the thread state: entered from every unscoped buffer at the boundary before it, left at the
    boundary after it. Its arrays are split out of the unscoped buffers and put back at the exit contents; the
    generator register goes into the region's invariant and comes back; nothing is owed; the kernel has no semaphore
    of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans (Q := Pipeline.ΦA spec0 c) ?_ (hin0 (V1 m) c)
    unfold Pipeline.ΦA
    iintro ⟨Hp, -, Hr⟩
    isplitl [Hr]; · iexact Hr
    iexact Hp
  hout c := by
    refine BIBase.Entails.trans (Q := Pipeline.ΦA spec0 c) (hout0 (V1 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at the boundary before it, left at the
    boundary after it. Its arrays are split out of the unscoped buffers and put back at the exit contents; the
    generator register goes into the region's invariant and comes back; nothing is owed; the kernel has no semaphore
    of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (V5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V5 m c) (V6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's seven segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .host (hseg hostOps1_2 hostOps1_2_sub hostOps1_2_fresh (W4 m)),
    .region (reg1 m),
    .host (hseg hostOps2 hostOps2_sub hostOps2_fresh (W6 m)) ]
/-- @main is the run of the segments. -/
theorem main_run (c : Dev nD) : main (F := F) c = Pipeline.Seg.run (segs m) := (main_chain c).trans (by chain_rfl)

set_option backward.isDefEq.respectTransparency.types false in
/-- THE RUN: every weakly fair execution of @main from memory m with zero counters terminates, and every final memory
    holds every unscoped buffer of every core at the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun c => last_link m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h => h)

/-- No segment writes an argument array: the last boundary has each at its launch contents. -/
theorem W7_main_arg0 (c : Dev nD) : W7 m c (Proc.devRef .tc main_arg0) = m ((c : Thread nD τ).loc main_arg0) :=
  calc W7 m c (Proc.devRef .tc main_arg0)
    _ = W6 m c (Proc.devRef .tc main_arg0) := StableHlo.after_of_writes_sub hostOps2 _ hostOps2_writes (by decide)
    _ = W5 m c (Proc.devRef .tc main_arg0) := (W6_arr m c 0).trans (((dat1 (V5 m) c).arrAt_in 0 rfl _).trans (A_eq1 (V5 m) c 0))
    _ = W4 m c (Proc.devRef .tc main_arg0) := StableHlo.after_of_writes_sub hostOps1_2 _ hostOps1_2_writes (by decide)
    _ = W3 m c (Proc.devRef .tc main_arg0) := StableHlo.after_of_writes_sub hostOps1_1 _ hostOps1_1_writes (by decide)
    _ = W2 m c (Proc.devRef .tc main_arg0) := StableHlo.after_of_writes_sub hostOps1 _ hostOps1_writes (by decide)
    _ = W1 m c (Proc.devRef .tc main_arg0) := W2_of_ne m c main_arg0 (by decide)
    _ = W0 m c (Proc.devRef .tc main_arg0) := StableHlo.after_of_writes_sub hostOps0 _ hostOps0_writes (by decide)
    _ = m ((c : Thread nD τ).loc main_arg0) := rfl
theorem W7_main_arg1 (c : Dev nD) : W7 m c (Proc.devRef .tc main_arg1) = m ((c : Thread nD τ).loc main_arg1) :=
  calc W7 m c (Proc.devRef .tc main_arg1)
    _ = W6 m c (Proc.devRef .tc main_arg1) := StableHlo.after_of_writes_sub hostOps2 _ hostOps2_writes (by decide)
    _ = W5 m c (Proc.devRef .tc main_arg1) := W6_of_ne m c main_arg1 (by decide)
    _ = W4 m c (Proc.devRef .tc main_arg1) := StableHlo.after_of_writes_sub hostOps1_2 _ hostOps1_2_writes (by decide)
    _ = W3 m c (Proc.devRef .tc main_arg1) := StableHlo.after_of_writes_sub hostOps1_1 _ hostOps1_1_writes (by decide)
    _ = W2 m c (Proc.devRef .tc main_arg1) := StableHlo.after_of_writes_sub hostOps1 _ hostOps1_writes (by decide)
    _ = W1 m c (Proc.devRef .tc main_arg1) := (W2_arr m c 0).trans (((dat0 (V1 m) c).arrAt_in 0 rfl _).trans (A_eq0 (V1 m) c 0))
    _ = W0 m c (Proc.devRef .tc main_arg1) := StableHlo.after_of_writes_sub hostOps0 _ hostOps0_writes (by decide)
    _ = m ((c : Thread nD τ).loc main_arg1) := rfl
theorem W7_main_arg2 (c : Dev nD) : W7 m c (Proc.devRef .tc main_arg2) = m ((c : Thread nD τ).loc main_arg2) :=
  calc W7 m c (Proc.devRef .tc main_arg2)
    _ = W6 m c (Proc.devRef .tc main_arg2) := StableHlo.after_of_writes_sub hostOps2 _ hostOps2_writes (by decide)
    _ = W5 m c (Proc.devRef .tc main_arg2) := W6_of_ne m c main_arg2 (by decide)
    _ = W4 m c (Proc.devRef .tc main_arg2) := StableHlo.after_of_writes_sub hostOps1_2 _ hostOps1_2_writes (by decide)
    _ = W3 m c (Proc.devRef .tc main_arg2) := StableHlo.after_of_writes_sub hostOps1_1 _ hostOps1_1_writes (by decide)
    _ = W2 m c (Proc.devRef .tc main_arg2) := StableHlo.after_of_writes_sub hostOps1 _ hostOps1_writes (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl
theorem W7_main_arg3 (c : Dev nD) : W7 m c (Proc.devRef .tc main_arg3) = m ((c : Thread nD τ).loc main_arg3) :=
  calc W7 m c (Proc.devRef .tc main_arg3)
    _ = W6 m c (Proc.devRef .tc main_arg3) := StableHlo.after_of_writes_sub hostOps2 _ hostOps2_writes (by decide)
    _ = W5 m c (Proc.devRef .tc main_arg3) := W6_of_ne m c main_arg3 (by decide)
    _ = W4 m c (Proc.devRef .tc main_arg3) := StableHlo.after_of_writes_sub hostOps1_2 _ hostOps1_2_writes (by decide)
    _ = W3 m c (Proc.devRef .tc main_arg3) := StableHlo.after_of_writes_sub hostOps1_1 _ hostOps1_1_writes (by decide)
    _ = W2 m c (Proc.devRef .tc main_arg3) := StableHlo.after_of_writes_sub hostOps1 _ hostOps1_writes (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl
theorem W7_main_arg4 (c : Dev nD) : W7 m c (Proc.devRef .tc main_arg4) = m ((c : Thread nD τ).loc main_arg4) :=
  calc W7 m c (Proc.devRef .tc main_arg4)
    _ = W6 m c (Proc.devRef .tc main_arg4) := StableHlo.after_of_writes_sub hostOps2 _ hostOps2_writes (by decide)
    _ = W5 m c (Proc.devRef .tc main_arg4) := W6_of_ne m c main_arg4 (by decide)
    _ = W4 m c (Proc.devRef .tc main_arg4) := StableHlo.after_of_writes_sub hostOps1_2 _ hostOps1_2_writes (by decide)
    _ = W3 m c (Proc.devRef .tc main_arg4) := StableHlo.after_of_writes_sub hostOps1_1 _ hostOps1_1_writes (by decide)
    _ = W2 m c (Proc.devRef .tc main_arg4) := StableHlo.after_of_writes_sub hostOps1 _ hostOps1_writes (by decide)
    _ = W1 m c (Proc.devRef .tc main_arg4) := W2_of_ne m c main_arg4 (by decide)
    _ = W0 m c (Proc.devRef .tc main_arg4) := StableHlo.after_of_writes_sub hostOps0 _ hostOps0_writes (by decide)
    _ = m ((c : Thread nD τ).loc main_arg4) := rfl
theorem W7_main_arg5 (c : Dev nD) : W7 m c (Proc.devRef .tc main_arg5) = m ((c : Thread nD τ).loc main_arg5) :=
  calc W7 m c (Proc.devRef .tc main_arg5)
    _ = W6 m c (Proc.devRef .tc main_arg5) := StableHlo.after_of_writes_sub hostOps2 _ hostOps2_writes (by decide)
    _ = W5 m c (Proc.devRef .tc main_arg5) := W6_of_ne m c main_arg5 (by decide)
    _ = W4 m c (Proc.devRef .tc main_arg5) := StableHlo.after_of_writes_sub hostOps1_2 _ hostOps1_2_writes (by decide)
    _ = W3 m c (Proc.devRef .tc main_arg5) := StableHlo.after_of_writes_sub hostOps1_1 _ hostOps1_1_writes (by decide)
    _ = W2 m c (Proc.devRef .tc main_arg5) := StableHlo.after_of_writes_sub hostOps1 _ hostOps1_writes (by decide)
    _ = W1 m c (Proc.devRef .tc main_arg5) := W2_of_ne m c main_arg5 (by decide)
    _ = W0 m c (Proc.devRef .tc main_arg5) := StableHlo.after_of_writes_sub hostOps0 _ hostOps0_writes (by decide)
    _ = m ((c : Thread nD τ).loc main_arg5) := rfl
theorem W7_main_arg6 (c : Dev nD) : W7 m c (Proc.devRef .tc main_arg6) = m ((c : Thread nD τ).loc main_arg6) :=
  calc W7 m c (Proc.devRef .tc main_arg6)
    _ = W6 m c (Proc.devRef .tc main_arg6) := StableHlo.after_of_writes_sub hostOps2 _ hostOps2_writes (by decide)
    _ = W5 m c (Proc.devRef .tc main_arg6) := W6_of_ne m c main_arg6 (by decide)
    _ = W4 m c (Proc.devRef .tc main_arg6) := StableHlo.after_of_writes_sub hostOps1_2 _ hostOps1_2_writes (by decide)
    _ = W3 m c (Proc.devRef .tc main_arg6) := StableHlo.after_of_writes_sub hostOps1_1 _ hostOps1_1_writes (by decide)
    _ = W2 m c (Proc.devRef .tc main_arg6) := StableHlo.after_of_writes_sub hostOps1 _ hostOps1_writes (by decide)
    _ = W1 m c (Proc.devRef .tc main_arg6) := W2_of_ne m c main_arg6 (by decide)
    _ = W0 m c (Proc.devRef .tc main_arg6) := StableHlo.after_of_writes_sub hostOps0 _ hostOps0_writes (by decide)
    _ = m ((c : Thread nD τ).loc main_arg6) := rfl

end Cert.KernelIdeal.Hand

end
-- ==== Proof.FrameI.ProtoPieces.lean ====
/-
  Region 0: what each case's run leaves in the buffers it writes, identified with the body's arithmetic. The sums
  buffer ends at the accumulating expression (the block's marked sums of the first layer's outputs added to what
  the buffer held: zero after the reset, else the previous contents), the counts buffer likewise; at the last point
  of a row the output windows' buffers end at those same values reshaped.
-/
import proofs.«422305_j79542794322400_3_alg».proof.Proof.FrameI.ProtoData
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The zero offsets of a whole-buffer rectangle, as the body's stores and loads spell them. -/
theorem hzero2 : (![0, 0] : Fin 2 → Nat) = fun _ => 0 := funext fun a => by fin_cases a <;> rfl
theorem hzero3 : (![0, 0, 0] : Fin 3 → Nat) = fun _ => 0 := funext fun a => by fin_cases a <;> rfl

theorem sA0_eq (c : Dev nD) (i : grid0.Coords) (arg2 : Memref sig .tc .vmem S4096x256 .f32) (harg2 : arg2.IsWhole) (arg3 : Memref sig .tc .vmem S4096x1 .i32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x128x256 .f32) (harg6 : arg6.IsWhole) (arg7 : Memref sig .tc .vmem S1x8x128 .f32) (harg7 : arg7.IsWhole) (arg8 : Memref sig .tc .vmem S128x256 .f32) (harg8 : arg8.IsWhole) (arg9 : Memref sig .tc .vmem S8x128 .f32) (harg9 : arg9.IsWhole) (hc0 : cond0_0 i) (hc1 : ¬cond0_1 i) (x0 : Vec F S4096x256 .f32) (x1 : Vec F S4096x1 .i32) (x2 : Vec F S256x256 .f32) (x3 : Vec F S1x256 .f32) :
    sA0 c i arg2 harg2 arg3 harg3 arg4 harg4 arg5 harg5 arg6 harg6 arg7 harg7 arg8 harg8 arg9 harg9 hc0 hc1 x0 x1 x2 x3 = k0_pay7 x0 x2 x3 x1 (k0_pay4 (F := F)) := by
  unfold sA0
  rw [View.read_writes_eq_canon _ _ _ (scoverA_0 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S128x256) hzero2, View.readCov_unit_zero (S := S128x256) _ hzero2]
  simp only [View.readAt_eq_ld, harg2.read_unread, harg3.read_unread, harg4.read_unread, harg5.read_unread, View.ld_unit_zero (S := S4096x256) hzero2, View.ld_unit_zero (S := S256x256) hzero2, View.ld_unit_zero (S := S1x256) hzero2, View.ld_unit_zero (S := S4096x1) hzero2, View.ld_unit_zero (S := S128x256) hzero2, View.ld_unit_zero (S := S8x128) hzero2]

theorem sA1_eq (c : Dev nD) (i : grid0.Coords) (arg2 : Memref sig .tc .vmem S4096x256 .f32) (harg2 : arg2.IsWhole) (arg3 : Memref sig .tc .vmem S4096x1 .i32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x128x256 .f32) (harg6 : arg6.IsWhole) (arg7 : Memref sig .tc .vmem S1x8x128 .f32) (harg7 : arg7.IsWhole) (arg8 : Memref sig .tc .vmem S128x256 .f32) (harg8 : arg8.IsWhole) (arg9 : Memref sig .tc .vmem S8x128 .f32) (harg9 : arg9.IsWhole) (hc0 : cond0_0 i) (hc1 : ¬cond0_1 i) (x0 : Vec F S4096x256 .f32) (x1 : Vec F S4096x1 .i32) (x2 : Vec F S256x256 .f32) (x3 : Vec F S1x256 .f32) :
    sA1 c i arg2 harg2 arg3 harg3 arg4 harg4 arg5 harg5 arg6 harg6 arg7 harg7 arg8 harg8 arg9 harg9 hc0 hc1 x0 x1 x2 x3 = k0_pay1 (k0_pay8 x1 (k0_pay5 (F := F))) := by
  unfold sA1
  rw [View.read_writes_eq_canon _ _ _ (scoverA_1 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S8x128) hzero2, View.readCov_unit_zero (S := S8x128) _ hzero2]
  simp only [View.readAt_eq_ld, harg3.read_unread, View.ld_unit_zero (S := S4096x256) hzero2, View.ld_unit_zero (S := S256x256) hzero2, View.ld_unit_zero (S := S1x256) hzero2, View.ld_unit_zero (S := S4096x1) hzero2, View.ld_unit_zero (S := S128x256) hzero2, View.ld_unit_zero (S := S8x128) hzero2]

theorem sB0_eq (c : Dev nD) (i : grid0.Coords) (arg2 : Memref sig .tc .vmem S4096x256 .f32) (harg2 : arg2.IsWhole) (arg3 : Memref sig .tc .vmem S4096x1 .i32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x128x256 .f32) (harg6 : arg6.IsWhole) (arg7 : Memref sig .tc .vmem S1x8x128 .f32) (harg7 : arg7.IsWhole) (arg8 : Memref sig .tc .vmem S128x256 .f32) (harg8 : arg8.IsWhole) (arg9 : Memref sig .tc .vmem S8x128 .f32) (harg9 : arg9.IsWhole) (hc0 : ¬cond0_0 i) (hc1 : ¬cond0_1 i) (x0 : Vec F S4096x256 .f32) (x1 : Vec F S4096x1 .i32) (x2 : Vec F S256x256 .f32) (x3 : Vec F S1x256 .f32) (xs0 : Vec F S128x256 .f32) (xs1 : Vec F S8x128 .f32) :
    sB0 c i arg2 harg2 arg3 harg3 arg4 harg4 arg5 harg5 arg6 harg6 arg7 harg7 arg8 harg8 arg9 harg9 hc0 hc1 x0 x1 x2 x3 xs0 xs1 = k0_pay7 x0 x2 x3 x1 xs0 := by
  unfold sB0
  rw [View.read_writes_eq_canon _ _ _ (scoverB_0 c i arg2 harg2 arg3 harg3 arg4 harg4 arg5 harg5 arg6 harg6 arg7 harg7 arg8 harg8 arg9 harg9 hc0 hc1 x0 x1 x2 x3 xs0 xs1)]
  unfold kernelRun0_B
  dsimp only
  sl_unfold_words
  rw [View.canon_unit_zero (S := S128x256) hzero2]
  simp only [View.readAt_eq_ld, harg2.read_unread, harg3.read_unread, harg4.read_unread, harg5.read_unread, harg8.read_unread, View.ld_unit_zero (S := S4096x256) hzero2, View.ld_unit_zero (S := S256x256) hzero2, View.ld_unit_zero (S := S1x256) hzero2, View.ld_unit_zero (S := S4096x1) hzero2, View.ld_unit_zero (S := S128x256) hzero2, View.ld_unit_zero (S := S8x128) hzero2]

theorem sB1_eq (c : Dev nD) (i : grid0.Coords) (arg2 : Memref sig .tc .vmem S4096x256 .f32) (harg2 : arg2.IsWhole) (arg3 : Memref sig .tc .vmem S4096x1 .i32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x128x256 .f32) (harg6 : arg6.IsWhole) (arg7 : Memref sig .tc .vmem S1x8x128 .f32) (harg7 : arg7.IsWhole) (arg8 : Memref sig .tc .vmem S128x256 .f32) (harg8 : arg8.IsWhole) (arg9 : Memref sig .tc .vmem S8x128 .f32) (harg9 : arg9.IsWhole) (hc0 : ¬cond0_0 i) (hc1 : ¬cond0_1 i) (x0 : Vec F S4096x256 .f32) (x1 : Vec F S4096x1 .i32) (x2 : Vec F S256x256 .f32) (x3 : Vec F S1x256 .f32) (xs0 : Vec F S128x256 .f32) (xs1 : Vec F S8x128 .f32) :
    sB1 c i arg2 harg2 arg3 harg3 arg4 harg4 arg5 harg5 arg6 harg6 arg7 harg7 arg8 harg8 arg9 harg9 hc0 hc1 x0 x1 x2 x3 xs0 xs1 = k0_pay1 (k0_pay8 x1 xs1) := by
  unfold sB1
  rw [View.read_writes_eq_canon _ _ _ (scoverB_1 c i arg2 harg2 arg3 harg3 arg4 harg4 arg5 harg5 arg6 harg6 arg7 harg7 arg8 harg8 arg9 harg9 hc0 hc1 x0 x1 x2 x3 xs0 xs1)]
  unfold kernelRun0_B
  dsimp only
  sl_unfold_words
  rw [View.canon_unit_zero (S := S8x128) hzero2]
  simp only [View.readAt_eq_ld, harg3.read_unread, harg9.read_unread, View.ld_unit_zero (S := S4096x256) hzero2, View.ld_unit_zero (S := S256x256) hzero2, View.ld_unit_zero (S := S1x256) hzero2, View.ld_unit_zero (S := S4096x1) hzero2, View.ld_unit_zero (S := S128x256) hzero2, View.ld_unit_zero (S := S8x128) hzero2]

theorem sC0_eq (c : Dev nD) (i : grid0.Coords) (arg2 : Memref sig .tc .vmem S4096x256 .f32) (harg2 : arg2.IsWhole) (arg3 : Memref sig .tc .vmem S4096x1 .i32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x128x256 .f32) (harg6 : arg6.IsWhole) (arg7 : Memref sig .tc .vmem S1x8x128 .f32) (harg7 : arg7.IsWhole) (arg8 : Memref sig .tc .vmem S128x256 .f32) (harg8 : arg8.IsWhole) (arg9 : Memref sig .tc .vmem S8x128 .f32) (harg9 : arg9.IsWhole) (hc0 : ¬cond0_0 i) (hc1 : cond0_1 i) (x0 : Vec F S4096x256 .f32) (x1 : Vec F S4096x1 .i32) (x2 : Vec F S256x256 .f32) (x3 : Vec F S1x256 .f32) (xs0 : Vec F S128x256 .f32) (xs1 : Vec F S8x128 .f32) :
    sC0 c i arg2 harg2 arg3 harg3 arg4 harg4 arg5 harg5 arg6 harg6 arg7 harg7 arg8 harg8 arg9 harg9 hc0 hc1 x0 x1 x2 x3 xs0 xs1 = k0_pay7 x0 x2 x3 x1 xs0 := by
  unfold sC0
  rw [View.read_writes_eq_canon _ _ _ (scoverC_0 c i arg2 harg2 arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero (S := S128x256) hzero2]
  simp only [View.readAt_eq_ld, harg2.read_unread, harg3.read_unread, harg4.read_unread, harg5.read_unread, harg8.read_unread, View.ld_unit_zero (S := S4096x256) hzero2, View.ld_unit_zero (S := S256x256) hzero2, View.ld_unit_zero (S := S1x256) hzero2, View.ld_unit_zero (S := S4096x1) hzero2, View.ld_unit_zero (S := S128x256) hzero2, View.ld_unit_zero (S := S8x128) hzero2]

theorem sC1_eq (c : Dev nD) (i : grid0.Coords) (arg2 : Memref sig .tc .vmem S4096x256 .f32) (harg2 : arg2.IsWhole) (arg3 : Memref sig .tc .vmem S4096x1 .i32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x128x256 .f32) (harg6 : arg6.IsWhole) (arg7 : Memref sig .tc .vmem S1x8x128 .f32) (harg7 : arg7.IsWhole) (arg8 : Memref sig .tc .vmem S128x256 .f32) (harg8 : arg8.IsWhole) (arg9 : Memref sig .tc .vmem S8x128 .f32) (harg9 : arg9.IsWhole) (hc0 : ¬cond0_0 i) (hc1 : cond0_1 i) (x0 : Vec F S4096x256 .f32) (x1 : Vec F S4096x1 .i32) (x2 : Vec F S256x256 .f32) (x3 : Vec F S1x256 .f32) (xs0 : Vec F S128x256 .f32) (xs1 : Vec F S8x128 .f32) :
    sC1 c i arg2 harg2 arg3 harg3 arg4 harg4 arg5 harg5 arg6 harg6 arg7 harg7 arg8 harg8 arg9 harg9 hc0 hc1 x0 x1 x2 x3 xs0 xs1 = k0_pay1 (k0_pay8 x1 xs1) := by
  unfold sC1
  rw [View.read_writes_eq_canon _ _ _ (scoverC_1 c i arg2 harg2 arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero (S := S8x128) hzero2]
  simp only [View.readAt_eq_ld, harg3.read_unread, harg9.read_unread, View.ld_unit_zero (S := S4096x256) hzero2, View.ld_unit_zero (S := S256x256) hzero2, View.ld_unit_zero (S := S1x256) hzero2, View.ld_unit_zero (S := S4096x1) hzero2, View.ld_unit_zero (S := S128x256) hzero2, View.ld_unit_zero (S := S8x128) hzero2]

theorem o4C_eq (c : Dev nD) (i : grid0.Coords) (arg2 : Memref sig .tc .vmem S4096x256 .f32) (harg2 : arg2.IsWhole) (arg3 : Memref sig .tc .vmem S4096x1 .i32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x128x256 .f32) (harg6 : arg6.IsWhole) (arg7 : Memref sig .tc .vmem S1x8x128 .f32) (harg7 : arg7.IsWhole) (arg8 : Memref sig .tc .vmem S128x256 .f32) (harg8 : arg8.IsWhole) (arg9 : Memref sig .tc .vmem S8x128 .f32) (harg9 : arg9.IsWhole) (hc0 : ¬cond0_0 i) (hc1 : cond0_1 i) (x0 : Vec F S4096x256 .f32) (x1 : Vec F S4096x1 .i32) (x2 : Vec F S256x256 .f32) (x3 : Vec F S1x256 .f32) (xs0 : Vec F S128x256 .f32) (xs1 : Vec F S8x128 .f32) :
    o4C c i arg2 harg2 arg3 harg3 arg4 harg4 arg5 harg5 arg6 harg6 arg7 harg7 arg8 harg8 arg9 harg9 hc0 hc1 x0 x1 x2 x3 xs0 xs1 = k0_pay2 (k0_pay7 x0 x2 x3 x1 xs0) := by
  unfold o4C
  rw [View.read_writes_eq_canon _ _ _ (coverC_4 c i arg2 harg2 arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero (S := S1x128x256) hzero3, View.readCov_unit_zero (S := S128x256) _ hzero2]
  simp only [View.readAt_eq_ld, harg2.read_unread, harg3.read_unread, harg4.read_unread, harg5.read_unread, harg8.read_unread, View.ld_unit_zero (S := S4096x256) hzero2, View.ld_unit_zero (S := S256x256) hzero2, View.ld_unit_zero (S := S1x256) hzero2, View.ld_unit_zero (S := S4096x1) hzero2, View.ld_unit_zero (S := S128x256) hzero2, View.ld_unit_zero (S := S8x128) hzero2]

theorem o5C_eq (c : Dev nD) (i : grid0.Coords) (arg2 : Memref sig .tc .vmem S4096x256 .f32) (harg2 : arg2.IsWhole) (arg3 : Memref sig .tc .vmem S4096x1 .i32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x128x256 .f32) (harg6 : arg6.IsWhole) (arg7 : Memref sig .tc .vmem S1x8x128 .f32) (harg7 : arg7.IsWhole) (arg8 : Memref sig .tc .vmem S128x256 .f32) (harg8 : arg8.IsWhole) (arg9 : Memref sig .tc .vmem S8x128 .f32) (harg9 : arg9.IsWhole) (hc0 : ¬cond0_0 i) (hc1 : cond0_1 i) (x0 : Vec F S4096x256 .f32) (x1 : Vec F S4096x1 .i32) (x2 : Vec F S256x256 .f32) (x3 : Vec F S1x256 .f32) (xs0 : Vec F S128x256 .f32) (xs1 : Vec F S8x128 .f32) :
    o5C c i arg2 harg2 arg3 harg3 arg4 harg4 arg5 harg5 arg6 harg6 arg7 harg7 arg8 harg8 arg9 harg9 hc0 hc1 x0 x1 x2 x3 xs0 xs1 = k0_pay3 (k0_pay1 (k0_pay8 x1 xs1)) := by
  unfold o5C
  rw [View.read_writes_eq_canon _ _ _ (coverC_5 c i arg2 harg2 arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero (S := S1x8x128) hzero3, View.readCov_unit_zero (S := S8x128) _ hzero2]
  simp only [View.readAt_eq_ld, harg3.read_unread, harg9.read_unread, View.ld_unit_zero (S := S4096x256) hzero2, View.ld_unit_zero (S := S256x256) hzero2, View.ld_unit_zero (S := S1x256) hzero2, View.ld_unit_zero (S := S4096x1) hzero2, View.ld_unit_zero (S := S128x256) hzero2, View.ld_unit_zero (S := S8x128) hzero2]

end Cert.KernelIdeal.Hand

end
-- ==== Proof.ProtoPayload.lean ====
/-
  Region 0's arithmetic at an index, at the exact instance. The accumulating expression for the sums adds to the
  previous contents, at (class, feature), the sum over the block's 4096 rows of the row's zero-one mark for the class
  times the first layer's output at the feature (the affine map of the row against the transposed weights plus the
  bias, clamped at zero); for the counts it adds the sum of the marks; the resets are zero; the copies out are
  reshapes.
-/
import proofs.«422305_j79542794322400_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx

/-- The zero-one mark of a label word for a class. -/
def markWord (l : BitVec 32) (cls : Fin 128) : EReal := if l = BitVec.ofNat 32 cls.val then 1 else 0

/-! ## The mark at an index -/

/-- The word comparison, widened and converted: one where the words agree, zero elsewhere. -/
theorem word_mark (x y : BitVec 32) :
    ((((IntOp.cmpi .eq x y).setWidth 32).toInt : ℝ) : EReal) = if x = y then 1 else 0 := by
  by_cases h : x = y
  · rw [if_pos h]
    have hb : (x == y) = true := by rw [h]; exact BEq.rfl
    show ((((BitVec.ofBool (x == y)).setWidth 32).toInt : ℝ) : EReal) = 1
    rw [hb]
    have h1 : ((BitVec.ofBool true).setWidth 32).toInt = 1 := by decide
    rw [h1]; norm_num
  · rw [if_neg h]
    have hb : (x == y) = false := by
      cases hxy : (x == y)
      · rfl
      · exact absurd (eq_of_beq hxy) h
    show ((((BitVec.ofBool (x == y)).setWidth 32).toInt : ℝ) : EReal) = 0
    rw [hb]
    have h0 : ((BitVec.ofBool false).setWidth 32).toInt = 0 := by decide
    rw [h0]; norm_num

/-- The zero-one mark of a block's row for a class: one where the row's label word is the class's word. -/
theorem pay6_apply (lbl : Vec Ideal S4096x1 .i32) (r' : Fin 4096) (cls : Fin 128) :
    (k0_pay6 (F := Ideal) lbl) (ix2 r' cls) = if lbl (ix2 r' 0) = BitVec.ofNat 32 cls.val then (1 : EReal) else 0 := by
  unfold k0_pay6
  have hb : broadcastTo S4096x128 (shapeCast S4096x1 lbl shapeCasts_S4096x1_S4096x1) broadcasts_S4096x1_S4096x128 (ix2 r' cls)
      = lbl (ix2 r' 0) := by
    rw [shapeCast_self]
    refine broadcastTo_apply lbl broadcasts_S4096x1_S4096x128 (ix2 r' cls) (ix2 r' 0) fun a => ?_
    match a with
    | ⟨0, _⟩ => rfl
    | ⟨1, _⟩ => rfl
  have hi : iota .tc S4096x128 32 [1] iota_S4096x128_d1_w32 (ix2 r' cls) = BitVec.ofNat 32 cls.val :=
    iota_single_apply .tc S4096x128 32 1 iota_S4096x128_d1_w32 (ix2 r' cls)
  show ((((IntOp.cmpi .eq (broadcastTo S4096x128 (shapeCast S4096x1 lbl shapeCasts_S4096x1_S4096x1) broadcasts_S4096x1_S4096x128 (ix2 r' cls))
      (iota .tc S4096x128 32 [1] iota_S4096x128_d1_w32 (ix2 r' cls))).setWidth 32).toInt : ℝ) : EReal) = _
  rw [hb, hi]
  exact word_mark _ _

/-! ## The three products at an index -/

theorem lhsA_0 (i : S4096x256.Idx) (q : dot_S4096x256_S256x256_S4096x256_1_0_0_1_n_n.contr.Idx) :
    (dot_S4096x256_S256x256_S4096x256_1_0_0_1_n_n.lhsIdx i q 0).val = (i 0).val := by
  unfold DotDims.lhsIdx
  rw [dif_neg (show ¬(0 : Fin S4096x256.rank) ∈ dot_S4096x256_S256x256_S4096x256_1_0_0_1_n_n.lhsBatch by decide), dif_pos (show (0 : Fin S4096x256.rank) ∈ dot_S4096x256_S256x256_S4096x256_1_0_0_1_n_n.lhsNonContracting by decide)]
  rfl
theorem lhsA_1 (i : S4096x256.Idx) (q : dot_S4096x256_S256x256_S4096x256_1_0_0_1_n_n.contr.Idx) :
    (dot_S4096x256_S256x256_S4096x256_1_0_0_1_n_n.lhsIdx i q 1).val = (q ⟨0, by decide⟩).val :=
  dot_S4096x256_S256x256_S4096x256_1_0_0_1_n_n.lhsIdx_val_of_single rfl i q
theorem rhsA_0 (i : S4096x256.Idx) (q : dot_S4096x256_S256x256_S4096x256_1_0_0_1_n_n.contr.Idx) :
    (dot_S4096x256_S256x256_S4096x256_1_0_0_1_n_n.rhsIdx i q 0).val = (q ⟨0, by decide⟩).val :=
  dot_S4096x256_S256x256_S4096x256_1_0_0_1_n_n.rhsIdx_val_of_single rfl i q
theorem rhsA_1 (i : S4096x256.Idx) (q : dot_S4096x256_S256x256_S4096x256_1_0_0_1_n_n.contr.Idx) :
    (dot_S4096x256_S256x256_S4096x256_1_0_0_1_n_n.rhsIdx i q 1).val = (i 1).val := by
  unfold DotDims.rhsIdx
  rw [dif_neg (show ¬(1 : Fin S256x256.rank) ∈ dot_S4096x256_S256x256_S4096x256_1_0_0_1_n_n.rhsBatch by decide), dif_pos (show (1 : Fin S256x256.rank) ∈ dot_S4096x256_S256x256_S4096x256_1_0_0_1_n_n.rhsNonContracting by decide)]
  rfl

/-- Rows of the block times columns of the weights: the contraction over the 256 features. -/
theorem mmA_apply {φ₁ φ₂ : FTy} (x : FVec Ideal S4096x256 φ₁) (w : FVec Ideal S256x256 φ₂) (r : Fin 4096) (j : Fin 256) :
    matmul dot_S4096x256_S256x256_S4096x256_1_0_0_1_n_n none x w (constant S4096x256 .f32 0x00000000#32) (ix2 r j)
      = ∑ k : Fin 256, x (ix2 r k) * w (ix2 k j) := by
  show FloatOps.matmul dot_S4096x256_S256x256_S4096x256_1_0_0_1_n_n none x w (constant S4096x256 .f32 0x00000000#32) (ix2 r j) = _
  rw [Ideal.matmul_constant_zero_apply, ← Equiv.sum_comp (ValueIdx.contrEquiv1 dot_S4096x256_S256x256_S4096x256_1_0_0_1_n_n 256 rfl rfl).symm]
  refine Finset.sum_congr rfl fun k _ => ?_
  have hk := ValueIdx.contrEquiv1_symm_val dot_S4096x256_S256x256_S4096x256_1_0_0_1_n_n 256 rfl rfl k
  have el : dot_S4096x256_S256x256_S4096x256_1_0_0_1_n_n.lhsIdx (ix2 r j) ((ValueIdx.contrEquiv1 dot_S4096x256_S256x256_S4096x256_1_0_0_1_n_n 256 rfl rfl).symm k) = ix2 r k := funext fun a => Fin.ext (by
    match a with
    | ⟨0, _⟩ => exact lhsA_0 _ _
    | ⟨1, _⟩ => exact (lhsA_1 _ _).trans hk)
  have er : dot_S4096x256_S256x256_S4096x256_1_0_0_1_n_n.rhsIdx (ix2 r j) ((ValueIdx.contrEquiv1 dot_S4096x256_S256x256_S4096x256_1_0_0_1_n_n 256 rfl rfl).symm k) = ix2 k j := funext fun a => Fin.ext (by
    match a with
    | ⟨0, _⟩ => exact (rhsA_0 _ _).trans hk
    | ⟨1, _⟩ => exact rhsA_1 _ _)
  rw [el, er]

theorem lhsB_0 (i : S128x256.Idx) (q : dot_S4096x128_S4096x256_S128x256_0_0_1_1_n_n.contr.Idx) :
    (dot_S4096x128_S4096x256_S128x256_0_0_1_1_n_n.lhsIdx i q 0).val = (q ⟨0, by decide⟩).val :=
  dot_S4096x128_S4096x256_S128x256_0_0_1_1_n_n.lhsIdx_val_of_single rfl i q
theorem lhsB_1 (i : S128x256.Idx) (q : dot_S4096x128_S4096x256_S128x256_0_0_1_1_n_n.contr.Idx) :
    (dot_S4096x128_S4096x256_S128x256_0_0_1_1_n_n.lhsIdx i q 1).val = (i 0).val := by
  unfold DotDims.lhsIdx
  rw [dif_neg (show ¬(1 : Fin S4096x128.rank) ∈ dot_S4096x128_S4096x256_S128x256_0_0_1_1_n_n.lhsBatch by decide), dif_pos (show (1 : Fin S4096x128.rank) ∈ dot_S4096x128_S4096x256_S128x256_0_0_1_1_n_n.lhsNonContracting by decide)]
  rfl
theorem rhsB_0 (i : S128x256.Idx) (q : dot_S4096x128_S4096x256_S128x256_0_0_1_1_n_n.contr.Idx) :
    (dot_S4096x128_S4096x256_S128x256_0_0_1_1_n_n.rhsIdx i q 0).val = (q ⟨0, by decide⟩).val :=
  dot_S4096x128_S4096x256_S128x256_0_0_1_1_n_n.rhsIdx_val_of_single rfl i q
theorem rhsB_1 (i : S128x256.Idx) (q : dot_S4096x128_S4096x256_S128x256_0_0_1_1_n_n.contr.Idx) :
    (dot_S4096x128_S4096x256_S128x256_0_0_1_1_n_n.rhsIdx i q 1).val = (i 1).val := by
  unfold DotDims.rhsIdx
  rw [dif_neg (show ¬(1 : Fin S4096x256.rank) ∈ dot_S4096x128_S4096x256_S128x256_0_0_1_1_n_n.rhsBatch by decide), dif_pos (show (1 : Fin S4096x256.rank) ∈ dot_S4096x128_S4096x256_S128x256_0_0_1_1_n_n.rhsNonContracting by decide)]
  rfl

/-- The marks against the first layer's outputs: the contraction over the block's 4096 rows. -/
theorem mmB_apply {φ₁ φ₂ : FTy} (m : FVec Ideal S4096x128 φ₁) (h : FVec Ideal S4096x256 φ₂) (cls : Fin 128) (j : Fin 256) :
    matmul dot_S4096x128_S4096x256_S128x256_0_0_1_1_n_n none m h (constant S128x256 .f32 0x00000000#32) (ix2 cls j)
      = ∑ r : Fin 4096, m (ix2 r cls) * h (ix2 r j) := by
  show FloatOps.matmul dot_S4096x128_S4096x256_S128x256_0_0_1_1_n_n none m h (constant S128x256 .f32 0x00000000#32) (ix2 cls j) = _
  rw [Ideal.matmul_constant_zero_apply, ← Equiv.sum_comp (ValueIdx.contrEquiv1 dot_S4096x128_S4096x256_S128x256_0_0_1_1_n_n 4096 rfl rfl).symm]
  refine Finset.sum_congr rfl fun k _ => ?_
  have hk := ValueIdx.contrEquiv1_symm_val dot_S4096x128_S4096x256_S128x256_0_0_1_1_n_n 4096 rfl rfl k
  have el : dot_S4096x128_S4096x256_S128x256_0_0_1_1_n_n.lhsIdx (ix2 cls j) ((ValueIdx.contrEquiv1 dot_S4096x128_S4096x256_S128x256_0_0_1_1_n_n 4096 rfl rfl).symm k) = ix2 k cls := funext fun a => Fin.ext (by
    match a with
    | ⟨0, _⟩ => exact (lhsB_0 _ _).trans hk
    | ⟨1, _⟩ => exact lhsB_1 _ _)
  have er : dot_S4096x128_S4096x256_S128x256_0_0_1_1_n_n.rhsIdx (ix2 cls j) ((ValueIdx.contrEquiv1 dot_S4096x128_S4096x256_S128x256_0_0_1_1_n_n 4096 rfl rfl).symm k) = ix2 k j := funext fun a => Fin.ext (by
    match a with
    | ⟨0, _⟩ => exact (rhsB_0 _ _).trans hk
    | ⟨1, _⟩ => exact rhsB_1 _ _)
  rw [el, er]

theorem lhsC_0 (i : S8x128.Idx) (q : dot_S8x4096_S4096x128_S8x128_1_0_0_1_n_n.contr.Idx) :
    (dot_S8x4096_S4096x128_S8x128_1_0_0_1_n_n.lhsIdx i q 0).val = (i 0).val := by
  unfold DotDims.lhsIdx
  rw [dif_neg (show ¬(0 : Fin S8x4096.rank) ∈ dot_S8x4096_S4096x128_S8x128_1_0_0_1_n_n.lhsBatch by decide), dif_pos (show (0 : Fin S8x4096.rank) ∈ dot_S8x4096_S4096x128_S8x128_1_0_0_1_n_n.lhsNonContracting by decide)]
  rfl
theorem lhsC_1 (i : S8x128.Idx) (q : dot_S8x4096_S4096x128_S8x128_1_0_0_1_n_n.contr.Idx) :
    (dot_S8x4096_S4096x128_S8x128_1_0_0_1_n_n.lhsIdx i q 1).val = (q ⟨0, by decide⟩).val :=
  dot_S8x4096_S4096x128_S8x128_1_0_0_1_n_n.lhsIdx_val_of_single rfl i q
theorem rhsC_0 (i : S8x128.Idx) (q : dot_S8x4096_S4096x128_S8x128_1_0_0_1_n_n.contr.Idx) :
    (dot_S8x4096_S4096x128_S8x128_1_0_0_1_n_n.rhsIdx i q 0).val = (q ⟨0, by decide⟩).val :=
  dot_S8x4096_S4096x128_S8x128_1_0_0_1_n_n.rhsIdx_val_of_single rfl i q
theorem rhsC_1 (i : S8x128.Idx) (q : dot_S8x4096_S4096x128_S8x128_1_0_0_1_n_n.contr.Idx) :
    (dot_S8x4096_S4096x128_S8x128_1_0_0_1_n_n.rhsIdx i q 1).val = (i 1).val := by
  unfold DotDims.rhsIdx
  rw [dif_neg (show ¬(1 : Fin S4096x128.rank) ∈ dot_S8x4096_S4096x128_S8x128_1_0_0_1_n_n.rhsBatch by decide), dif_pos (show (1 : Fin S4096x128.rank) ∈ dot_S8x4096_S4096x128_S8x128_1_0_0_1_n_n.rhsNonContracting by decide)]
  rfl

/-- A row of ones against the marks: the contraction over the block's 4096 rows. -/
theorem mmC_apply {φ₁ φ₂ : FTy} (o : FVec Ideal S8x4096 φ₁) (m : FVec Ideal S4096x128 φ₂) (row : Fin 8) (cls : Fin 128) :
    matmul dot_S8x4096_S4096x128_S8x128_1_0_0_1_n_n none o m (constant S8x128 .f32 0x00000000#32) (ix2 row cls)
      = ∑ r : Fin 4096, o (ix2 row r) * m (ix2 r cls) := by
  show FloatOps.matmul dot_S8x4096_S4096x128_S8x128_1_0_0_1_n_n none o m (constant S8x128 .f32 0x00000000#32) (ix2 row cls) = _
  rw [Ideal.matmul_constant_zero_apply, ← Equiv.sum_comp (ValueIdx.contrEquiv1 dot_S8x4096_S4096x128_S8x128_1_0_0_1_n_n 4096 rfl rfl).symm]
  refine Finset.sum_congr rfl fun k _ => ?_
  have hk := ValueIdx.contrEquiv1_symm_val dot_S8x4096_S4096x128_S8x128_1_0_0_1_n_n 4096 rfl rfl k
  have el : dot_S8x4096_S4096x128_S8x128_1_0_0_1_n_n.lhsIdx (ix2 row cls) ((ValueIdx.contrEquiv1 dot_S8x4096_S4096x128_S8x128_1_0_0_1_n_n 4096 rfl rfl).symm k) = ix2 row k := funext fun a => Fin.ext (by
    match a with
    | ⟨0, _⟩ => exact lhsC_0 _ _
    | ⟨1, _⟩ => exact (lhsC_1 _ _).trans hk)
  have er : dot_S8x4096_S4096x128_S8x128_1_0_0_1_n_n.rhsIdx (ix2 row cls) ((ValueIdx.contrEquiv1 dot_S8x4096_S4096x128_S8x128_1_0_0_1_n_n 4096 rfl rfl).symm k) = ix2 k cls := funext fun a => Fin.ext (by
    match a with
    | ⟨0, _⟩ => exact (rhsC_0 _ _).trans hk
    | ⟨1, _⟩ => exact rhsC_1 _ _)
  rw [el, er]

/-! ## The constant words -/

/-- The bf16 word of one is the extended real one. -/
theorem ofBits_one_bf16 : Ideal.ofBits .bf16 0x3F80#16 = 1 := by
  simp [Ideal.ofBits, Ideal.ieee, -EReal.coe_mul]; norm_num

/-! ## The payloads at an index -/

theorem pay7_at (x0 : Vec Ideal S4096x256 .f32) (w : Vec Ideal S256x256 .f32) (b : Vec Ideal S1x256 .f32) (lbl : Vec Ideal S4096x1 .i32)
    (acc : Vec Ideal S128x256 .f32) (cls : Fin 128) (j : Fin 256) :
    (k0_pay7 (F := Ideal) x0 w b lbl acc : S128x256.Idx → EReal) (ix2 cls j)
      = (acc (ix2 cls j) : EReal) + ∑ r' : Fin 4096, markWord (lbl (ix2 r' 0)) cls
          * max ((∑ k : Fin 256, (x0 (ix2 r' k) : EReal) * (w (ix2 k j) : EReal)) + (b (ix2 0 j) : EReal)) 0 := by
  unfold k0_pay7
  simp only [shapeCast_self]
  rw [addf_apply, mmB_apply]
  refine congrArg (acc (ix2 cls j) + ·) (Finset.sum_congr rfl fun r _ => ?_)
  rw [pay6_apply, truncf_apply, maximumf_apply, addf_apply, mmA_apply, broadcast_apply, broadcastTo_1b_ab_apply]
  rw [show FloatOps.ofBits (F := Ideal) FTy.f32 0x00000000#32 = 0 from Ideal.ofBits_zero_f32]
  rfl

theorem pay8_at (lbl : Vec Ideal S4096x1 .i32) (acc : Vec Ideal S8x128 .f32) (row : Fin 8) (cls : Fin 128) :
    (k0_pay8 (F := Ideal) lbl acc : S8x128.Idx → EReal) (ix2 row cls)
      = (acc (ix2 row cls) : EReal) + ∑ r' : Fin 4096, markWord (lbl (ix2 r' 0)) cls := by
  unfold k0_pay8
  rw [addf_apply, show FloatOps.ofBits (F := Ideal) FTy.bf16 0x3F80#16 = 1 from ofBits_one_bf16,
    mmC_apply (φ₁ := .bf16) (φ₂ := .bf16)]
  refine congrArg (acc (ix2 row cls) + ·) (Finset.sum_congr rfl fun r _ => ?_)
  rw [pay6_apply, broadcast_apply, one_mul]
  rfl

theorem pay1_eq (v : FVec Ideal S8x128 .f32) : k0_pay1 (F := Ideal) v = v := by
  unfold k0_pay1
  exact shapeCast_self _ _

theorem pay2_at (v : Vec Ideal S128x256 .f32) (cls : Fin 128) (j : Fin 256) :
    (k0_pay2 (F := Ideal) v : S1x128x256.Idx → EReal) (ix3 0 cls j) = (v (ix2 cls j) : EReal) := by
  unfold k0_pay2
  exact shapeCast_ab_1ab_apply v shapeCasts_S128x256_S1x128x256 0 cls j

theorem pay3_at (v : Vec Ideal S8x128 .f32) (row : Fin 8) (cls : Fin 128) :
    (k0_pay3 (F := Ideal) v : S1x8x128.Idx → EReal) (ix3 0 row cls) = (v (ix2 row cls) : EReal) := by
  unfold k0_pay3
  exact shapeCast_ab_1ab_apply v shapeCasts_S8x128_S1x8x128 0 row cls

theorem pay4_at (cls : Fin 128) (j : Fin 256) : (k0_pay4 (F := Ideal) : S128x256.Idx → EReal) (ix2 cls j) = 0 := by
  unfold k0_pay4
  simp only [shapeCast_self]
  exact Ideal.ofBits_zero_f32

theorem pay5_at (row : Fin 8) (cls : Fin 128) : (k0_pay5 (F := Ideal) : S8x128.Idx → EReal) (ix2 row cls) = 0 := by
  unfold k0_pay5
  simp only [shapeCast_self]
  exact Ideal.ofBits_zero_f32

end Cert.KernelIdeal.Hand

end
-- ==== Proof.ProtoBlocks.lean ====
/-
  Region 0: the input windows' blocks read at an index (block t of the support rows is rows 4096·t … 4096·t + 4095
  of the array; the weights and the bias are whole), and the two result arrays as what the last point of each half
  writes back (half p's block is written at point 8·p + 7 and at no other point).
-/
import proofs.«422305_j79542794322400_3_alg».proof.Proof.FrameI.ProtoData
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! ## The index maps over the grid, and the input blocks read at an index -/

/-- The index maps, decided over the grid: the two moving input windows are at block (t, 0), the two whole ones at
    (0, 0), the two output windows at (t / 8, 0, 0). -/
theorem idx0_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val / 8 ∧ win0_4.index t (1 : Fin 3) = 0 ∧ win0_4.index t (2 : Fin 3) = 0
    ∧ win0_5.index t (0 : Fin 3) = t.val / 8 ∧ win0_5.index t (1 : Fin 3) = 0 ∧ win0_5.index t (2 : Fin 3) = 0 :=
  (by decide +kernel : ∀ t : Fin grid0.N, _)

section
variable (V : (c : Dev nD) → (b : Ref sig .tc) → Buf (Elt Ideal) ((c : Thread nD τ).loc b))

/-- The array row that row r' of the block at point t is. -/
def rowAt (t : Fin cfg0.N) (r' : Fin 4096) : Fin 65536 :=
  ⟨t.val * 4096 + r'.val, by have h : t.val < 16 := lt_of_lt_of_eq t.isLt (show cfg0.N = 16 from N_0); have := r'.isLt; omega⟩

/-- The last point of half p. -/
def lastOf (p : Fin 2) : Fin cfg0.N :=
  ⟨p.val * 8 + 7, by rw [show cfg0.N = 16 from N_0]; have := p.isLt; omega⟩

theorem blk0_at (c : Dev nD) (t : Fin cfg0.N) (r' : Fin 4096) (k : Fin 256) :
    (iblk0 V c 0 t : S4096x256.Idx → EReal) (ix2 r' k) = (V c main_arg1 : S65536x256.Idx → EReal) (ix2 (rowAt t r') k) := by
  show (V c main_arg1 : S65536x256.Idx → EReal) (((cfg0.win 0).blk t).view.emb (ix2 r' k)) = _
  obtain ⟨e0, e1, -⟩ := idx0_facts t
  refine congrArg _ (funext fun a => Fin.ext ?_)
  match a with
  | ⟨0, _⟩ =>
    show win0_0.index t (0 : Fin 2) * 4096 + 1 * r'.val = t.val * 4096 + r'.val
    rw [e0]; omega
  | ⟨1, _⟩ =>
    show win0_0.index t (1 : Fin 2) * 256 + 1 * k.val = k.val
    rw [e1]; omega

theorem blk1_at (c : Dev nD) (t : Fin cfg0.N) (r' : Fin 4096) :
    (iblk0 V c 1 t : S4096x1.Idx → BitVec 32) (ix2 r' 0) = (V c main_v4 : S65536x1.Idx → BitVec 32) (ix2 (rowAt t r') 0) := by
  show (V c main_v4 : S65536x1.Idx → BitVec 32) (((cfg0.win 1).blk t).view.emb (ix2 r' 0)) = _
  obtain ⟨-, -, e0, e1, -⟩ := idx0_facts t
  refine congrArg _ (funext fun a => Fin.ext ?_)
  match a with
  | ⟨0, _⟩ =>
    show win0_1.index t (0 : Fin 2) * 4096 + 1 * r'.val = t.val * 4096 + r'.val
    rw [e0]; omega
  | ⟨1, _⟩ =>
    show win0_1.index t (1 : Fin 2) * 1 + 1 * 0 = 0
    rw [e1]

theorem blk2_eq (c : Dev nD) (t : Fin cfg0.N) : (iblk0 V c 2 t : S256x256.Idx → EReal) = (V c main_v0 : S256x256.Idx → EReal) := by
  funext y
  show (V c main_v0 : S256x256.Idx → EReal) (((cfg0.win 2).blk t).view.emb y) = (V c main_v0 : S256x256.Idx → EReal) y
  obtain ⟨-, -, -, -, e0, e1, -⟩ := idx0_facts t
  refine congrArg _ (funext fun a => Fin.ext ?_)
  match a with
  | ⟨0, _⟩ =>
    show win0_2.index t (0 : Fin 2) * 256 + 1 * (y 0).val = (y 0).val
    rw [e0]; omega
  | ⟨1, _⟩ =>
    show win0_2.index t (1 : Fin 2) * 256 + 1 * (y 1).val = (y 1).val
    rw [e1]; omega

theorem blk3_eq (c : Dev nD) (t : Fin cfg0.N) : (iblk0 V c 3 t : S1x256.Idx → EReal) = (V c main_v2 : S1x256.Idx → EReal) := by
  funext y
  show (V c main_v2 : S1x256.Idx → EReal) (((cfg0.win 3).blk t).view.emb y) = (V c main_v2 : S1x256.Idx → EReal) y
  obtain ⟨-, -, -, -, -, -, e0, e1, -⟩ := idx0_facts t
  refine congrArg _ (funext fun a => Fin.ext ?_)
  match a with
  | ⟨0, _⟩ =>
    show win0_3.index t (0 : Fin 2) * 1 + 1 * (y 0).val = (y 0).val
    rw [e0]; omega
  | ⟨1, _⟩ =>
    show win0_3.index t (1 : Fin 2) * 256 + 1 * (y 1).val = (y 1).val
    rw [e1]; omega

/-! ## The result arrays: each half's block is what the half's last point writes back -/

theorem lastOf_mod (p : Fin 2) : (lastOf p).val % 8 = 7 := by
  show (p.val * 8 + 7) % 8 = 7
  omega

/-- A point that writes back is the last point of its half. -/
theorem lastOf_div (t : Fin cfg0.N) (h7 : t.val % 8 = 7) (q : Fin 2) (hq : q.val = t.val / 8) : lastOf q = t :=
  Fin.ext (by show q.val * 8 + 7 = t.val; omega)

/-- The sums array as one function of its index: at (p, cls, j) what half p's last point leaves at (0, cls, j). -/
def G4 (c : Dev nD) : S2x128x256.Idx → EReal :=
  fun i => (out4At V c (lastOf (i 0)) : S1x128x256.Idx → EReal) (ix3 0 (i 1) (i 2))
/-- The counts array likewise. -/
def G5 (c : Dev nD) : S2x8x128.Idx → EReal :=
  fun i => (out5At V c (lastOf (i 0)) : S1x8x128.Idx → EReal) (ix3 0 (i 1) (i 2))

/-- Reading the left contents at equal points and equal indices. -/
theorem out4At_congr (c : Dev nD) (t t' : Fin cfg0.N) (z z' : S1x128x256.Idx) (ht : t' = t) (hz : z' = z) :
    (out4At V c t : S1x128x256.Idx → EReal) z = (out4At V c t' : S1x128x256.Idx → EReal) z' := by
  subst ht; subst hz; rfl
theorem out5At_congr (c : Dev nD) (t t' : Fin cfg0.N) (z z' : S1x8x128.Idx) (ht : t' = t) (hz : z' = z) :
    (out5At V c t : S1x8x128.Idx → EReal) z = (out5At V c t' : S1x8x128.Idx → EReal) z' := by
  subst ht; subst hz; rfl

/-- What a writing point writes back is its block of the sums array's function. -/
theorem flushed4_eq (c : Dev nD) (t : Fin cfg0.N) (hf : (cfg0.win 4).flush t = true) :
    (dat0 (F := Ideal) V c).flushed 4 t = ((cfg0.win 4).blk t).view.read (Elt Ideal) (G4 V c) := by
  have h7 : t.val % 8 = 7 := (flush0_4 t).mp hf
  obtain ⟨-, -, -, -, -, -, -, -, e0, e1, e2, -⟩ := idx0_facts t
  show (cfg0.win 4).cut (grid0.coords t) ((dat0 (F := Ideal) V c).after 4 t) = _
  rw [after0_4]
  funext y
  show (out4At V c t : S1x128x256.Idx → EReal) ((cfg0.win 4).xinj (grid0.coords t) y)
    = G4 V c (((cfg0.win 4).blk t).view.emb y)
  have hy0 : (y 0).val < 1 := (y 0).isLt
  have hy1 : (y 1).val < 128 := (y 1).isLt
  have hy2 : (y 2).val < 256 := (y 2).isLt
  have hN : t.val < 16 := lt_of_lt_of_eq t.isLt (show cfg0.N = 16 from N_0)
  have q0 : ((((cfg0.win 4).blk t).view.emb y) 0).val = t.val / 8 := by
    show win0_4.index t (0 : Fin 3) * 1 + 1 * (y 0).val = t.val / 8
    rw [e0]; omega
  have q1 : ((((cfg0.win 4).blk t).view.emb y) 1).val = (y 1).val := by
    show win0_4.index t (1 : Fin 3) * 128 + 1 * (y 1).val = (y 1).val
    rw [e1]; omega
  have q2 : ((((cfg0.win 4).blk t).view.emb y) 2).val = (y 2).val := by
    show win0_4.index t (2 : Fin 3) * 256 + 1 * (y 2).val = (y 2).val
    rw [e2]; omega
  unfold G4
  refine out4At_congr V c t _ _ _ (lastOf_div t h7 _ q0) (funext fun a => Fin.ext ?_)
  match a with
  | ⟨0, _⟩ => show (0 : ℕ) = (y 0).val; omega
  | ⟨1, _⟩ => exact q1
  | ⟨2, _⟩ => exact q2

theorem flushed5_eq (c : Dev nD) (t : Fin cfg0.N) (hf : (cfg0.win 5).flush t = true) :
    (dat0 (F := Ideal) V c).flushed 5 t = ((cfg0.win 5).blk t).view.read (Elt Ideal) (G5 V c) := by
  have h7 : t.val % 8 = 7 := (flush0_5 t).mp hf
  obtain ⟨-, -, -, -, -, -, -, -, -, -, -, e0, e1, e2⟩ := idx0_facts t
  show (cfg0.win 5).cut (grid0.coords t) ((dat0 (F := Ideal) V c).after 5 t) = _
  rw [after0_5]
  funext y
  show (out5At V c t : S1x8x128.Idx → EReal) ((cfg0.win 5).xinj (grid0.coords t) y)
    = G5 V c (((cfg0.win 5).blk t).view.emb y)
  have hy0 : (y 0).val < 1 := (y 0).isLt
  have hy1 : (y 1).val < 8 := (y 1).isLt
  have hy2 : (y 2).val < 128 := (y 2).isLt
  have hN : t.val < 16 := lt_of_lt_of_eq t.isLt (show cfg0.N = 16 from N_0)
  have q0 : ((((cfg0.win 5).blk t).view.emb y) 0).val = t.val / 8 := by
    show win0_5.index t (0 : Fin 3) * 1 + 1 * (y 0).val = t.val / 8
    rw [e0]; omega
  have q1 : ((((cfg0.win 5).blk t).view.emb y) 1).val = (y 1).val := by
    show win0_5.index t (1 : Fin 3) * 8 + 1 * (y 1).val = (y 1).val
    rw [e1]; omega
  have q2 : ((((cfg0.win 5).blk t).view.emb y) 2).val = (y 2).val := by
    show win0_5.index t (2 : Fin 3) * 128 + 1 * (y 2).val = (y 2).val
    rw [e2]; omega
  unfold G5
  refine out5At_congr V c t _ _ _ (lastOf_div t h7 _ q0) (funext fun a => Fin.ext ?_)
  match a with
  | ⟨0, _⟩ => show (0 : ℕ) = (y 0).val; omega
  | ⟨1, _⟩ => exact q1
  | ⟨2, _⟩ => exact q2

/-- An index of the sums array is in point t's block iff each coordinate is in the block's range on its axis. -/
theorem mem_blk4 (t : Fin cfg0.N) (i : S2x128x256.Idx) :
    i ∈ ((cfg0.win 4).blk t).view.set ↔ ∀ a : Fin 3, win0_4.index t a * S1x128x256.size a ≤ (i a).val ∧ (i a).val < win0_4.index t a * S1x128x256.size a + S1x128x256.size a := by
  show i ∈ ((View.whole main_v5_0).slice (win0_4.rect t)).set ↔ _
  rw [View.set_slice_whole, Rect.mem_set_unit]
  exact Iff.rfl
theorem mem_blk5 (t : Fin cfg0.N) (i : S2x8x128.Idx) :
    i ∈ ((cfg0.win 5).blk t).view.set ↔ ∀ a : Fin 3, win0_5.index t a * S1x8x128.size a ≤ (i a).val ∧ (i a).val < win0_5.index t a * S1x8x128.size a + S1x8x128.size a := by
  show i ∈ ((View.whole main_v5_1).slice (win0_5.rect t)).set ↔ _
  rw [View.set_slice_whole, Rect.mem_set_unit]
  exact Iff.rfl

/-- Every index of the sums array lies in the block of its half's last point, which writes back. -/
theorem cover4 (i : S2x128x256.Idx) : ∃ t : Fin cfg0.N, (cfg0.win 4).flush t = true ∧ i ∈ ((cfg0.win 4).blk t).view.set := by
  refine ⟨lastOf (i 0), (flush0_4 _).mpr (lastOf_mod _), ?_⟩
  obtain ⟨-, -, -, -, -, -, -, -, e0, e1, e2, -⟩ := idx0_facts (lastOf (i 0))
  have hl : (lastOf (i 0)).val = (i 0).val * 8 + 7 := rfl
  have h0 : (i 0).val < 2 := (i 0).isLt
  have h1 : (i 1).val < 128 := (i 1).isLt
  have h2 : (i 2).val < 256 := (i 2).isLt
  rw [mem_blk4]
  intro a
  match a with
  | ⟨0, _⟩ =>
    show win0_4.index (lastOf (i 0)) (0 : Fin 3) * 1 ≤ (i 0).val ∧ (i 0).val < win0_4.index (lastOf (i 0)) (0 : Fin 3) * 1 + 1
    rw [e0, hl]; omega
  | ⟨1, _⟩ =>
    show win0_4.index (lastOf (i 0)) (1 : Fin 3) * 128 ≤ (i 1).val ∧ (i 1).val < win0_4.index (lastOf (i 0)) (1 : Fin 3) * 128 + 128
    rw [e1]; omega
  | ⟨2, _⟩ =>
    show win0_4.index (lastOf (i 0)) (2 : Fin 3) * 256 ≤ (i 2).val ∧ (i 2).val < win0_4.index (lastOf (i 0)) (2 : Fin 3) * 256 + 256
    rw [e2]; omega
theorem cover5 (i : S2x8x128.Idx) : ∃ t : Fin cfg0.N, (cfg0.win 5).flush t = true ∧ i ∈ ((cfg0.win 5).blk t).view.set := by
  refine ⟨lastOf (i 0), (flush0_5 _).mpr (lastOf_mod _), ?_⟩
  obtain ⟨-, -, -, -, -, -, -, -, -, -, -, e0, e1, e2⟩ := idx0_facts (lastOf (i 0))
  have hl : (lastOf (i 0)).val = (i 0).val * 8 + 7 := rfl
  have h0 : (i 0).val < 2 := (i 0).isLt
  have h1 : (i 1).val < 8 := (i 1).isLt
  have h2 : (i 2).val < 128 := (i 2).isLt
  rw [mem_blk5]
  intro a
  match a with
  | ⟨0, _⟩ =>
    show win0_5.index (lastOf (i 0)) (0 : Fin 3) * 1 ≤ (i 0).val ∧ (i 0).val < win0_5.index (lastOf (i 0)) (0 : Fin 3) * 1 + 1
    rw [e0, hl]; omega
  | ⟨1, _⟩ =>
    show win0_5.index (lastOf (i 0)) (1 : Fin 3) * 8 ≤ (i 1).val ∧ (i 1).val < win0_5.index (lastOf (i 0)) (1 : Fin 3) * 8 + 8
    rw [e1]; omega
  | ⟨2, _⟩ =>
    show win0_5.index (lastOf (i 0)) (2 : Fin 3) * 128 ≤ (i 2).val ∧ (i 2).val < win0_5.index (lastOf (i 0)) (2 : Fin 3) * 128 + 128
    rw [e2]; omega

theorem final4 (c : Dev nD) (p : Fin 2) (cls : Fin 128) (j : Fin 256) :
    ((dat0 (F := Ideal) V c).arrAt 4 cfg0.N : S2x128x256.Idx → EReal) (ix3 p cls j)
      = (out4At V c (lastOf p) : S1x128x256.Idx → EReal) (ix3 0 cls j) := by
  have h := (dat0 (F := Ideal) V c).arrAt_eq_of_cover 4 (G4 V c) (flushed4_eq V c) cover4
  exact congrFun h (ix3 p cls j)

theorem final5 (c : Dev nD) (p : Fin 2) (row : Fin 8) (cls : Fin 128) :
    ((dat0 (F := Ideal) V c).arrAt 5 cfg0.N : S2x8x128.Idx → EReal) (ix3 p row cls)
      = (out5At V c (lastOf p) : S1x8x128.Idx → EReal) (ix3 0 row cls) := by
  have h := (dat0 (F := Ideal) V c).arrAt_eq_of_cover 5 (G5 V c) (flushed5_eq V c) cover5
  exact congrFun h (ix3 p row cls)

end

end Cert.KernelIdeal.Hand

end
-- ==== Proof.Spec.lean ====
/-
  The mathematics both programs compute, over the extended reals, with every array a function of its
  coordinates. A query row and a support row pass through the same two-layer map (an affine layer clamped at
  zero, then a second affine layer). The reference forms, for each class, the mean of the mapped support rows
  whose label is that class (zero for a class no row has) and returns minus the squared distance from each
  mapped query row to each class mean. The kernel forms per-class sums of the FIRST layer's outputs through
  a zero-one mark, divides by the count, applies the second layer once to that mean, and expands the squared
  distance as |y|² + |p|² − 2 y·p clamped at zero. Which rows carry which class is an abstract decidable
  relation here.
-/
import Mathlib.Data.EReal.Inv
import Mathlib.Algebra.BigOperators.Group.Finset.Basic

noncomputable section

namespace Cert.ProtoSpec

open scoped BigOperators

/-- A quotient as the exact instance reads a division: the product with the inverse off zero. -/
def quot (x y : EReal) : EReal := if y = 0 then (if 0 < x then ⊤ else ⊥) else x * y⁻¹

/-- The first layer: the affine map with weight rows `W1 j` and bias `b1`, clamped at zero. -/
def hidden {R : ℕ} (W1 : Fin 256 → Fin 256 → EReal) (b1 : Fin 256 → EReal) (a : Fin R → Fin 256 → EReal) :
    Fin R → Fin 256 → EReal :=
  fun r j => max ((∑ k, a r k * W1 j k) + b1 j) 0

/-- Both layers: the second affine map of the first layer's output. -/
def embed {R : ℕ} (W1 : Fin 256 → Fin 256 → EReal) (b1 : Fin 256 → EReal) (W2 : Fin 256 → Fin 256 → EReal)
    (b2 : Fin 256 → EReal) (a : Fin R → Fin 256 → EReal) : Fin R → Fin 256 → EReal :=
  fun r j => (∑ k, hidden W1 b1 a r k * W2 j k) + b2 j

section
variable (hit : Fin 65536 → Fin 128 → Prop) [∀ r c, Decidable (hit r c)]

/-! ## The reference: means of the mapped rows of each class -/

def refSum (y : Fin 65536 → Fin 256 → EReal) (c : Fin 128) (j : Fin 256) : EReal :=
  ∑ r ∈ Finset.univ.filter (fun r => hit r c), y r j

def refCount (c : Fin 128) : EReal := ∑ r ∈ Finset.univ.filter (fun r => hit r c), (1 : EReal)

def refProto (y : Fin 65536 → Fin 256 → EReal) (c : Fin 128) (j : Fin 256) : EReal :=
  if 0 < refCount hit c then quot (refSum hit y c j) (max (refCount hit c) 1) else 0

def refOut (W1 : Fin 256 → Fin 256 → EReal) (b1 : Fin 256 → EReal) (W2 : Fin 256 → Fin 256 → EReal) (b2 : Fin 256 → EReal)
    (q : Fin 8192 → Fin 256 → EReal) (x : Fin 65536 → Fin 256 → EReal) (r : Fin 8192) (c : Fin 128) : EReal :=
  -(∑ j, (embed W1 b1 W2 b2 q r j - refProto hit (embed W1 b1 W2 b2 x) c j)
        * (embed W1 b1 W2 b2 q r j - refProto hit (embed W1 b1 W2 b2 x) c j))

/-! ## The kernel: marked sums of the first layer, one second layer on the mean, the expanded distance -/

def mark (r : Fin 65536) (c : Fin 128) : EReal := if hit r c then 1 else 0

def kerSum (h : Fin 65536 → Fin 256 → EReal) (c : Fin 128) (j : Fin 256) : EReal := ∑ r, mark hit r c * h r j

def kerCount (c : Fin 128) : EReal := ∑ r, mark hit r c

def kerProto (W2 : Fin 256 → Fin 256 → EReal) (b2 : Fin 256 → EReal) (h : Fin 65536 → Fin 256 → EReal)
    (c : Fin 128) (j : Fin 256) : EReal :=
  if 0 < kerCount hit c then (∑ k, quot (kerSum hit h c k) (max (kerCount hit c) 1) * W2 j k) + b2 j else 0

def kerOut (W1 : Fin 256 → Fin 256 → EReal) (b1 : Fin 256 → EReal) (W2 : Fin 256 → Fin 256 → EReal) (b2 : Fin 256 → EReal)
    (q : Fin 8192 → Fin 256 → EReal) (x : Fin 65536 → Fin 256 → EReal) (r : Fin 8192) (c : Fin 128) : EReal :=
  0 - max ((((∑ j, embed W1 b1 W2 b2 q r j * embed W1 b1 W2 b2 q r j)
              + ∑ j, kerProto hit W2 b2 (hidden W1 b1 x) c j * kerProto hit W2 b2 (hidden W1 b1 x) c j)
            - 2 * ∑ j, embed W1 b1 W2 b2 q r j * kerProto hit W2 b2 (hidden W1 b1 x) c j)) 0

end

end Cert.ProtoSpec

end
-- ==== Proof.Reading.lean ====
/-
  Arrays as functions of their coordinates, and which support row carries which class: the vocabulary in which
  both programs' results are compared with the specification.
-/
import Idealize.ShloMosaic.Lib.ValueIdx
import proofs.«422305_j79542794322400_3_alg».proof.Proof.Spec

noncomputable section

namespace Cert.ProtoSpec

open Idealize.ShloMosaic Idealize.ShloMosaic.ValueIdx

/-- A rank-2 array of extended reals as a function of its row and column. -/
def cur2 {n0 n1 : ℕ} (a : (⟨2, ![n0, n1]⟩ : Shape).Idx → EReal) : Fin n0 → Fin n1 → EReal := fun r k => a (ix2 r k)

/-- A rank-1 array as a function of its position. -/
def cur1 {n : ℕ} (a : (⟨1, ![n]⟩ : Shape).Idx → EReal) : Fin n → EReal := fun k => a (ix1 k)

/-- Support row r carries class c when its label word is the word of c. -/
def hitOf (lbl : (⟨1, ![65536]⟩ : Shape).Idx → BitVec 32) : Fin 65536 → Fin 128 → Prop :=
  fun r c => lbl (ix1 r) = BitVec.ofNat 32 c.val

instance (lbl : (⟨1, ![65536]⟩ : Shape).Idx → BitVec 32) (r : Fin 65536) (c : Fin 128) : Decidable (hitOf lbl r c) := by
  unfold hitOf; infer_instance

end Cert.ProtoSpec

end
-- ==== Proof.Rows.lean ====
/-
  The support rows in the order the accumulation visits them: two halves, eight blocks a half, 4096 rows a
  block. Summing a function of the row over the blocks of each half and adding the two halves is summing it over
  all rows.
-/
import proofs.«422305_j79542794322400_3_alg».proof.Proof.Spec
import Mathlib.Algebra.BigOperators.Fin

noncomputable section

namespace Cert.ProtoSpec

open scoped BigOperators

/-- Row r' of block i of half p. -/
def rowOf (p : Fin 2) (i : Fin 8) (r' : Fin 4096) : Fin 65536 :=
  ⟨(p.val * 8 + i.val) * 4096 + r'.val, by have := p.isLt; have := i.isLt; have := r'.isLt; omega⟩

/-- Half, block and row within the block determine the row, and every row arises: the map is injective
    (mixed-radix digits are unique) between two types of the same size 2 · 8 · 4096 = 65536. -/
theorem rowOf_bijective :
    Function.Bijective (fun t : Fin 2 × Fin 8 × Fin 4096 => rowOf t.1 t.2.1 t.2.2) := by
  rw [Fintype.bijective_iff_injective_and_card]
  constructor
  · rintro ⟨p, i, r'⟩ ⟨p', i', r''⟩ h
    have h' : (p.val * 8 + i.val) * 4096 + r'.val = (p'.val * 8 + i'.val) * 4096 + r''.val :=
      congrArg Fin.val h
    have h1 := p.isLt
    have h2 := i.isLt
    have h3 := r'.isLt
    have h4 := p'.isLt
    have h5 := i'.isLt
    have h6 := r''.isLt
    have hp : p = p' := Fin.ext (by omega)
    have hi : i = i' := Fin.ext (by omega)
    have hr : r' = r'' := Fin.ext (by omega)
    rw [hp, hi, hr]
  · simp only [Fintype.card_prod, Fintype.card_fin]

/-- The two halves' block-by-block sums add up to the sum over all rows. -/
theorem sum_rows_split (f : Fin 65536 → EReal) :
    (∑ i : Fin 8, ∑ r' : Fin 4096, f (rowOf 0 i r')) + (∑ i : Fin 8, ∑ r' : Fin 4096, f (rowOf 1 i r'))
      = ∑ r : Fin 65536, f r := by
  have h := rowOf_bijective.sum_comp f
  rw [← h, Fintype.sum_prod_type, Fin.sum_univ_two, Fintype.sum_prod_type, Fintype.sum_prod_type]

end Cert.ProtoSpec

end
-- ==== Proof.ProtoValue.lean ====
/-
  Region 0's result arrays at the exact instance. The sums array (2 × 128 × 256) holds, for each half p of the
  support rows, class and feature, the sum over the half's eight blocks and each block's 4096 rows of the row's
  zero-one mark for the class times the first layer's output at the feature; the counts array (2 × 8 × 128) the
  sum of the marks, the same in each of its eight rows. The kept buffers accumulate block by block from the reset
  at the first block of a half, and the last block's point copies them out.
-/
import proofs.«422305_j79542794322400_3_alg».proof.Proof.FrameI.ProtoData
import proofs.«422305_j79542794322400_3_alg».proof.Proof.FrameI.ProtoPieces
import proofs.«422305_j79542794322400_3_alg».proof.Proof.ProtoPayload
import proofs.«422305_j79542794322400_3_alg».proof.Proof.ProtoBlocks
import proofs.«422305_j79542794322400_3_alg».proof.Proof.Reading
import proofs.«422305_j79542794322400_3_alg».proof.Proof.Rows
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.ProtoSpec
open scoped BigOperators

section
variable (V : (c : Dev nD) → (b : Ref sig .tc) → Buf (Elt Ideal) ((c : Thread nD τ).loc b))

/-- The first layer as region 0 finds its operands: the weights already transposed (entry (k, j) of the operand
    is weight row j, column k) and the bias as a one-row array. -/
def hiddenAt (c : Dev nD) : Fin 65536 → Fin 256 → EReal :=
  hidden (fun j k => (V c main_v0 : S256x256.Idx → EReal) (ix2 k j)) (fun j => (V c main_v2 : S1x256.Idx → EReal) (ix2 0 j))
    (cur2 (V c main_arg1 : S65536x256.Idx → EReal))

/-- The mark of row r for class cls, off the label column as region 0 finds it. -/
def markAt (c : Dev nD) (r : Fin 65536) (cls : Fin 128) : EReal :=
  if (V c main_v4 : S65536x1.Idx → BitVec 32) (ix2 r 0) = BitVec.ofNat 32 cls.val then 1 else 0

/-! ## What one point adds -/

/-- What the block at point t adds to the sums at (class, feature): over the block's rows, the row's mark for the
    class times the first layer's output at the feature. -/
def pvAddS (c : Dev nD) (t : Fin cfg0.N) (cls : Fin 128) (j : Fin 256) : EReal :=
  ∑ r' : Fin 4096, markAt V c (rowAt t r') cls * hiddenAt V c (rowAt t r') j

/-- What the block at point t adds to the counts at a class: the sum of its rows' marks. -/
def pvAddC (c : Dev nD) (t : Fin cfg0.N) (cls : Fin 128) : EReal :=
  ∑ r' : Fin 4096, markAt V c (rowAt t r') cls

/-- The accumulating expression for the sums over operands that are point t's blocks of the arrays. -/
theorem pv_pay7_gen (c : Dev nD) (t : Fin cfg0.N) (x0 : Vec Ideal S4096x256 .f32) (w : Vec Ideal S256x256 .f32)
    (b : Vec Ideal S1x256 .f32) (lbl : Vec Ideal S4096x1 .i32) (acc : Vec Ideal S128x256 .f32)
    (h0 : ∀ (r' : Fin 4096) (k : Fin 256), x0 (ix2 r' k) = (V c main_arg1 : S65536x256.Idx → EReal) (ix2 (rowAt t r') k))
    (h1 : ∀ r' : Fin 4096, lbl (ix2 r' 0) = (V c main_v4 : S65536x1.Idx → BitVec 32) (ix2 (rowAt t r') 0))
    (h2 : w = (V c main_v0 : S256x256.Idx → EReal)) (h3 : b = (V c main_v2 : S1x256.Idx → EReal))
    (cls : Fin 128) (j : Fin 256) :
    (k0_pay7 (F := Ideal) x0 w b lbl acc : S128x256.Idx → EReal) (ix2 cls j)
      = (acc (ix2 cls j) : EReal) + pvAddS V c t cls j := by
  refine (pay7_at x0 w b lbl acc cls j).trans ?_
  refine congrArg (fun z : EReal => (acc (ix2 cls j) : EReal) + z) (Finset.sum_congr rfl fun r' _ => ?_)
  rw [h1 r']
  simp only [h0]
  subst h2 h3
  rfl

/-- The accumulating expression for the counts over a label operand that is point t's block of the labels. -/
theorem pv_pay8_gen (c : Dev nD) (t : Fin cfg0.N) (lbl : Vec Ideal S4096x1 .i32) (acc : Vec Ideal S8x128 .f32)
    (h1 : ∀ r' : Fin 4096, lbl (ix2 r' 0) = (V c main_v4 : S65536x1.Idx → BitVec 32) (ix2 (rowAt t r') 0))
    (row : Fin 8) (cls : Fin 128) :
    (k0_pay1 (F := Ideal) (k0_pay8 (F := Ideal) lbl acc) : S8x128.Idx → EReal) (ix2 row cls)
      = (acc (ix2 row cls) : EReal) + pvAddC V c t cls := by
  rw [pay1_eq]
  refine (pay8_at lbl acc row cls).trans ?_
  refine congrArg (fun z : EReal => (acc (ix2 row cls) : EReal) + z) (Finset.sum_congr rfl fun r' _ => ?_)
  rw [h1 r']
  rfl

/-- The accumulating expression for the sums at point t, over any previous contents. -/
theorem pv_pay7_point (c : Dev nD) (t : Fin cfg0.N) (acc : Vec Ideal S128x256 .f32) (cls : Fin 128) (j : Fin 256) :
    (k0_pay7 (F := Ideal) (iblk0 V c 0 t) (iblk0 V c 2 t) (iblk0 V c 3 t) (iblk0 V c 1 t) acc : S128x256.Idx → EReal) (ix2 cls j)
      = (acc (ix2 cls j) : EReal) + pvAddS V c t cls j :=
  pv_pay7_gen V c t (iblk0 V c 0 t) (iblk0 V c 2 t) (iblk0 V c 3 t) (iblk0 V c 1 t) acc
    (blk0_at V c t) (blk1_at V c t) (blk2_eq V c t) (blk3_eq V c t) cls j

/-- The accumulating expression for the counts at point t, over any previous contents. -/
theorem pv_pay8_point (c : Dev nD) (t : Fin cfg0.N) (acc : Vec Ideal S8x128 .f32) (row : Fin 8) (cls : Fin 128) :
    (k0_pay1 (F := Ideal) (k0_pay8 (F := Ideal) (iblk0 V c 1 t) acc) : S8x128.Idx → EReal) (ix2 row cls)
      = (acc (ix2 row cls) : EReal) + pvAddC V c t cls :=
  pv_pay8_gen V c t (iblk0 V c 1 t) acc (blk1_at V c t) row cls

/-! ## The kept buffers point by point -/

theorem pv_fst_of_eq {α β : Type} {x : α × β} {a : α} {b : β} (h : x = (a, b)) : x.1 = a := by rw [h]
theorem pv_snd_of_eq {α β : Type} {x : α × β} {a : α} {b : β} (h : x = (a, b)) : x.2 = b := by rw [h]

/-- At the first point of a half the sums are what that point's block adds to zero. -/
theorem pv_sums_first (c : Dev nD) (t : Fin cfg0.N) (h0 : t.val % 8 = 0) (cls : Fin 128) (j : Fin 256) :
    ((scAt0 V c t.val t.isLt).1 : S128x256.Idx → EReal) (ix2 cls j) = pvAddS V c t cls j := by
  have h1 : ¬t.val % 8 = 7 := by omega
  have e := (pv_fst_of_eq (scAt0_A V c t h0 h1)).trans (sA0_eq (F := Ideal) ..)
  refine (congrFun e (ix2 cls j)).trans ?_
  refine (pv_pay7_point V c t _ cls j).trans ?_
  rw [pay4_at, zero_add]

/-- At a later point the sums are what the point before left plus what this point's block adds. -/
theorem pv_sums_step (c : Dev nD) (t : Fin cfg0.N) (h0 : ¬t.val % 8 = 0) (cls : Fin 128) (j : Fin 256) :
    ((scAt0 V c t.val t.isLt).1 : S128x256.Idx → EReal) (ix2 cls j)
      = ((scAt0 V c (t.val - 1) (Nat.lt_of_le_of_lt (Nat.sub_le _ _) t.isLt)).1 : S128x256.Idx → EReal) (ix2 cls j) + pvAddS V c t cls j := by
  by_cases h1 : t.val % 8 = 7
  · have e := (pv_fst_of_eq (scAt0_C V c t h0 h1)).trans (sC0_eq (F := Ideal) ..)
    exact (congrFun e (ix2 cls j)).trans (pv_pay7_point V c t _ cls j)
  · have e := (pv_fst_of_eq (scAt0_B V c t h0 h1)).trans (sB0_eq (F := Ideal) ..)
    exact (congrFun e (ix2 cls j)).trans (pv_pay7_point V c t _ cls j)

theorem pv_counts_first (c : Dev nD) (t : Fin cfg0.N) (h0 : t.val % 8 = 0) (row : Fin 8) (cls : Fin 128) :
    ((scAt0 V c t.val t.isLt).2 : S8x128.Idx → EReal) (ix2 row cls) = pvAddC V c t cls := by
  have h1 : ¬t.val % 8 = 7 := by omega
  have e := (pv_snd_of_eq (scAt0_A V c t h0 h1)).trans (sA1_eq (F := Ideal) ..)
  refine (congrFun e (ix2 row cls)).trans ?_
  refine (pv_pay8_point V c t _ row cls).trans ?_
  rw [pay5_at, zero_add]

theorem pv_counts_step (c : Dev nD) (t : Fin cfg0.N) (h0 : ¬t.val % 8 = 0) (row : Fin 8) (cls : Fin 128) :
    ((scAt0 V c t.val t.isLt).2 : S8x128.Idx → EReal) (ix2 row cls)
      = ((scAt0 V c (t.val - 1) (Nat.lt_of_le_of_lt (Nat.sub_le _ _) t.isLt)).2 : S8x128.Idx → EReal) (ix2 row cls) + pvAddC V c t cls := by
  by_cases h1 : t.val % 8 = 7
  · have e := (pv_snd_of_eq (scAt0_C V c t h0 h1)).trans (sC1_eq (F := Ideal) ..)
    exact (congrFun e (ix2 row cls)).trans (pv_pay8_point V c t _ row cls)
  · have e := (pv_snd_of_eq (scAt0_B V c t h0 h1)).trans (sB1_eq (F := Ideal) ..)
    exact (congrFun e (ix2 row cls)).trans (pv_pay8_point V c t _ row cls)

/-- The point at position n (n below 16 in every use). -/
def pvPt (n : ℕ) : Fin cfg0.N := ⟨n % 16, by rw [show cfg0.N = 16 from N_0]; exact Nat.mod_lt _ (by decide)⟩

theorem pvPt_self (t : Fin cfg0.N) : pvPt (t.val / 8 * 8 + t.val % 8) = t := by
  have h : t.val < 16 := lt_of_lt_of_eq t.isLt (show cfg0.N = 16 from N_0)
  exact Fin.ext (by show (t.val / 8 * 8 + t.val % 8) % 16 = t.val; omega)

/-- A sum over the points of a half up to t, given its value one point earlier. -/
theorem pv_range_step (f : ℕ → EReal) (t : Fin cfg0.N) (h0 : ¬t.val % 8 = 0) (x : EReal)
    (hx : x = ∑ i ∈ Finset.range ((t.val - 1) % 8 + 1), f ((t.val - 1) / 8 * 8 + i)) :
    x + f (t.val / 8 * 8 + t.val % 8) = ∑ i ∈ Finset.range (t.val % 8 + 1), f (t.val / 8 * 8 + i) := by
  have e1 : (t.val - 1) % 8 + 1 = t.val % 8 := by omega
  have e2 : (t.val - 1) / 8 * 8 = t.val / 8 * 8 := by omega
  rw [Finset.sum_range_succ, hx, e1, e2]

/-- After point t the sums hold what the blocks of t's half up to t add, one after the other. -/
theorem pv_sums_at (c : Dev nD) (cls : Fin 128) (j : Fin 256) : ∀ (n : ℕ) (t : Fin cfg0.N), t.val = n →
    ((scAt0 V c t.val t.isLt).1 : S128x256.Idx → EReal) (ix2 cls j)
      = ∑ i ∈ Finset.range (t.val % 8 + 1), pvAddS V c (pvPt (t.val / 8 * 8 + i)) cls j := by
  have base : ∀ t : Fin cfg0.N, t.val % 8 = 0 →
      ((scAt0 V c t.val t.isLt).1 : S128x256.Idx → EReal) (ix2 cls j)
        = ∑ i ∈ Finset.range (t.val % 8 + 1), pvAddS V c (pvPt (t.val / 8 * 8 + i)) cls j := by
    intro t h0
    have e := pvPt_self t
    rw [h0] at e
    rw [pv_sums_first V c t h0 cls j, h0, Finset.sum_range_one, e]
  intro n
  induction n with
  | zero => intro t ht; exact base t (by rw [ht])
  | succ n ih =>
    intro t ht
    by_cases h0 : t.val % 8 = 0
    · exact base t h0
    · have hlt : t.val - 1 < cfg0.N := Nat.lt_of_le_of_lt (Nat.sub_le _ _) t.isLt
      have ih' := ih ⟨t.val - 1, hlt⟩ (by show t.val - 1 = n; omega)
      have hr := pv_range_step (fun m => pvAddS V c (pvPt m) cls j) t h0 _ ih'
      rw [pvPt_self t] at hr
      exact (pv_sums_step V c t h0 cls j).trans hr

/-- The same for the counts. -/
theorem pv_counts_at (c : Dev nD) (row : Fin 8) (cls : Fin 128) : ∀ (n : ℕ) (t : Fin cfg0.N), t.val = n →
    ((scAt0 V c t.val t.isLt).2 : S8x128.Idx → EReal) (ix2 row cls)
      = ∑ i ∈ Finset.range (t.val % 8 + 1), pvAddC V c (pvPt (t.val / 8 * 8 + i)) cls := by
  have base : ∀ t : Fin cfg0.N, t.val % 8 = 0 →
      ((scAt0 V c t.val t.isLt).2 : S8x128.Idx → EReal) (ix2 row cls)
        = ∑ i ∈ Finset.range (t.val % 8 + 1), pvAddC V c (pvPt (t.val / 8 * 8 + i)) cls := by
    intro t h0
    have e := pvPt_self t
    rw [h0] at e
    rw [pv_counts_first V c t h0 row cls, h0, Finset.sum_range_one, e]
  intro n
  induction n with
  | zero => intro t ht; exact base t (by rw [ht])
  | succ n ih =>
    intro t ht
    by_cases h0 : t.val % 8 = 0
    · exact base t h0
    · have hlt : t.val - 1 < cfg0.N := Nat.lt_of_le_of_lt (Nat.sub_le _ _) t.isLt
      have ih' := ih ⟨t.val - 1, hlt⟩ (by show t.val - 1 = n; omega)
      have hr := pv_range_step (fun m => pvAddC V c (pvPt m) cls) t h0 _ ih'
      rw [pvPt_self t] at hr
      exact (pv_counts_step V c t h0 row cls).trans hr

/-! ## The last point of a half, and the arrays -/

theorem pv_last_mod (p : Fin 2) : (lastOf p).val % 8 = 7 := by
  show (p.val * 8 + 7) % 8 = 7; omega

theorem pv_last_div (p : Fin 2) : (lastOf p).val / 8 * 8 = p.val * 8 := by
  show (p.val * 8 + 7) / 8 * 8 = p.val * 8; omega

theorem pv_rowAt_pt (p : Fin 2) (i : Fin 8) (r' : Fin 4096) : rowAt (pvPt (p.val * 8 + i.val)) r' = rowOf p i r' := by
  have hp := p.isLt
  have hi := i.isLt
  exact Fin.ext (by show (p.val * 8 + i.val) % 16 * 4096 + r'.val = (p.val * 8 + i.val) * 4096 + r'.val; omega)

/-- What the last point of half p copies out for the sums is the kept buffer after that point. -/
theorem pv_out4_last (c : Dev nD) (p : Fin 2) (cls : Fin 128) (j : Fin 256) :
    (out4At V c (lastOf p) : S1x128x256.Idx → EReal) (ix3 0 cls j)
      = ((scAt0 V c (lastOf p).val (lastOf p).isLt).1 : S128x256.Idx → EReal) (ix2 cls j) := by
  have h1 := pv_last_mod p
  have h0 : ¬(lastOf p).val % 8 = 0 := by omega
  have eS := (pv_fst_of_eq (scAt0_C V c (lastOf p) h0 h1)).trans (sC0_eq (F := Ideal) ..)
  have eO := (out4At_C V c (lastOf p) h0 h1).trans (o4C_eq (F := Ideal) ..)
  rw [eO, eS]
  exact pay2_at _ cls j

theorem pv_out5_last (c : Dev nD) (p : Fin 2) (row : Fin 8) (cls : Fin 128) :
    (out5At V c (lastOf p) : S1x8x128.Idx → EReal) (ix3 0 row cls)
      = ((scAt0 V c (lastOf p).val (lastOf p).isLt).2 : S8x128.Idx → EReal) (ix2 row cls) := by
  have h1 := pv_last_mod p
  have h0 : ¬(lastOf p).val % 8 = 0 := by omega
  have eS := (pv_snd_of_eq (scAt0_C V c (lastOf p) h0 h1)).trans (sC1_eq (F := Ideal) ..)
  have eO := (out5At_C V c (lastOf p) h0 h1).trans (o5C_eq (F := Ideal) ..)
  rw [eO, eS]
  exact pay3_at _ row cls

theorem sums_final (c : Dev nD) (p : Fin 2) (cls : Fin 128) (j : Fin 256) :
    ((dat0 (F := Ideal) V c).arrAt 4 cfg0.N : S2x128x256.Idx → EReal) (ix3 p cls j)
      = ∑ i : Fin 8, ∑ r' : Fin 4096, markAt V c (rowOf p i r') cls * hiddenAt V c (rowOf p i r') j := by
  change @Eq EReal _ _
  rw [final4 V c p cls j, pv_out4_last V c p cls j, pv_sums_at V c cls j _ (lastOf p) rfl, pv_last_mod p, pv_last_div p,
    Finset.sum_range (fun i => pvAddS V c (pvPt (p.val * 8 + i)) cls j)]
  refine Finset.sum_congr rfl fun i _ => ?_
  unfold pvAddS
  refine Finset.sum_congr rfl fun r' _ => ?_
  rw [pv_rowAt_pt p i r']

theorem counts_final (c : Dev nD) (p : Fin 2) (row : Fin 8) (cls : Fin 128) :
    ((dat0 (F := Ideal) V c).arrAt 5 cfg0.N : S2x8x128.Idx → EReal) (ix3 p row cls)
      = ∑ i : Fin 8, ∑ r' : Fin 4096, markAt V c (rowOf p i r') cls := by
  change @Eq EReal _ _
  rw [final5 V c p row cls, pv_out5_last V c p row cls, pv_counts_at V c row cls _ (lastOf p) rfl, pv_last_mod p, pv_last_div p,
    Finset.sum_range (fun i => pvAddC V c (pvPt (p.val * 8 + i)) cls)]
  refine Finset.sum_congr rfl fun i _ => ?_
  unfold pvAddC
  refine Finset.sum_congr rfl fun r' _ => ?_
  rw [pv_rowAt_pt p i r']

end

end Cert.KernelIdeal.Hand

end
-- ==== Proof.HeadValue.lean ====
/-
  Region 1's result array at the exact instance: at query row r and class column cls, zero minus the clamp at
  zero of |y|² + (the class's squared norm as region 1 finds it) − 2 y·(the class's prototype column as region 1
  finds it), y the query row through both layers, the weights read transposed as the region finds them.
-/
import proofs.«422305_j79542794322400_3_alg».proof.Proof.FrameI.Head
import proofs.«422305_j79542794322400_3_alg».proof.Proof.Reading
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.ProtoSpec

/-! ## The three products at an index -/

theorem lhs_mm256_0 (i : S2048x256.Idx) (q : dot_S2048x256_S256x256_S2048x256_1_0_0_1_n_n.contr.Idx) :
    (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
  rfl
theorem lhs_mm256_1 (i : S2048x256.Idx) (q : dot_S2048x256_S256x256_S2048x256_1_0_0_1_n_n.contr.Idx) :
    (dot_S2048x256_S256x256_S2048x256_1_0_0_1_n_n.lhsIdx i q 1).val = (q ⟨0, by decide⟩).val :=
  dot_S2048x256_S256x256_S2048x256_1_0_0_1_n_n.lhsIdx_val_of_single rfl i q
theorem rhs_mm256_0 (i : S2048x256.Idx) (q : dot_S2048x256_S256x256_S2048x256_1_0_0_1_n_n.contr.Idx) :
    (dot_S2048x256_S256x256_S2048x256_1_0_0_1_n_n.rhsIdx i q 0).val = (q ⟨0, by decide⟩).val :=
  dot_S2048x256_S256x256_S2048x256_1_0_0_1_n_n.rhsIdx_val_of_single rfl i q
theorem rhs_mm256_1 (i : S2048x256.Idx) (q : dot_S2048x256_S256x256_S2048x256_1_0_0_1_n_n.contr.Idx) :
    (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
  rfl

/-- A 2048×256 by 256×256 product into the zero splat, at (p, q): the sum over the contracted coordinate. -/
theorem mm256_apply {φ₁ φ₂ : FTy} (lhs : FVec Ideal S2048x256 φ₁) (rhs : FVec Ideal S256x256 φ₂) (p : Fin 2048) (q : Fin 256) :
    matmul dot_S2048x256_S256x256_S2048x256_1_0_0_1_n_n none lhs rhs (constant S2048x256 .f32 0x00000000#32) (ix2 p q)
      = ∑ k : Fin 256, lhs (ix2 p k) * rhs (ix2 k q) := by
  simp only [matmul]
  rw [Ideal.matmul_constant_zero_apply, ← Equiv.sum_comp (contrEquiv1 dot_S2048x256_S256x256_S2048x256_1_0_0_1_n_n 256 rfl rfl).symm]
  refine Finset.sum_congr rfl fun k _ => ?_
  have hk := contrEquiv1_symm_val dot_S2048x256_S256x256_S2048x256_1_0_0_1_n_n 256 rfl rfl k
  have el : dot_S2048x256_S256x256_S2048x256_1_0_0_1_n_n.lhsIdx (ix2 p q) ((contrEquiv1 dot_S2048x256_S256x256_S2048x256_1_0_0_1_n_n 256 rfl rfl).symm k) = ix2 p k := funext fun a => Fin.ext (by
    match a with
    | ⟨0, _⟩ => exact lhs_mm256_0 _ _
    | ⟨1, _⟩ => exact (lhs_mm256_1 _ _).trans hk)
  have er : dot_S2048x256_S256x256_S2048x256_1_0_0_1_n_n.rhsIdx (ix2 p q) ((contrEquiv1 dot_S2048x256_S256x256_S2048x256_1_0_0_1_n_n 256 rfl rfl).symm k) = ix2 k q := funext fun a => Fin.ext (by
    match a with
    | ⟨0, _⟩ => exact (rhs_mm256_0 _ _).trans hk
    | ⟨1, _⟩ => exact rhs_mm256_1 _ _)
  rw [el, er]

theorem lhs_mm128_0 (i : S2048x128.Idx) (q : dot_S2048x256_S256x128_S2048x128_1_0_0_1_n_n.contr.Idx) :
    (dot_S2048x256_S256x128_S2048x128_1_0_0_1_n_n.lhsIdx i q 0).val = (i 0).val := by
  unfold DotDims.lhsIdx
  rw [dif_neg (show ¬(0 : Fin S2048x256.rank) ∈ dot_S2048x256_S256x128_S2048x128_1_0_0_1_n_n.lhsBatch by decide), dif_pos (show (0 : Fin S2048x256.rank) ∈ dot_S2048x256_S256x128_S2048x128_1_0_0_1_n_n.lhsNonContracting by decide)]
  rfl
theorem lhs_mm128_1 (i : S2048x128.Idx) (q : dot_S2048x256_S256x128_S2048x128_1_0_0_1_n_n.contr.Idx) :
    (dot_S2048x256_S256x128_S2048x128_1_0_0_1_n_n.lhsIdx i q 1).val = (q ⟨0, by decide⟩).val :=
  dot_S2048x256_S256x128_S2048x128_1_0_0_1_n_n.lhsIdx_val_of_single rfl i q
theorem rhs_mm128_0 (i : S2048x128.Idx) (q : dot_S2048x256_S256x128_S2048x128_1_0_0_1_n_n.contr.Idx) :
    (dot_S2048x256_S256x128_S2048x128_1_0_0_1_n_n.rhsIdx i q 0).val = (q ⟨0, by decide⟩).val :=
  dot_S2048x256_S256x128_S2048x128_1_0_0_1_n_n.rhsIdx_val_of_single rfl i q
theorem rhs_mm128_1 (i : S2048x128.Idx) (q : dot_S2048x256_S256x128_S2048x128_1_0_0_1_n_n.contr.Idx) :
    (dot_S2048x256_S256x128_S2048x128_1_0_0_1_n_n.rhsIdx i q 1).val = (i 1).val := by
  unfold DotDims.rhsIdx
  rw [dif_neg (show ¬(1 : Fin S256x128.rank) ∈ dot_S2048x256_S256x128_S2048x128_1_0_0_1_n_n.rhsBatch by decide), dif_pos (show (1 : Fin S256x128.rank) ∈ dot_S2048x256_S256x128_S2048x128_1_0_0_1_n_n.rhsNonContracting by decide)]
  rfl

/-- A 2048×256 by 256×128 product into the zero splat, at (p, q). -/
theorem mm128_apply {φ₁ φ₂ : FTy} (lhs : FVec Ideal S2048x256 φ₁) (rhs : FVec Ideal S256x128 φ₂) (p : Fin 2048) (q : Fin 128) :
    matmul dot_S2048x256_S256x128_S2048x128_1_0_0_1_n_n none lhs rhs (constant S2048x128 .f32 0x00000000#32) (ix2 p q)
      = ∑ k : Fin 256, lhs (ix2 p k) * rhs (ix2 k q) := by
  simp only [matmul]
  rw [Ideal.matmul_constant_zero_apply, ← Equiv.sum_comp (contrEquiv1 dot_S2048x256_S256x128_S2048x128_1_0_0_1_n_n 256 rfl rfl).symm]
  refine Finset.sum_congr rfl fun k _ => ?_
  have hk := contrEquiv1_symm_val dot_S2048x256_S256x128_S2048x128_1_0_0_1_n_n 256 rfl rfl k
  have el : dot_S2048x256_S256x128_S2048x128_1_0_0_1_n_n.lhsIdx (ix2 p q) ((contrEquiv1 dot_S2048x256_S256x128_S2048x128_1_0_0_1_n_n 256 rfl rfl).symm k) = ix2 p k := funext fun a => Fin.ext (by
    match a with
    | ⟨0, _⟩ => exact lhs_mm128_0 _ _
    | ⟨1, _⟩ => exact (lhs_mm128_1 _ _).trans hk)
  have er : dot_S2048x256_S256x128_S2048x128_1_0_0_1_n_n.rhsIdx (ix2 p q) ((contrEquiv1 dot_S2048x256_S256x128_S2048x128_1_0_0_1_n_n 256 rfl rfl).symm k) = ix2 k q := funext fun a => Fin.ext (by
    match a with
    | ⟨0, _⟩ => exact (rhs_mm128_0 _ _).trans hk
    | ⟨1, _⟩ => exact rhs_mm128_1 _ _)
  rw [el, er]

/-! ## The lane sum, kept as a column and broadcast over the classes -/

/-- The sum over the 256 lanes of row p, whatever the class column it is read at. -/
theorem lanesum_apply (v : FVec Ideal S2048x256 .f32) (hr : S2048x256.Reduces [1] S2048) (hφ : FKind.Formats .f32)
    (hacc : (0x00000000#32 : BitVec (FTy.bits .f32)) = FKind.add.neutral .f32 hφ)
    (hsc : S2048.ShapeCasts S2048x1) (hb : S2048x1.Broadcasts S2048x128) (p : Fin 2048) (q : Fin 128) :
    broadcastTo S2048x128 (shapeCast S2048x1 (multiReduction .add [1] S2048 v 0x00000000#32 hr hφ hacc) hsc) hb (ix2 p q)
      = ∑ k : Fin 256, v (ix2 p k) := by
  refine (broadcastTo_apply _ hb (ix2 p q) (ix2 p (0 : Fin 1)) fun ax => ?_).trans ?_
  · match ax with
    | ⟨0, _⟩ => rfl
    | ⟨1, _⟩ => rfl
  refine (shapeCast_apply _ hsc (ix2 p (0 : Fin 1)) (ix1 p) ?_).trans ?_
  · rw [Shape.rowMajor_val_one, Shape.rowMajor_val_two]
    show p.val = p.val * 1 + 0
    omega
  refine (Ideal.multiReduction_add_single v _ hr hφ hacc (ix1 p)).trans ?_
  refine Finset.sum_congr rfl fun k _ => congrArg v (funext fun a => Fin.ext ?_)
  match a with
  | ⟨0, _⟩ => rfl
  | ⟨1, _⟩ => rfl

/-- The pattern 0x40000000 denotes two. -/
theorem ofBits_two_f32 : Ideal.ofBits .f32 0x40000000#32 = (2 : EReal) := by
  simp [Ideal.ofBits, Ideal.ieee, -EReal.coe_mul]
  rw [show (8388608 * (2 ^ 22)⁻¹ : ℝ) = 2 by norm_num]
  rfl

/-! ## The payload at an index -/

/-- The zero pattern denotes zero, as a scalar constant of the exact instance. -/
theorem fofBits_zero : (FloatOps.ofBits .f32 0x00000000#32 : Ideal .f32) = (0 : EReal) := Ideal.ofBits_zero_f32
/-- The pattern 0x40000000 denotes two, as a scalar constant of the exact instance. -/
theorem fofBits_two : (FloatOps.ofBits .f32 0x40000000#32 : Ideal .f32) = (2 : EReal) := ofBits_two_f32

section Pay
variable (x0 : Vec Ideal S2048x256 .f32) (x1 : Vec Ideal S256x256 .f32) (x2 : Vec Ideal S1x256 .f32)
  (x3 : Vec Ideal S256x256 .f32) (x4 : Vec Ideal S1x256 .f32) (x5 : Vec Ideal S256x128 .bf16) (x6 : Vec Ideal S1x128 .f32)

/-- The stored block at (p, q), from the seven loaded blocks: zero minus the clamp at zero of the squared norm of
    row p through both layers, plus the class's squared norm, minus twice the product with the class's column. -/
theorem pay_apply (p : Fin 2048) (q : Fin 128) :
    (k1_pay1 (k1_pay2 x0 x1 x2 x3 x4 x5 x6) : S2048x128.Idx → EReal) (ix2 p q)
      = 0 - max ((((∑ j : Fin 256,
            embed (fun j k => (x1 : S256x256.Idx → EReal) (ix2 k j)) (fun j => (x2 : S1x256.Idx → EReal) (ix2 0 j))
              (fun j k => (x3 : S256x256.Idx → EReal) (ix2 k j)) (fun j => (x4 : S1x256.Idx → EReal) (ix2 0 j)) (cur2 (x0 : S2048x256.Idx → EReal)) p j
            * embed (fun j k => (x1 : S256x256.Idx → EReal) (ix2 k j)) (fun j => (x2 : S1x256.Idx → EReal) (ix2 0 j))
              (fun j k => (x3 : S256x256.Idx → EReal) (ix2 k j)) (fun j => (x4 : S1x256.Idx → EReal) (ix2 0 j)) (cur2 (x0 : S2048x256.Idx → EReal)) p j)
          + (x6 : S1x128.Idx → EReal) (ix2 0 q))
        - 2 * ∑ j : Fin 256,
            embed (fun j k => (x1 : S256x256.Idx → EReal) (ix2 k j)) (fun j => (x2 : S1x256.Idx → EReal) (ix2 0 j))
              (fun j k => (x3 : S256x256.Idx → EReal) (ix2 k j)) (fun j => (x4 : S1x256.Idx → EReal) (ix2 0 j)) (cur2 (x0 : S2048x256.Idx → EReal)) p j
            * (x5 : S256x128.Idx → EReal) (ix2 j q))) 0 := by
  unfold k1_pay1 k1_pay2
  simp only [shapeCast_self, subf_apply, maximumf_apply, addf_apply, mulf_apply, broadcast_apply, truncf_apply,
    mm256_apply, mm128_apply, lanesum_apply, broadcastTo_1b_ab_apply]
  erw [lanesum_apply]
  simp only [mulf_apply, addf_apply, maximumf_apply, broadcast_apply, truncf_apply, mm256_apply, broadcastTo_1b_ab_apply,
    fofBits_zero, fofBits_two, embed, Cert.ProtoSpec.hidden, cur2]

end Pay

/-! ## Rows of a block -/

/-- Both layers at a row depend on that row of the data only. -/
theorem embed_row_congr {R R' : ℕ} (W1 : Fin 256 → Fin 256 → EReal) (b1 : Fin 256 → EReal) (W2 : Fin 256 → Fin 256 → EReal)
    (b2 : Fin 256 → EReal) (a : Fin R → Fin 256 → EReal) (a' : Fin R' → Fin 256 → EReal) (r : Fin R) (r' : Fin R')
    (h : ∀ k, a r k = a' r' k) (j : Fin 256) : embed W1 b1 W2 b2 a r j = embed W1 b1 W2 b2 a' r' j := by
  unfold embed Cert.ProtoSpec.hidden
  simp only [h]

/-- The zero offsets, however spelt. -/
theorem hz2 : (![0, 0] : Fin 2 → Nat) = fun _ => 0 := funext fun a => by fin_cases a <;> rfl

/-- The windows' block indices at every grid point: at point t the query window and the output window sit at block
    (t, 0); the six operand windows stay at block (0, 0). -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

section
variable (V : (c : Dev nD) → (b : Ref sig .tc) → Buf (Elt Ideal) ((c : Thread nD τ).loc b))

/-- The query rows through both layers, the operands as region 1 finds them (weights transposed, biases as rows). -/
def queryAt (c : Dev nD) : Fin 8192 → Fin 256 → EReal :=
  embed (fun j k => (V c main_v0 : S256x256.Idx → EReal) (ix2 k j)) (fun j => (V c main_v2 : S1x256.Idx → EReal) (ix2 0 j))
    (fun j k => (V c main_v1 : S256x256.Idx → EReal) (ix2 k j)) (fun j => (V c main_v3 : S1x256.Idx → EReal) (ix2 0 j))
    (cur2 (V c main_arg0 : S8192x256.Idx → EReal))

/-- The first weights' block is the whole array. -/
theorem iblk1_1_eq (c : Dev nD) (t : Fin cfg1.N) :
    (iblk1 V c 1 t : S256x256.Idx → EReal) = (V c main_v0 : S256x256.Idx → EReal) := by
  funext y
  have e0 : win1_1.index t (0 : Fin 2) = 0 := (idx_facts1 t).2.2.1
  have e1 : win1_1.index t (1 : Fin 2) = 0 := (idx_facts1 t).2.2.2.1
  show (V c main_v0 : S256x256.Idx → EReal) (((cfg1.win 1).blk t).view.emb y) = _
  have h0 : ((cfg1.win 1).blk t).view.emb y = y := by
    funext a; apply Fin.ext
    match a with
    | ⟨0, _⟩ => show win1_1.index t (0 : Fin 2) * 256 + 1 * (y 0).val = (y 0).val; omega
    | ⟨1, _⟩ => show win1_1.index t (1 : Fin 2) * 256 + 1 * (y 1).val = (y 1).val; omega
  rw [h0]

/-- The first bias row's block is the whole array. -/
theorem iblk1_2_eq (c : Dev nD) (t : Fin cfg1.N) :
    (iblk1 V c 2 t : S1x256.Idx → EReal) = (V c main_v2 : S1x256.Idx → EReal) := by
  funext y
  have e0 : win1_2.index t (0 : Fin 2) = 0 := (idx_facts1 t).2.2.2.2.1
  have e1 : win1_2.index t (1 : Fin 2) = 0 := (idx_facts1 t).2.2.2.2.2.1
  show (V c main_v2 : S1x256.Idx → EReal) (((cfg1.win 2).blk t).view.emb y) = _
  have h0 : ((cfg1.win 2).blk t).view.emb y = y := by
    funext a; apply Fin.ext
    match a with
    | ⟨0, _⟩ => show win1_2.index t (0 : Fin 2) * 1 + 1 * (y 0).val = (y 0).val; omega
    | ⟨1, _⟩ => show win1_2.index t (1 : Fin 2) * 256 + 1 * (y 1).val = (y 1).val; omega
  rw [h0]

/-- The second weights' block is the whole array. -/
theorem iblk1_3_eq (c : Dev nD) (t : Fin cfg1.N) :
    (iblk1 V c 3 t : S256x256.Idx → EReal) = (V c main_v1 : S256x256.Idx → EReal) := by
  funext y
  have e0 : win1_3.index t (0 : Fin 2) = 0 := (idx_facts1 t).2.2.2.2.2.2.1
  have e1 : win1_3.index t (1 : Fin 2) = 0 := (idx_facts1 t).2.2.2.2.2.2.2.1
  show (V c main_v1 : S256x256.Idx → EReal) (((cfg1.win 3).blk t).view.emb y) = _
  have h0 : ((cfg1.win 3).blk t).view.emb y = y := by
    funext a; apply Fin.ext
    match a with
    | ⟨0, _⟩ => show win1_3.index t (0 : Fin 2) * 256 + 1 * (y 0).val = (y 0).val; omega
    | ⟨1, _⟩ => show win1_3.index t (1 : Fin 2) * 256 + 1 * (y 1).val = (y 1).val; omega
  rw [h0]

/-- The second bias row's block is the whole array. -/
theorem iblk1_4_eq (c : Dev nD) (t : Fin cfg1.N) :
    (iblk1 V c 4 t : S1x256.Idx → EReal) = (V c main_v3 : S1x256.Idx → EReal) := by
  funext y
  have e0 : win1_4.index t (0 : Fin 2) = 0 := (idx_facts1 t).2.2.2.2.2.2.2.2.1
  have e1 : win1_4.index t (1 : Fin 2) = 0 := (idx_facts1 t).2.2.2.2.2.2.2.2.2.1
  show (V c main_v3 : S1x256.Idx → EReal) (((cfg1.win 4).blk t).view.emb y) = _
  have h0 : ((cfg1.win 4).blk t).view.emb y = y := by
    funext a; apply Fin.ext
    match a with
    | ⟨0, _⟩ => show win1_4.index t (0 : Fin 2) * 1 + 1 * (y 0).val = (y 0).val; omega
    | ⟨1, _⟩ => show win1_4.index t (1 : Fin 2) * 256 + 1 * (y 1).val = (y 1).val; omega
  rw [h0]

/-- The prototypes' block is the whole array. -/
theorem iblk1_5_eq (c : Dev nD) (t : Fin cfg1.N) :
    (iblk1 V c 5 t : S256x128.Idx → EReal) = (V c main_v28 : S256x128.Idx → EReal) := by
  funext y
  have e0 : win1_5.index t (0 : Fin 2) = 0 := (idx_facts1 t).2.2.2.2.2.2.2.2.2.2.1
  have e1 : win1_5.index t (1 : Fin 2) = 0 := (idx_facts1 t).2.2.2.2.2.2.2.2.2.2.2.1
  show (V c main_v28 : S256x128.Idx → EReal) (((cfg1.win 5).blk t).view.emb y) = _
  have h0 : ((cfg1.win 5).blk t).view.emb y = y := by
    funext a; apply Fin.ext
    match a with
    | ⟨0, _⟩ => show win1_5.index t (0 : Fin 2) * 256 + 1 * (y 0).val = (y 0).val; omega
    | ⟨1, _⟩ => show win1_5.index t (1 : Fin 2) * 128 + 1 * (y 1).val = (y 1).val; omega
  rw [h0]

/-- The squared norms' block is the whole array. -/
theorem iblk1_6_eq (c : Dev nD) (t : Fin cfg1.N) :
    (iblk1 V c 6 t : S1x128.Idx → EReal) = (V c main_v32 : S1x128.Idx → EReal) := by
  funext y
  have e0 : win1_6.index t (0 : Fin 2) = 0 := (idx_facts1 t).2.2.2.2.2.2.2.2.2.2.2.2.1
  have e1 : win1_6.index t (1 : Fin 2) = 0 := (idx_facts1 t).2.2.2.2.2.2.2.2.2.2.2.2.2.1
  show (V c main_v32 : S1x128.Idx → EReal) (((cfg1.win 6).blk t).view.emb y) = _
  have h0 : ((cfg1.win 6).blk t).view.emb y = y := by
    funext a; apply Fin.ext
    match a with
    | ⟨0, _⟩ => show win1_6.index t (0 : Fin 2) * 1 + 1 * (y 0).val = (y 0).val; omega
    | ⟨1, _⟩ => show win1_6.index t (1 : Fin 2) * 128 + 1 * (y 1).val = (y 1).val; omega
  rw [h0]

/-- Row p of the query block at point t is row 2048·t + p of the query array. -/
theorem iblk1_0_apply (c : Dev nD) (t : Fin cfg1.N) (p : Fin 2048) (k : Fin 256) (r : Fin 8192) (hr : r.val = t.val * 2048 + p.val) :
    (iblk1 V c 0 t : S2048x256.Idx → EReal) (ix2 p k) = (V c main_arg0 : S8192x256.Idx → EReal) (ix2 r k) := by
  have e0 : win1_0.index t (0 : Fin 2) = t.val := (idx_facts1 t).1
  have e1 : win1_0.index t (1 : Fin 2) = 0 := (idx_facts1 t).2.1
  show (V c main_arg0 : S8192x256.Idx → EReal) (((cfg1.win 0).blk t).view.emb (ix2 p k)) = _
  have h0 : ((cfg1.win 0).blk t).view.emb (ix2 p k) = ix2 r k := by
    funext a; apply Fin.ext
    match a with
    | ⟨0, _⟩ => show win1_0.index t (0 : Fin 2) * 2048 + 1 * p.val = r.val; omega
    | ⟨1, _⟩ => show win1_0.index t (1 : Fin 2) * 256 + 1 * k.val = k.val; omega
  rw [h0]

/-- The output block's index (p, q) at point t is the array's index (2048·t + p, q). -/
theorem emb1_7 (t : Fin cfg1.N) (p : Fin 2048) (q : Fin 128) (r : Fin 8192) (hr : r.val = t.val * 2048 + p.val) :
    (((cfg1.win 7).blk t).view.emb (ix2 p q) : S8192x128.Idx) = ix2 r q := by
  have e0 : win1_7.index t (0 : Fin 2) = t.val := (idx_facts1 t).2.2.2.2.2.2.2.2.2.2.2.2.2.2.1
  have e1 : win1_7.index t (1 : Fin 2) = 0 := (idx_facts1 t).2.2.2.2.2.2.2.2.2.2.2.2.2.2.2
  funext a; apply Fin.ext
  match a with
  | ⟨0, _⟩ => show win1_7.index t (0 : Fin 2) * 2048 + 1 * p.val = r.val; omega
  | ⟨1, _⟩ => show win1_7.index t (1 : Fin 2) * 128 + 1 * q.val = q.val; omega

/-- The whole result array as one function of the arrays the region finds. -/
def G1 (c : Dev nD) : S8192x128.Idx → EReal := fun i =>
  0 - max ((((∑ j : Fin 256, queryAt V c (i 0) j * queryAt V c (i 0) j) + (V c main_v32 : S1x128.Idx → EReal) (ix2 0 (i 1)))
            - 2 * ∑ j : Fin 256, queryAt V c (i 0) j * (V c main_v28 : S256x128.Idx → EReal) (ix2 j (i 1)))) 0

/-- What point t writes back is block t of the whole-array function. -/
theorem flushed1_7_eq (c : Dev nD) (t : Fin cfg1.N) :
    (dat1 (F := Ideal) V c).flushed 7 t = ((cfg1.win 7).blk t).view.read (Elt Ideal) (G1 V c) := by
  show (cfg1.win 7).cut (grid1.coords t) ((dat1 V c).after 7 t) = _
  rw [after1_7]
  unfold out1_7
  rw [View.canon_unit_zero hz2]
  simp only [View.ld_unit_zero (S := S2048x256) hz2, View.ld_unit_zero (S := S256x256) hz2, View.ld_unit_zero (S := S1x256) hz2,
    View.ld_unit_zero (S := S256x128) hz2, View.ld_unit_zero (S := S1x128) hz2]
  refine funext fun (j : S2048x128.Idx) => ?_
  obtain ⟨p, q, rfl⟩ : ∃ (p : Fin 2048) (q : Fin 128), j = ix2 p q := ⟨j 0, j 1, eq_ix2 j⟩
  have ht : t.val < 4 := t.isLt
  let r : Fin 8192 := ⟨t.val * 2048 + p.val, by have := p.isLt; omega⟩
  have hr : r.val = t.val * 2048 + p.val := rfl
  show (k1_pay1 (k1_pay2 (iblk1 V c 0 t) (iblk1 V c 1 t) (iblk1 V c 2 t) (iblk1 V c 3 t) (iblk1 V c 4 t) (iblk1 V c 5 t) (iblk1 V c 6 t)) : S2048x128.Idx → EReal) (ix2 p q)
      = G1 V c (((cfg1.win 7).blk t).view.emb (ix2 p q))
  refine (pay_apply (iblk1 V c 0 t) (iblk1 V c 1 t) (iblk1 V c 2 t) (iblk1 V c 3 t) (iblk1 V c 4 t) (iblk1 V c 5 t) (iblk1 V c 6 t) p q).trans ?_
  rw [iblk1_1_eq V c t, iblk1_2_eq V c t, iblk1_3_eq V c t, iblk1_4_eq V c t, iblk1_5_eq V c t, iblk1_6_eq V c t, emb1_7 t p q r hr]
  have hE : ∀ j : Fin 256,
      embed (fun j k => (V c main_v0 : S256x256.Idx → EReal) (ix2 k j)) (fun j => (V c main_v2 : S1x256.Idx → EReal) (ix2 0 j))
        (fun j k => (V c main_v1 : S256x256.Idx → EReal) (ix2 k j)) (fun j => (V c main_v3 : S1x256.Idx → EReal) (ix2 0 j))
        (cur2 (iblk1 V c 0 t : S2048x256.Idx → EReal)) p j = queryAt V c r j := fun j =>
    embed_row_congr _ _ _ _ _ _ p r (fun k => iblk1_0_apply V c t p k r hr) j
  simp only [hE]
  rfl

/-- An index of the array is in point t's block iff each coordinate is in the block's range on its axis. -/
theorem mem_blk1_7 (t : Fin cfg1.N) (i : S8192x128.Idx) :
    i ∈ ((cfg1.win 7).blk t).view.set ↔ ∀ a : Fin 2, win1_7.index t a * S2048x128.size a ≤ (i a).val ∧ (i a).val < win1_7.index t a * S2048x128.size a + S2048x128.size a := by
  show i ∈ ((View.whole main_v33).slice (win1_7.rect t)).set ↔ _
  rw [View.set_slice_whole, Rect.mem_set_unit]
  exact Iff.rfl

/-- Every index of the array lies in the block of the point its row falls in. -/
theorem cover1_7_arr (i : S8192x128.Idx) : ∃ t : Fin cfg1.N, (cfg1.win 7).flush t = true ∧ i ∈ ((cfg1.win 7).blk t).view.set := by
  have hi0 : (i 0).val < 8192 := (i 0).isLt
  have hi1 : (i 1).val < 128 := (i 1).isLt
  let t : Fin cfg1.N := ⟨(i 0).val / 2048, by show _ < 4; omega⟩
  have htv : t.val = (i 0).val / 2048 := rfl
  have e0 : win1_7.index t (0 : Fin 2) = t.val := (idx_facts1 t).2.2.2.2.2.2.2.2.2.2.2.2.2.2.1
  have e1 : win1_7.index t (1 : Fin 2) = 0 := (idx_facts1 t).2.2.2.2.2.2.2.2.2.2.2.2.2.2.2
  refine ⟨t, flush1_7 t, ?_⟩
  rw [mem_blk1_7]
  intro a
  match a with
  | ⟨0, _⟩ => show win1_7.index t (0 : Fin 2) * 2048 ≤ (i 0).val ∧ (i 0).val < win1_7.index t (0 : Fin 2) * 2048 + 2048; omega
  | ⟨1, _⟩ => show win1_7.index t (1 : Fin 2) * 128 ≤ (i 1).val ∧ (i 1).val < win1_7.index t (1 : Fin 2) * 128 + 128; omega

theorem dist_final (c : Dev nD) (r : Fin 8192) (cls : Fin 128) :
    ((dat1 (F := Ideal) V c).arrAt 7 cfg1.N : S8192x128.Idx → EReal) (ix2 r cls)
      = 0 - max ((((∑ j : Fin 256, queryAt V c r j * queryAt V c r j) + (V c main_v32 : S1x128.Idx → EReal) (ix2 0 cls))
                  - 2 * ∑ j : Fin 256, queryAt V c r j * (V c main_v28 : S256x128.Idx → EReal) (ix2 j cls))) 0 := by
  have h := (dat1 (F := Ideal) V c).arrAt_eq_of_cover 7 (G1 V c) (fun t _ => flushed1_7_eq V c t) cover1_7_arr
  rw [h]
  rfl

end

end Cert.KernelIdeal.Hand

end
-- ==== Proof.GlueMid.lean ====
/-
  The host stretches between the two regions, read at an index: from region 0's two result arrays (the two halves'
  per-class sums and counts) and the second layer's operands to what region 1 finds as the transposed prototypes and
  their squared norms. The halves are added; the mean divides by the count clamped at one; the second layer is a
  contraction against the transposed weights plus the bias row; a class with no row is set to zero; then the
  transposition, and the sum of squares over the features.
-/
import proofs.«422305_j79542794322400_3_alg».proof.Proof.FrameI.Vals
import proofs.«422305_j79542794322400_3_alg».proof.Proof.Reading
import proofs.«422305_j79542794322400_3_alg».proof.Proof.Gen.KernelIdeal.Regions
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.ProtoSpec

section
variable (m : (ℓ : Loc nD τ sig) → Buf (Elt Ideal) ℓ) (c : Dev nD)

/-- A rank-3 array of extended reals as a function of its three coordinates. -/
def cur3 {n0 n1 n2 : ℕ} (a : (⟨3, ![n0, n1, n2]⟩ : Shape).Idx → EReal) : Fin n0 → Fin n1 → Fin n2 → EReal := fun i j k => a (ix3 i j k)

/-- The two halves' sums added, at (class, feature), off region 0's sums array. -/
def sumsOf : Fin 128 → Fin 256 → EReal := fun cls k =>
  cur3 (W2 (F := Ideal) m c (Proc.devRef .tc main_v5_0)) 0 cls k + cur3 (W2 (F := Ideal) m c (Proc.devRef .tc main_v5_0)) 1 cls k

/-- The two halves' counts added, off row 0 of region 0's counts array. -/
def countOf : Fin 128 → EReal := fun cls =>
  cur3 (W2 (F := Ideal) m c (Proc.devRef .tc main_v5_1)) 0 0 cls + cur3 (W2 (F := Ideal) m c (Proc.devRef .tc main_v5_1)) 1 0 cls

/-- The guarded second layer of the mean, at (class, feature); the second layer's operands as they are after the
    first host stretch (the weights transposed, the bias a row). -/
def protoOf : Fin 128 → Fin 256 → EReal := fun cls j =>
  if 0 < countOf m c cls then
    (∑ k : Fin 256, quot (sumsOf m c cls k) (max (countOf m c cls) 1) * cur2 (W2 (F := Ideal) m c (Proc.devRef .tc main_v1)) k j)
      + cur2 (W2 (F := Ideal) m c (Proc.devRef .tc main_v3)) 0 j
  else 0

/-! ## The layout operations of the stretches, read at coordinates -/

section Reads
variable {α : Type}

theorem read_half0 (s0 : S2x128x256.Idx → α) (cls : Fin 128) (j : Fin 256) :
    shapeCast S128x256 (extractStridedSlice S1x128x256 ![0, 0, 0] s0 slices_S2x128x256_S1x128x256_0_0_0) shapeCasts_S1x128x256_S128x256 (ix2 cls j)
      = s0 (ix3 (0 : Fin 2) cls j) := by
  rw [shapeCast_1ab_ab_apply]
  exact extractStridedSlice_apply _ s0 _ _ (ix3 (0 : Fin 2) cls j) fun a => match a with
    | ⟨0, _⟩ => rfl
    | ⟨1, _⟩ => by show cls.val = 0 + cls.val; omega
    | ⟨2, _⟩ => by show j.val = 0 + j.val; omega

theorem read_half1 (s0 : S2x128x256.Idx → α) (cls : Fin 128) (j : Fin 256) :
    shapeCast S128x256 (extractStridedSlice S1x128x256 ![1, 0, 0] s0 slices_S2x128x256_S1x128x256_1_0_0) shapeCasts_S1x128x256_S128x256 (ix2 cls j)
      = s0 (ix3 (1 : Fin 2) cls j) := by
  rw [shapeCast_1ab_ab_apply]
  exact extractStridedSlice_apply _ s0 _ _ (ix3 (1 : Fin 2) cls j) fun a => match a with
    | ⟨0, _⟩ => rfl
    | ⟨1, _⟩ => by show cls.val = 0 + cls.val; omega
    | ⟨2, _⟩ => by show j.val = 0 + j.val; omega

theorem read_cnt0 (s1 : S2x8x128.Idx → α) (cls : Fin 128) :
    shapeCast S128 (extractStridedSlice S1x1x128 ![0, 0, 0] s1 slices_S2x8x128_S1x1x128_0_0_0) shapeCasts_S1x1x128_S128 (ix1 cls)
      = s1 (ix3 (0 : Fin 2) (0 : Fin 8) cls) := by
  rw [shapeCast_apply _ shapeCasts_S1x1x128_S128 (ix1 cls) (ix3 (0 : Fin 1) (0 : Fin 1) cls) (by
    rw [Shape.rowMajor_val_three, Shape.rowMajor_val_one]
    show (0 * 1 + 0) * 128 + cls.val = cls.val
    omega)]
  exact extractStridedSlice_apply _ s1 _ _ (ix3 (0 : Fin 2) (0 : Fin 8) cls) fun a => match a with
    | ⟨0, _⟩ => rfl
    | ⟨1, _⟩ => rfl
    | ⟨2, _⟩ => by show cls.val = 0 + cls.val; omega

theorem read_cnt1 (s1 : S2x8x128.Idx → α) (cls : Fin 128) :
    shapeCast S128 (extractStridedSlice S1x1x128 ![1, 0, 0] s1 slices_S2x8x128_S1x1x128_1_0_0) shapeCasts_S1x1x128_S128 (ix1 cls)
      = s1 (ix3 (1 : Fin 2) (0 : Fin 8) cls) := by
  rw [shapeCast_apply _ shapeCasts_S1x1x128_S128 (ix1 cls) (ix3 (0 : Fin 1) (0 : Fin 1) cls) (by
    rw [Shape.rowMajor_val_three, Shape.rowMajor_val_one]
    show (0 * 1 + 0) * 128 + cls.val = cls.val
    omega)]
  exact extractStridedSlice_apply _ s1 _ _ (ix3 (1 : Fin 2) (0 : Fin 8) cls) fun a => match a with
    | ⟨0, _⟩ => rfl
    | ⟨1, _⟩ => rfl
    | ⟨2, _⟩ => by show cls.val = 0 + cls.val; omega

theorem read_col (v : S128.Idx → α) (cls : Fin 128) :
    shapeCast S128x1 v shapeCasts_S128_S128x1 (ix2 cls (0 : Fin 1)) = v (ix1 cls) :=
  shapeCast_apply v shapeCasts_S128_S128x1 _ _ (by
    rw [Shape.rowMajor_val_two, Shape.rowMajor_val_one]
    show cls.val = cls.val * 1 + 0
    omega)

theorem read_bcast_col (v : S128x1.Idx → α) (cls : Fin 128) (j : Fin 256) :
    broadcastInDim S128x256 ![0, 1] bcast_S128x1_S128x256_0_1 v (ix2 cls j) = v (ix2 cls (0 : Fin 1)) :=
  broadcastInDim_apply _ bcast_S128x1_S128x256_0_1 v _ _ fun a => match a with
    | ⟨0, _⟩ => by show cls.val = if (128 : Nat) = 1 then 0 else cls.val; rw [if_neg (by decide)]
    | ⟨1, _⟩ => by show 0 = if (1 : Nat) = 1 then 0 else j.val; rw [if_pos rfl]

theorem read_bcast_row (b : S1x256.Idx → α) (cls : Fin 128) (j : Fin 256) :
    broadcastInDim S128x256 ![0, 1] bcast_S1x256_S128x256_0_1 b (ix2 cls j) = b (ix2 (0 : Fin 1) j) :=
  broadcastInDim_apply _ bcast_S1x256_S128x256_0_1 b _ _ fun a => match a with
    | ⟨0, _⟩ => by show 0 = if (1 : Nat) = 1 then 0 else cls.val; rw [if_pos rfl]
    | ⟨1, _⟩ => by show j.val = if (256 : Nat) = 1 then 0 else j.val; rw [if_neg (by decide)]

theorem read_bcast_vec (v : S128.Idx → α) (cls : Fin 128) :
    broadcastInDim S128x1 ![0] bcast_S128_S128x1_0 v (ix2 cls (0 : Fin 1)) = v (ix1 cls) :=
  broadcastInDim_apply _ bcast_S128_S128x1_0 v _ _ fun a => match a with
    | ⟨0, _⟩ => by show cls.val = if (128 : Nat) = 1 then 0 else cls.val; rw [if_neg (by decide)]

theorem read_scalar_col (v : S_.Idx → α) (i : S128x1.Idx) :
    broadcastInDim S128x1 ![] bcast_S_S128x1 v i = v ix0 :=
  broadcastInDim_apply _ bcast_S_S128x1 v i ix0 fun a => a.elim0

theorem read_scalar_mat (v : S_.Idx → α) (i : S128x256.Idx) :
    broadcastInDim S128x256 ![] bcast_S_S128x256 v i = v ix0 :=
  broadcastInDim_apply _ bcast_S_S128x256 v i ix0 fun a => a.elim0

end Reads

section Sums

theorem dot_lhs_0 (i : S128x256.Idx) (q : dot_S128x256_S256x256_S128x256_1_0_0_1_n_n.contr.Idx) : (dot_S128x256_S256x256_S128x256_1_0_0_1_n_n.lhsIdx i q 0).val = (i 0).val := by
  unfold DotDims.lhsIdx
  rw [dif_neg (show ¬(0 : Fin S128x256.rank) ∈ dot_S128x256_S256x256_S128x256_1_0_0_1_n_n.lhsBatch by decide), dif_pos (show (0 : Fin S128x256.rank) ∈ dot_S128x256_S256x256_S128x256_1_0_0_1_n_n.lhsNonContracting by decide)]
  rfl
theorem dot_lhs_1 (i : S128x256.Idx) (q : dot_S128x256_S256x256_S128x256_1_0_0_1_n_n.contr.Idx) : (dot_S128x256_S256x256_S128x256_1_0_0_1_n_n.lhsIdx i q 1).val = (q ⟨0, by decide⟩).val :=
  dot_S128x256_S256x256_S128x256_1_0_0_1_n_n.lhsIdx_val_of_single rfl i q
theorem dot_rhs_0 (i : S128x256.Idx) (q : dot_S128x256_S256x256_S128x256_1_0_0_1_n_n.contr.Idx) : (dot_S128x256_S256x256_S128x256_1_0_0_1_n_n.rhsIdx i q 0).val = (q ⟨0, by decide⟩).val :=
  dot_S128x256_S256x256_S128x256_1_0_0_1_n_n.rhsIdx_val_of_single rfl i q
theorem dot_rhs_1 (i : S128x256.Idx) (q : dot_S128x256_S256x256_S128x256_1_0_0_1_n_n.contr.Idx) : (dot_S128x256_S256x256_S128x256_1_0_0_1_n_n.rhsIdx i q 1).val = (i 1).val := by
  unfold DotDims.rhsIdx
  rw [dif_neg (show ¬(1 : Fin S256x256.rank) ∈ dot_S128x256_S256x256_S128x256_1_0_0_1_n_n.rhsBatch by decide), dif_pos (show (1 : Fin S256x256.rank) ∈ dot_S128x256_S256x256_S128x256_1_0_0_1_n_n.rhsNonContracting by decide)]
  rfl

/-- The contraction at (class, feature): the sum over the contracted coordinate of the products. -/
theorem read_dot (l : FVec Ideal S128x256 .f32) (r : FVec Ideal S256x256 .f32) (cls : Fin 128) (j : Fin 256) :
    Host.dotGeneral (F := Ideal) dot_S128x256_S256x256_S128x256_1_0_0_1_n_n none l r (ix2 cls j) = ∑ k : Fin 256, l (ix2 cls k) * r (ix2 k j) := by
  simp only [Host.dotGeneral]
  rw [Ideal.dotGeneral_apply, ← Equiv.sum_comp (ValueIdx.contrEquiv1 dot_S128x256_S256x256_S128x256_1_0_0_1_n_n 256 rfl rfl).symm]
  refine Finset.sum_congr rfl fun k _ => ?_
  have hk := ValueIdx.contrEquiv1_symm_val dot_S128x256_S256x256_S128x256_1_0_0_1_n_n 256 rfl rfl k
  have el : dot_S128x256_S256x256_S128x256_1_0_0_1_n_n.lhsIdx (ix2 cls j) ((ValueIdx.contrEquiv1 dot_S128x256_S256x256_S128x256_1_0_0_1_n_n 256 rfl rfl).symm k) = ix2 cls k := funext fun a => Fin.ext (by
    match a with
    | ⟨0, _⟩ => exact dot_lhs_0 _ _
    | ⟨1, _⟩ => exact (dot_lhs_1 _ _).trans hk)
  have er : dot_S128x256_S256x256_S128x256_1_0_0_1_n_n.rhsIdx (ix2 cls j) ((ValueIdx.contrEquiv1 dot_S128x256_S256x256_S128x256_1_0_0_1_n_n 256 rfl rfl).symm k) = ix2 k j := funext fun a => Fin.ext (by
    match a with
    | ⟨0, _⟩ => exact (dot_rhs_0 _ _).trans hk
    | ⟨1, _⟩ => exact dot_rhs_1 _ _)
  rw [el, er]

/-- The sum over the feature axis at a class: the initial value plus the sum over the features. -/
theorem read_reduce (x : FVec Ideal S128x256 .f32) (init : FVec Ideal S_ .f32) (cls : Fin 128) :
    Host.reduceAdd (F := Ideal) x init reducesTo_S128x256_S128_d1 h_S_ (ix1 cls)
      = init (Shape.Idx.first h_S_) + ∑ j : Fin 256, x (ix2 cls j) := by
  simp only [Host.reduceAdd, Ideal.hostReduceAdd_def]
  rw [Ideal.hostReduceAdd_single reducesTo_S128x256_S128_d1 (by decide)]
  refine congrArg (_ + ·) (Finset.sum_congr rfl fun k _ => ?_)
  exact congrArg x (funext fun a => Fin.ext (by match a with | ⟨0, _⟩ => rfl | ⟨1, _⟩ => rfl))

/-- The word 0x3F800000 is one. -/
theorem one_word : Ideal.ofBits .f32 0x3F800000#32 = 1 := by
  simp [Ideal.ofBits, Ideal.ieee, -EReal.coe_mul]; norm_num

theorem hdivf_apply {s : Shape} (a b : FVec Ideal s .f32) (i : s.Idx) : Host.divf a b i = Ideal.div (a i) (b i) := rfl

end Sums

/-! ## What each host stretch leaves, over any contents X it starts from -/

section Stretches
variable (X : Valuation τ sig (Elt Ideal))

theorem ops1_v7 : (StableHlo.after hostOps1 X (Proc.devRef .tc main_v7) : FVec Ideal S128x256 .f32)
      = shapeCast S128x256 (extractStridedSlice S1x128x256 ![0, 0, 0] (X (Proc.devRef .tc main_v5_0) : FVec Ideal S2x128x256 .f32) slices_S2x128x256_S1x128x256_0_0_0) shapeCasts_S1x128x256_S128x256 := by
  after_results_simp
  rfl

theorem ops1_v9 : (StableHlo.after hostOps1 X (Proc.devRef .tc main_v9) : FVec Ideal S128x256 .f32)
      = shapeCast S128x256 (extractStridedSlice S1x128x256 ![1, 0, 0] (X (Proc.devRef .tc main_v5_0) : FVec Ideal S2x128x256 .f32) slices_S2x128x256_S1x128x256_1_0_0) shapeCasts_S1x128x256_S128x256 := by
  after_results_simp
  rfl

theorem ops1_v12 : (StableHlo.after hostOps1 X (Proc.devRef .tc main_v12) : FVec Ideal S128 .f32)
      = shapeCast S128 (extractStridedSlice S1x1x128 ![0, 0, 0] (X (Proc.devRef .tc main_v5_1) : FVec Ideal S2x8x128 .f32) slices_S2x8x128_S1x1x128_0_0_0) shapeCasts_S1x1x128_S128 := by
  after_results_simp
  rfl

theorem ops1_v14 : (StableHlo.after hostOps1 X (Proc.devRef .tc main_v14) : FVec Ideal S128 .f32)
      = shapeCast S128 (extractStridedSlice S1x1x128 ![1, 0, 0] (X (Proc.devRef .tc main_v5_1) : FVec Ideal S2x8x128 .f32) slices_S2x8x128_S1x1x128_1_0_0) shapeCasts_S1x1x128_S128 := by
  after_results_simp
  rfl

theorem ops1_v16 : (StableHlo.after hostOps1 X (Proc.devRef .tc main_v16) : FVec Ideal S128x1 .f32)
      = shapeCast S128x1 (addf (F := Ideal) (s := S128) (φ := .f32) (StableHlo.after hostOps1 X (Proc.devRef .tc main_v12) : FVec Ideal S128 .f32) (StableHlo.after hostOps1 X (Proc.devRef .tc main_v14) : FVec Ideal S128 .f32)) shapeCasts_S128_S128x1 := by
  after_results_simp
  rfl

theorem ops1_v23 : (StableHlo.after hostOps1 X (Proc.devRef .tc main_v23) : FVec Ideal S128x256 .f32)
      = addf (F := Ideal) (s := S128x256) (φ := .f32)
          (Host.dotGeneral (F := Ideal) (φ₁ := .f32) (φ₂ := .f32) dot_S128x256_S256x256_S128x256_1_0_0_1_n_n none
            (Host.divf (F := Ideal) (s := S128x256) (φ := .f32) (addf (F := Ideal) (s := S128x256) (φ := .f32) (StableHlo.after hostOps1 X (Proc.devRef .tc main_v7) : FVec Ideal S128x256 .f32) (StableHlo.after hostOps1 X (Proc.devRef .tc main_v9) : FVec Ideal S128x256 .f32))
              (broadcastInDim S128x256 ![0, 1] bcast_S128x1_S128x256_0_1
                (maximumf (F := Ideal) (s := S128x1) (φ := .f32) (StableHlo.after hostOps1 X (Proc.devRef .tc main_v16) : FVec Ideal S128x1 .f32) (broadcastInDim S128x1 ![] bcast_S_S128x1 (constant (F := Ideal) S_ .f32 0x3F800000#32)))))
            (X (Proc.devRef .tc main_v1) : FVec Ideal S256x256 .f32))
          (broadcastInDim S128x256 ![0, 1] bcast_S1x256_S128x256_0_1 (X (Proc.devRef .tc main_v3) : FVec Ideal S1x256 .f32)) := by
  after_results_simp

theorem ops1_v25 : (StableHlo.after hostOps1 X (Proc.devRef .tc main_v25) : IVec S128x1 1)
      = cmpf (F := Ideal) (s := S128x1) (φ := .f32) .ogt (StableHlo.after hostOps1 X (Proc.devRef .tc main_v16) : FVec Ideal S128x1 .f32) (broadcastInDim S128x1 ![] bcast_S_S128x1 (constant (F := Ideal) S_ .f32 0x00000000#32)) := by
  after_results_simp

theorem ops1_cst_1 : (StableHlo.after hostOps1 X (Proc.devRef .tc main_cst_1) : FVec Ideal S_ .f32) = constant (F := Ideal) S_ .f32 0x00000000#32 := by
  after_results_simp

theorem ops1_1_v26 : (StableHlo.after hostOps1_1 X (Proc.devRef .tc main_v26) : FVec Ideal S128x256 .f32)
      = select (s := S128x256) (α := EReal) (broadcastInDim S128x256 ![0, 1] bcast_S128x1_S128x256_0_1 (X (Proc.devRef .tc main_v25) : IVec S128x1 1))
          (X (Proc.devRef .tc main_v23) : FVec Ideal S128x256 .f32)
          (broadcastInDim S128x256 ![] bcast_S_S128x256 (id (X (Proc.devRef .tc main_cst_1) : FVec Ideal S_ .f32))) := by
  after_results_simp
  rfl

theorem ops1_2_v28 : (StableHlo.after hostOps1_2 X (Proc.devRef .tc main_v28) : FVec Ideal S256x128 .bf16)
      = truncf (F := Ideal) (s := S256x128) (φ := .f32) .bf16 (transpose S256x128 [1, 0] (X (Proc.devRef .tc main_v26) : FVec Ideal S128x256 .f32) transposes_S128x256_S256x128_1_0) bitsLt_bf16_f32 := by
  after_results_simp

theorem ops1_2_v32 : (StableHlo.after hostOps1_2 X (Proc.devRef .tc main_v32) : FVec Ideal S1x128 .f32)
      = transpose S1x128 [1, 0]
          (broadcastInDim S128x1 ![0] bcast_S128_S128x1_0
            (Host.reduceAdd (F := Ideal) (s := S128x256) (φ := .f32) (mulf (F := Ideal) (s := S128x256) (φ := .f32) (X (Proc.devRef .tc main_v26) : FVec Ideal S128x256 .f32) (X (Proc.devRef .tc main_v26) : FVec Ideal S128x256 .f32))
              (constant (F := Ideal) S_ .f32 0x00000000#32) reducesTo_S128x256_S128_d1 h_S_))
          transposes_S128x1_S1x128_1_0 := by
  after_results_simp

end Stretches

/-! ## The stretches read at coordinates, over any contents X -/

section StretchReads
variable (X : Valuation τ sig (Elt Ideal))

/-- The added counts, off row 0 of each half. -/
theorem cnt_at (cls : Fin 128) :
    (StableHlo.after hostOps1 X (Proc.devRef .tc main_v16) : FVec Ideal S128x1 .f32) (ix2 cls (0 : Fin 1))
      = cur3 (X (Proc.devRef .tc main_v5_1)) (0 : Fin 2) (0 : Fin 8) cls + cur3 (X (Proc.devRef .tc main_v5_1)) (1 : Fin 2) (0 : Fin 8) cls := by
  unfold cur3
  rw [ops1_v16, read_col, addf_apply, ops1_v12, ops1_v14, read_cnt0, read_cnt1]

/-- The added sums. -/
theorem sum_at (cls : Fin 128) (k : Fin 256) :
    addf (F := Ideal) (s := S128x256) (φ := .f32) (StableHlo.after hostOps1 X (Proc.devRef .tc main_v7)) (StableHlo.after hostOps1 X (Proc.devRef .tc main_v9)) (ix2 cls k)
      = cur3 (X (Proc.devRef .tc main_v5_0)) (0 : Fin 2) cls k + cur3 (X (Proc.devRef .tc main_v5_0)) (1 : Fin 2) cls k := by
  unfold cur3
  rw [addf_apply, ops1_v7, ops1_v9, read_half0, read_half1]

/-- The guard bit. -/
theorem pos_at (cls : Fin 128) :
    (StableHlo.after hostOps1 X (Proc.devRef .tc main_v25) : IVec S128x1 1) (ix2 cls (0 : Fin 1))
      = Ideal.cmp .ogt (cur3 (X (Proc.devRef .tc main_v5_1)) (0 : Fin 2) (0 : Fin 8) cls + cur3 (X (Proc.devRef .tc main_v5_1)) (1 : Fin 2) (0 : Fin 8) cls) 0 := by
  rw [ops1_v25, cmpf_apply, read_scalar_col, constant_apply, Ideal.ofBits_zero_f32, Ideal.cmpf_def, cnt_at]

/-- The second layer of the mean. -/
theorem lin_at (cls : Fin 128) (j : Fin 256) :
    (StableHlo.after hostOps1 X (Proc.devRef .tc main_v23) : FVec Ideal S128x256 .f32) (ix2 cls j)
      = (∑ k : Fin 256,
          Ideal.div (cur3 (X (Proc.devRef .tc main_v5_0)) (0 : Fin 2) cls k + cur3 (X (Proc.devRef .tc main_v5_0)) (1 : Fin 2) cls k)
              (max (cur3 (X (Proc.devRef .tc main_v5_1)) (0 : Fin 2) (0 : Fin 8) cls + cur3 (X (Proc.devRef .tc main_v5_1)) (1 : Fin 2) (0 : Fin 8) cls) 1)
            * cur2 (X (Proc.devRef .tc main_v1)) k j)
        + cur2 (X (Proc.devRef .tc main_v3)) (0 : Fin 1) j := by
  unfold cur2
  rw [ops1_v23, addf_apply, read_dot, read_bcast_row]
  refine congrArg (· + _) (Finset.sum_congr rfl fun k _ => ?_)
  rw [hdivf_apply, sum_at, read_bcast_col, maximumf_apply, read_scalar_col, constant_apply, one_word, cnt_at]

end StretchReads

/-- The prototypes array the select leaves, at (class, feature). -/
theorem proto_at (cls : Fin 128) (j : Fin 256) :
    (W4 (F := Ideal) m c (Proc.devRef .tc main_v26) : FVec Ideal S128x256 .f32) (ix2 cls j) = protoOf m c cls j := by
  show (StableHlo.after hostOps1_1 (StableHlo.after hostOps1 (W2 (F := Ideal) m c)) (Proc.devRef .tc main_v26) : FVec Ideal S128x256 .f32) (ix2 cls j) = _
  rw [ops1_1_v26, select_apply, read_bcast_col, read_scalar_mat, pos_at, lin_at]
  rw [show (id (StableHlo.after hostOps1 (W2 (F := Ideal) m c) (Proc.devRef .tc main_cst_1)) : FVec Ideal S_ .f32) ix0 = 0 from by
    rw [id, ops1_cst_1, constant_apply, Ideal.ofBits_zero_f32]]
  unfold protoOf countOf sumsOf Ideal.cmp
  by_cases h : 0 < cur3 (W2 (F := Ideal) m c (Proc.devRef .tc main_v5_1)) (0 : Fin 2) (0 : Fin 8) cls
      + cur3 (W2 (F := Ideal) m c (Proc.devRef .tc main_v5_1)) (1 : Fin 2) (0 : Fin 8) cls
  · rw [if_pos h]
    simp only [decide_eq_true h]
    exact select_one _ _
  · rw [if_neg h]
    simp only [decide_eq_false h]
    exact select_zero _ _

theorem protoT_at (j : Fin 256) (cls : Fin 128) :
    cur2 (W5 (F := Ideal) m c (Proc.devRef .tc main_v28)) j cls = protoOf m c cls j := by
  show (StableHlo.after hostOps1_2 (W4 (F := Ideal) m c) (Proc.devRef .tc main_v28) : FVec Ideal S256x128 .bf16) (ix2 j cls) = _
  rw [ops1_2_v28, truncf_apply, transpose_ix2_apply]
  exact proto_at m c cls j

theorem psq_at (cls : Fin 128) :
    cur2 (W5 (F := Ideal) m c (Proc.devRef .tc main_v32)) 0 cls
      = ∑ j : Fin 256, protoOf m c cls j * protoOf m c cls j := by
  unfold cur2
  dsimp only [W5]
  rw [ops1_2_v32, transpose_ix2_apply, read_bcast_vec, read_reduce, constant_apply, Ideal.ofBits_zero_f32, zero_add]
  refine Finset.sum_congr rfl fun j _ => ?_
  rw [mulf_apply, proto_at]

end

end Cert.KernelIdeal.Hand

end
-- ==== Proof.GlueIn.lean ====
/-
  The operands as the two regions find them, in terms of the argument arrays: the first host stretch transposes the
  two weight matrices and reshapes the biases to rows and the labels to a column, and nothing later writes those
  buffers. So the first layer as region 0 finds it is the specification's first layer of the arguments, a row's mark
  its mark by the label word, and the query rows through both layers as region 1 finds them the specification's
  embedding. Also: region 0's result arrays and region 1's result array sit at the boundaries' contents where the
  later segments read them, and the final slice keeps the first hundred class columns.
-/
import proofs.«422305_j79542794322400_3_alg».proof.Proof.FrameI.Vals
import proofs.«422305_j79542794322400_3_alg».proof.Proof.ProtoValue
import proofs.«422305_j79542794322400_3_alg».proof.Proof.HeadValue
import proofs.«422305_j79542794322400_3_alg».proof.Proof.GlueMid
import proofs.«422305_j79542794322400_3_alg».proof.Proof.Reading
import proofs.«422305_j79542794322400_3_alg».proof.Proof.Gen.KernelIdeal.Regions
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.ProtoSpec

section
variable (m : (ℓ : Loc nD τ sig) → Buf (Elt Ideal) ℓ) (c : Dev nD)

/-! ## The first host stretch's results, read at an index -/

/-- The first stretch leaves the transposed first-layer weights: entry (k, j) is the argument's entry (j, k). -/
theorem W1_v0_at (k j : Fin 256) :
    (W1 (F := Ideal) m c (Proc.devRef .tc main_v0) : S256x256.Idx → EReal) (ix2 k j)
      = ((m ((c.tc : Thread nD τ).loc main_arg3)) : S256x256.Idx → EReal) (ix2 j k) := by
  have e : (W1 (F := Ideal) m c (Proc.devRef .tc main_v0) : S256x256.Idx → EReal)
      = transpose S256x256 [1, 0] (m ((c.tc : Thread nD τ).loc main_arg3)) transposes_S256x256_S256x256_1_0 := by
    show StableHlo.after hostOps0 _ (Proc.devRef .tc main_v0) = _
    after_results
  rw [e]
  exact transpose_apply [1, 0] _ _ (ix2 k j) (ix2 j k) fun b => match b with | ⟨0, _⟩ => rfl | ⟨1, _⟩ => rfl

/-- The same for the second-layer weights. -/
theorem W1_v1_at (k j : Fin 256) :
    (W1 (F := Ideal) m c (Proc.devRef .tc main_v1) : S256x256.Idx → EReal) (ix2 k j)
      = ((m ((c.tc : Thread nD τ).loc main_arg5)) : S256x256.Idx → EReal) (ix2 j k) := by
  have e : (W1 (F := Ideal) m c (Proc.devRef .tc main_v1) : S256x256.Idx → EReal)
      = transpose S256x256 [1, 0] (m ((c.tc : Thread nD τ).loc main_arg5)) transposes_S256x256_S256x256_1_0 := by
    show StableHlo.after hostOps0 _ (Proc.devRef .tc main_v1) = _
    after_results
  rw [e]
  exact transpose_apply [1, 0] _ _ (ix2 k j) (ix2 j k) fun b => match b with | ⟨0, _⟩ => rfl | ⟨1, _⟩ => rfl

/-- The first-layer bias as a row: entry (0, j) is the argument's entry j. -/
theorem W1_v2_at (j : Fin 256) :
    (W1 (F := Ideal) m c (Proc.devRef .tc main_v2) : S1x256.Idx → EReal) (ix2 0 j)
      = ((m ((c.tc : Thread nD τ).loc main_arg4)) : S256.Idx → EReal) (ix1 j) := by
  have e : (W1 (F := Ideal) m c (Proc.devRef .tc main_v2) : S1x256.Idx → EReal)
      = shapeCast S1x256 ((m ((c.tc : Thread nD τ).loc main_arg4)) : S256.Idx → EReal) shapeCasts_S256_S1x256 := by
    show StableHlo.after hostOps0 _ (Proc.devRef .tc main_v2) = _
    after_results
    rfl
  rw [e]
  refine shapeCast_apply _ _ (ix2 0 j) (ix1 j) ?_
  rw [Shape.rowMajor_val_one, Shape.rowMajor_val_two]
  show j.val = 0 * 256 + j.val
  omega

/-- The second-layer bias as a row. -/
theorem W1_v3_at (j : Fin 256) :
    (W1 (F := Ideal) m c (Proc.devRef .tc main_v3) : S1x256.Idx → EReal) (ix2 0 j)
      = ((m ((c.tc : Thread nD τ).loc main_arg6)) : S256.Idx → EReal) (ix1 j) := by
  have e : (W1 (F := Ideal) m c (Proc.devRef .tc main_v3) : S1x256.Idx → EReal)
      = shapeCast S1x256 ((m ((c.tc : Thread nD τ).loc main_arg6)) : S256.Idx → EReal) shapeCasts_S256_S1x256 := by
    show StableHlo.after hostOps0 _ (Proc.devRef .tc main_v3) = _
    after_results
    rfl
  rw [e]
  refine shapeCast_apply _ _ (ix2 0 j) (ix1 j) ?_
  rw [Shape.rowMajor_val_one, Shape.rowMajor_val_two]
  show j.val = 0 * 256 + j.val
  omega

/-- The labels as a column: entry (r, 0) is the argument's entry r. -/
theorem W1_v4_at (r : Fin 65536) :
    (W1 (F := Ideal) m c (Proc.devRef .tc main_v4) : S65536x1.Idx → BitVec 32) (ix2 r 0)
      = ((m ((c.tc : Thread nD τ).loc main_arg2)) : S65536.Idx → BitVec 32) (ix1 r) := by
  have e : (W1 (F := Ideal) m c (Proc.devRef .tc main_v4) : S65536x1.Idx → BitVec 32)
      = shapeCast S65536x1 ((m ((c.tc : Thread nD τ).loc main_arg2)) : S65536.Idx → BitVec 32) shapeCasts_S65536_S65536x1 := by
    show StableHlo.after hostOps0 _ (Proc.devRef .tc main_v4) = _
    after_results
    rfl
  rw [e]
  refine shapeCast_apply _ _ (ix2 r 0) (ix1 r) ?_
  rw [Shape.rowMajor_val_one, Shape.rowMajor_val_two]
  show r.val = r.val * 1 + 0
  omega

/-- The first stretch writes neither the support rows nor the query rows. -/
theorem W1_arg1 : W1 (F := Ideal) m c (Proc.devRef .tc main_arg1) = (m ((c.tc : Thread nD τ).loc main_arg1)) :=
  (StableHlo.after_of_writes_sub hostOps0 _ hostOps0_writes (by decide)).trans rfl
theorem W1_arg0 : W1 (F := Ideal) m c (Proc.devRef .tc main_arg0) = (m ((c.tc : Thread nD τ).loc main_arg0)) :=
  (StableHlo.after_of_writes_sub hostOps0 _ hostOps0_writes (by decide)).trans rfl

/-! ## Through region 0 and the three stretches after it -/

/-- Region 0 reads the first-layer weights and bias through input windows: it leaves them as it found them. -/
theorem W2_v0 : W2 (F := Ideal) m c (Proc.devRef .tc main_v0) = W1 m c (Proc.devRef .tc main_v0) :=
  (W2_arr m c 2).trans (((dat0 (V1 m) c).arrAt_in 2 rfl _).trans (A_eq0 (V1 m) c 2))
theorem W2_v2 : W2 (F := Ideal) m c (Proc.devRef .tc main_v2) = W1 m c (Proc.devRef .tc main_v2) :=
  (W2_arr m c 3).trans (((dat0 (V1 m) c).arrAt_in 3 rfl _).trans (A_eq0 (V1 m) c 3))

/-- The three stretches between the regions leave a buffer none of them writes as region 0 left it. -/
theorem W5_of (r : Ref sig .tc) (h1 : r ∉ hostOps1_W) (h2 : r ∉ hostOps1_1_W) (h3 : r ∉ hostOps1_2_W) :
    W5 (F := Ideal) m c (Proc.devRef .tc r) = W2 m c (Proc.devRef .tc r) :=
  (StableHlo.after_of_writes_sub hostOps1_2 _ hostOps1_2_writes h3).trans
    ((StableHlo.after_of_writes_sub hostOps1_1 _ hostOps1_1_writes h2).trans
      (StableHlo.after_of_writes_sub hostOps1 _ hostOps1_writes h1))

theorem V5_v0 : V5 (F := Ideal) m c main_v0 = W1 m c (Proc.devRef .tc main_v0) :=
  (W5_of m c main_v0 (by decide) (by decide) (by decide)).trans (W2_v0 m c)
theorem V5_v2 : V5 (F := Ideal) m c main_v2 = W1 m c (Proc.devRef .tc main_v2) :=
  (W5_of m c main_v2 (by decide) (by decide) (by decide)).trans (W2_v2 m c)
theorem V5_v1 : V5 (F := Ideal) m c main_v1 = W1 m c (Proc.devRef .tc main_v1) :=
  (W5_of m c main_v1 (by decide) (by decide) (by decide)).trans (W2_of_ne m c main_v1 (by decide))
theorem V5_v3 : V5 (F := Ideal) m c main_v3 = W1 m c (Proc.devRef .tc main_v3) :=
  (W5_of m c main_v3 (by decide) (by decide) (by decide)).trans (W2_of_ne m c main_v3 (by decide))
theorem V5_arg0 : V5 (F := Ideal) m c main_arg0 = (m ((c.tc : Thread nD τ).loc main_arg0)) :=
  ((W5_of m c main_arg0 (by decide) (by decide) (by decide)).trans (W2_of_ne m c main_arg0 (by decide))).trans (W1_arg0 m c)

/-! ## The operands as the regions find them -/

theorem hiddenAt_V1 :
    hiddenAt (V1 (F := Ideal) m) c = hidden (cur2 (m ((c.tc : Thread nD τ).loc main_arg3))) (cur1 (m ((c.tc : Thread nD τ).loc main_arg4))) (cur2 (m ((c.tc : Thread nD τ).loc main_arg1))) := by
  unfold hiddenAt
  refine congr (congr (congrArg Cert.ProtoSpec.hidden ?_) ?_) ?_
  · funext j k; exact W1_v0_at m c k j
  · funext j; exact W1_v2_at m c j
  · exact congrArg cur2 (W1_arg1 m c)

theorem markAt_V1 (r : Fin 65536) (cls : Fin 128) :
    markAt (V1 (F := Ideal) m) c r cls = mark (hitOf (m ((c.tc : Thread nD τ).loc main_arg2))) r cls := by
  unfold markAt mark
  have h : ((V1 (F := Ideal) m c main_v4 : S65536x1.Idx → BitVec 32) (ix2 r 0) = BitVec.ofNat 32 cls.val)
      ↔ hitOf (m ((c.tc : Thread nD τ).loc main_arg2)) r cls := by
    unfold hitOf
    rw [show (V1 (F := Ideal) m c main_v4 : S65536x1.Idx → BitVec 32) (ix2 r 0)
      = ((m ((c.tc : Thread nD τ).loc main_arg2)) : S65536.Idx → BitVec 32) (ix1 r) from W1_v4_at m c r]
  by_cases hh : hitOf (m ((c.tc : Thread nD τ).loc main_arg2)) r cls
  · rw [if_pos hh, if_pos (h.mpr hh)]
  · rw [if_neg hh, if_neg (fun x => hh (h.mp x))]

theorem queryAt_V5 :
    queryAt (V5 (F := Ideal) m) c
      = embed (cur2 (m ((c.tc : Thread nD τ).loc main_arg3))) (cur1 (m ((c.tc : Thread nD τ).loc main_arg4))) (cur2 (m ((c.tc : Thread nD τ).loc main_arg5))) (cur1 (m ((c.tc : Thread nD τ).loc main_arg6))) (cur2 (m ((c.tc : Thread nD τ).loc main_arg0))) := by
  unfold queryAt
  refine congr (congr (congr (congr (congrArg Cert.ProtoSpec.embed ?_) ?_) ?_) ?_) ?_
  · funext j k; exact (congrFun (V5_v0 m c) (ix2 k j)).trans (W1_v0_at m c k j)
  · funext j; exact (congrFun (V5_v2 m c) (ix2 0 j)).trans (W1_v2_at m c j)
  · funext j k; exact (congrFun (V5_v1 m c) (ix2 k j)).trans (W1_v1_at m c k j)
  · funext j; exact (congrFun (V5_v3 m c) (ix2 0 j)).trans (W1_v3_at m c j)
  · exact congrArg cur2 (V5_arg0 m c)

/-- The second layer's operands at region 0's exit: the transposed weights and the bias row. -/
theorem W2_v1_at (k j : Fin 256) :
    cur2 (W2 (F := Ideal) m c (Proc.devRef .tc main_v1)) k j = cur2 (m ((c.tc : Thread nD τ).loc main_arg5)) j k := by
  unfold cur2
  exact (congrFun (W2_of_ne m c main_v1 (by decide)) (ix2 k j)).trans (W1_v1_at m c k j)
theorem W2_v3_at (j : Fin 256) :
    cur2 (W2 (F := Ideal) m c (Proc.devRef .tc main_v3)) 0 j = cur1 (m ((c.tc : Thread nD τ).loc main_arg6)) j := by
  unfold cur2 cur1
  exact (congrFun (W2_of_ne m c main_v3 (by decide)) (ix2 0 j)).trans (W1_v3_at m c j)

/-- Region 0's result arrays at its exit are what its pipeline leaves. -/
theorem W2_sums_at (p : Fin 2) (cls : Fin 128) (j : Fin 256) :
    cur3 (W2 (F := Ideal) m c (Proc.devRef .tc main_v5_0)) p cls j
      = ((dat0 (F := Ideal) (V1 m) c).arrAt 4 cfg0.N : S2x128x256.Idx → EReal) (ix3 p cls j) := by
  unfold cur3
  exact congrFun (W2_arr m c 4) (ix3 p cls j)
theorem W2_counts_at (p : Fin 2) (row : Fin 8) (cls : Fin 128) :
    cur3 (W2 (F := Ideal) m c (Proc.devRef .tc main_v5_1)) p row cls
      = ((dat0 (F := Ideal) (V1 m) c).arrAt 5 cfg0.N : S2x8x128.Idx → EReal) (ix3 p row cls) := by
  unfold cur3
  exact congrFun (W2_arr m c 5) (ix3 p row cls)

/-- What region 1 finds as the transposed prototypes and their squared norms is what the stretches before it left. -/
theorem V5_v28_at (j : Fin 256) (cls : Fin 128) :
    (V5 (F := Ideal) m c main_v28 : S256x128.Idx → EReal) (ix2 j cls) = cur2 (W5 (F := Ideal) m c (Proc.devRef .tc main_v28)) j cls := by
  unfold cur2
  rfl
theorem V5_v32_at (cls : Fin 128) :
    (V5 (F := Ideal) m c main_v32 : S1x128.Idx → EReal) (ix2 0 cls) = cur2 (W5 (F := Ideal) m c (Proc.devRef .tc main_v32)) 0 cls := by
  unfold cur2
  rfl

/-- The program's result is the first hundred class columns of region 1's result array. -/
theorem out_slice_at (r : Fin 8192) (c' : Fin 100) :
    (W7 (F := Ideal) m c (Proc.devRef .tc main_v34) : S8192x100.Idx → EReal) (ix2 r c')
      = ((dat1 (F := Ideal) (V5 m) c).arrAt 7 cfg1.N : S8192x128.Idx → EReal) (ix2 r (Fin.castLE (by decide) c')) := by
  have e : (W7 (F := Ideal) m c (Proc.devRef .tc main_v34) : S8192x100.Idx → EReal)
      = extractStridedSlice S8192x100 ![0, 0] (W6 (F := Ideal) m c (Proc.devRef .tc main_v33) : S8192x128.Idx → EReal) slices_S8192x128_S8192x100_0_0 := by
    show StableHlo.after hostOps2 _ (Proc.devRef .tc main_v34) = _
    after_results
  rw [e]
  refine (extractStridedSlice_apply ![0, 0] _ _ (ix2 r c') (ix2 r (Fin.castLE (by decide) c')) fun a => ?_).trans
    (congrFun (W6_arr m c 7) _)
  match a with
  | ⟨0, _⟩ => show r.val = 0 + r.val; omega
  | ⟨1, _⟩ => show c'.val = 0 + c'.val; omega

end

end Cert.KernelIdeal.Hand

end
-- ==== Proof.Glue.lean ====
/-
  The kernel's program computes the specification's kernel value. The host stretches around the regions are read
  at an index: the transposed weights and reshaped biases and labels that region 0 and region 1 find; between the
  regions the two halves' sums and counts added (the sum over all support rows), the mean by the count clamped at
  one, the second layer applied to the mean, the guard on a positive count, the transposition, and the prototypes'
  squared norms; after region 1 the first hundred class columns. With the two regions' values this is the
  specification's expression of the argument arrays.
-/
import proofs.«422305_j79542794322400_3_alg».proof.Proof.FrameI.Vals
import proofs.«422305_j79542794322400_3_alg».proof.Proof.ProtoValue
import proofs.«422305_j79542794322400_3_alg».proof.Proof.HeadValue
import proofs.«422305_j79542794322400_3_alg».proof.Proof.GlueMid
import proofs.«422305_j79542794322400_3_alg».proof.Proof.GlueIn
import proofs.«422305_j79542794322400_3_alg».proof.Proof.Reading
import proofs.«422305_j79542794322400_3_alg».proof.Proof.Rows
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.ProtoSpec

section
variable (m : (ℓ : Loc nD τ sig) → Buf (Elt Ideal) ℓ) (c : Dev nD)

/-- The two halves' sums added are the marked sum, over all support rows, of the first layer of the arguments. -/
theorem sumsOf_eq (cls : Fin 128) (k : Fin 256) :
    sumsOf m c cls k
      = kerSum (hitOf (m ((c.tc : Thread nD τ).loc main_arg2)))
          (Cert.ProtoSpec.hidden (cur2 (m ((c.tc : Thread nD τ).loc main_arg3))) (cur1 (m ((c.tc : Thread nD τ).loc main_arg4)))
            (cur2 (m ((c.tc : Thread nD τ).loc main_arg1)))) cls k := by
  unfold sumsOf
  rw [W2_sums_at m c 0 cls k, W2_sums_at m c 1 cls k, sums_final (V1 m) c 0 cls k, sums_final (V1 m) c 1 cls k]
  simp only [markAt_V1 m c, hiddenAt_V1 m c]
  unfold kerSum
  exact sum_rows_split (fun r => mark (hitOf (m ((c.tc : Thread nD τ).loc main_arg2))) r cls
    * Cert.ProtoSpec.hidden (cur2 (m ((c.tc : Thread nD τ).loc main_arg3))) (cur1 (m ((c.tc : Thread nD τ).loc main_arg4)))
        (cur2 (m ((c.tc : Thread nD τ).loc main_arg1))) r k)

/-- The two halves' counts added are the sum of the marks over all support rows. -/
theorem countOf_eq (cls : Fin 128) :
    countOf m c cls = kerCount (hitOf (m ((c.tc : Thread nD τ).loc main_arg2))) cls := by
  unfold countOf
  rw [W2_counts_at m c 0 0 cls, W2_counts_at m c 1 0 cls, counts_final (V1 m) c 0 0 cls, counts_final (V1 m) c 1 0 cls]
  simp only [markAt_V1 m c]
  unfold kerCount
  exact sum_rows_split (fun r => mark (hitOf (m ((c.tc : Thread nD τ).loc main_arg2))) r cls)

/-- The guarded second layer of the mean is the specification's prototype: the transposed weights read back as
    weight row j, column k, and the bias row as the bias. -/
theorem protoOf_eq (cls : Fin 128) (j : Fin 256) :
    protoOf m c cls j
      = kerProto (hitOf (m ((c.tc : Thread nD τ).loc main_arg2)))
          (cur2 (m ((c.tc : Thread nD τ).loc main_arg5))) (cur1 (m ((c.tc : Thread nD τ).loc main_arg6)))
          (Cert.ProtoSpec.hidden (cur2 (m ((c.tc : Thread nD τ).loc main_arg3))) (cur1 (m ((c.tc : Thread nD τ).loc main_arg4)))
            (cur2 (m ((c.tc : Thread nD τ).loc main_arg1)))) cls j := by
  unfold protoOf kerProto
  simp only [sumsOf_eq m c, countOf_eq m c, W2_v1_at m c, W2_v3_at m c]

end

/-- The program's result array, read at query row r and class c', is the specification's kernel value of the
    argument arrays read by coordinates. -/
theorem kernel_value (m : (ℓ : Loc nD τ sig) → Buf (Elt Ideal) ℓ) (c : Dev nD) (r : Fin 8192) (c' : Fin 100) :
    (W7 (F := Ideal) m c (Proc.devRef .tc main_v34) : S8192x100.Idx → EReal) (ix2 r c')
      = kerOut (hitOf (m ((c.tc : Thread nD τ).loc main_arg2)))
          (cur2 (m ((c.tc : Thread nD τ).loc main_arg3))) (cur1 (m ((c.tc : Thread nD τ).loc main_arg4)))
          (cur2 (m ((c.tc : Thread nD τ).loc main_arg5))) (cur1 (m ((c.tc : Thread nD τ).loc main_arg6)))
          (cur2 (m ((c.tc : Thread nD τ).loc main_arg0))) (cur2 (m ((c.tc : Thread nD τ).loc main_arg1)))
          r (Fin.castLE (by decide) c') := by
  rw [out_slice_at m c r c', dist_final (V5 m) c r (Fin.castLE (by decide) c')]
  simp only [queryAt_V5 m c, V5_v28_at m c, V5_v32_at m c, protoT_at m c, psq_at m c, protoOf_eq m c]
  unfold kerOut
  rfl

end Cert.KernelIdeal.Hand

end
-- ==== Proof.RefValue.lean ====
/-
  The reference's result, read at an index, is the specification's: each query row and each support row through
  the two layers (a contraction against the transposed weights plus the broadcast bias, clamped, then again), the
  scatter-add of the mapped support rows and of ones by label (a row whose label is no class lands nowhere), the
  guarded quotient, and minus the sum over the feature axis of the squared differences.
-/
import proofs.«422305_j79542794322400_3_alg».proof.Defs
import proofs.«422305_j79542794322400_3_alg».proof.Proof.RefRead
import proofs.«422305_j79542794322400_3_alg».proof.Proof.Reading
import Idealize.ShloMosaic.PureOps.Ideal.Laws

noncomputable section

namespace Cert.ReferenceIdeal.RefValue

open Cert.ReferenceIdeal Cert.ReferenceIdeal.Gen Cert.ReferenceIdeal.Value
open Idealize.ShloMosaic Idealize.ShloMosaic.TcCoe Idealize.SL.Sem Idealize.ShloMosaic.ValueIdx
open Cert.ProtoSpec

open Cert.ReferenceIdeal.Read

/-- Two indices with the same coordinates are equal (rank one, two, three). -/
local macro "idx_ext1" : tactic =>
  `(tactic| (refine funext fun a => Fin.ext ?_; match a with | ⟨0, _⟩ => rfl))
local macro "idx_ext2" : tactic =>
  `(tactic| (refine funext fun a => Fin.ext ?_; match a with | ⟨0, _⟩ => rfl | ⟨1, _⟩ => rfl))
local macro "idx_ext3" : tactic =>
  `(tactic| (refine funext fun a => Fin.ext ?_; match a with | ⟨0, _⟩ => rfl | ⟨1, _⟩ => rfl | ⟨2, _⟩ => rfl))

/-- The query rows through both layers. -/
theorem v10_at (x0 : S8192x256.Idx → EReal) (x3 : S256x256.Idx → EReal) (x4 : S256.Idx → EReal)
    (x5 : S256x256.Idx → EReal) (x6 : S256.Idx → EReal) (r : Fin 8192) (j : Fin 256) :
    val_main_v10 (F := Ideal) x0 x3 x4 x5 x6 (ix2 r j)
      = embed (cur2 x3) (cur1 x4) (cur2 x5) (cur1 x6) (cur2 x0) r j := by
  rw [val_main_v10_apply, val_main_v7_apply, val_main_v9_apply, val_main_v8_apply]
  simp only [val_main_v5_apply, val_main_v4_apply, val_main_v1_apply, val_main_v0_apply, val_main_v3_apply,
    val_main_v2_apply, val_main_v6_apply, val_main_call0_v0_apply, val_main_call0_cst_apply]
  simp only [Ideal.addf_def, Ideal.maximumf_def, Ideal.ofBits_def, Ideal.ofBits_zero_f32, embed, ProtoSpec.hidden, cur2, cur1]
  have e1 : ∀ k k', lidx_main_v1 (lidx_main_v7 (ix2 r j) k) k' = ix2 r k' := fun k k' => by idx_ext2
  have e2 : ∀ k k', idx_main_v0 (ridx_main_v1 (lidx_main_v7 (ix2 r j) k) k') = ix2 k k' := fun k k' => by idx_ext2
  have e3 : ∀ k, idx_main_v2 (idx_main_v3 (lidx_main_v7 (ix2 r j) k)) = ix1 k := fun k => by idx_ext1
  have e4 : ∀ k, idx_main_v6 (ridx_main_v7 (ix2 r j) k) = ix2 j k := fun k => by idx_ext2
  have e5 : idx_main_v8 (idx_main_v9 (ix2 r j)) = ix1 j := by idx_ext1
  simp only [e1, e2, e3, e4, e5]

/-- The support rows through both layers. -/
theorem v21_at (x1 : S65536x256.Idx → EReal) (x3 : S256x256.Idx → EReal) (x4 : S256.Idx → EReal)
    (x5 : S256x256.Idx → EReal) (x6 : S256.Idx → EReal) (s : Fin 65536) (j : Fin 256) :
    val_main_v21 (F := Ideal) x1 x3 x4 x5 x6 (ix2 s j)
      = embed (cur2 x3) (cur1 x4) (cur2 x5) (cur1 x6) (cur2 x1) s j := by
  rw [val_main_v21_apply, val_main_v18_apply, val_main_v20_apply, val_main_v19_apply]
  simp only [val_main_v16_apply, val_main_v15_apply, val_main_v12_apply, val_main_v11_apply, val_main_v14_apply,
    val_main_v13_apply, val_main_v17_apply, val_main_call1_v0_apply, val_main_call1_cst_apply]
  simp only [Ideal.addf_def, Ideal.maximumf_def, Ideal.ofBits_def, Ideal.ofBits_zero_f32, embed, ProtoSpec.hidden, cur2, cur1]
  have e1 : ∀ k k', lidx_main_v12 (lidx_main_v18 (ix2 s j) k) k' = ix2 s k' := fun k k' => by idx_ext2
  have e2 : ∀ k k', idx_main_v11 (ridx_main_v12 (lidx_main_v18 (ix2 s j) k) k') = ix2 k k' := fun k k' => by idx_ext2
  have e3 : ∀ k, idx_main_v13 (idx_main_v14 (lidx_main_v18 (ix2 s j) k)) = ix1 k := fun k => by idx_ext1
  have e4 : ∀ k, idx_main_v17 (ridx_main_v18 (ix2 s j) k) = ix2 j k := fun k => by idx_ext2
  have e5 : idx_main_v19 (idx_main_v20 (ix2 s j)) = ix1 j := by idx_ext1
  simp only [e1, e2, e3, e4, e5]

abbrev dS2 := scatter_S100x256_S65536x1_S65536x256_1_0_0_1
abbrev dS1 := scatter_S100_S65536x1_S65536_n_0_0_1

theorem s2_start0 (idx : IVec S65536x1 32) (s : Fin 65536) (j' : Fin 256) :
    dS2.start (ix2 s j') idx 0 = (idx (ix2 s 0)).toInt := by
  unfold ScatterDims.start
  rw [dif_pos (by decide)]
  refine congrArg (fun t => (idx t).toInt) ?_
  idx_ext2

theorem s2_start1 (idx : IVec S65536x1 32) (s : Fin 65536) (j' : Fin 256) :
    dS2.start (ix2 s j') idx 1 = 0 := by
  unfold ScatterDims.start
  rw [dif_neg (by decide)]

theorem s2_window0 (s : Fin 65536) (j' : Fin 256) : dS2.window (ix2 s j') 0 = 0 := by
  unfold ScatterDims.window
  rw [dif_neg (by decide)]

theorem s2_window1 (s : Fin 65536) (j' : Fin 256) : dS2.window (ix2 s j') 1 = j'.val := by
  unfold ScatterDims.window
  rw [dif_pos (by decide)]
  rfl

/-- A rank-2 update lands at (c, j) exactly when its row's label, read signed, is c and its column is j. -/
theorem s2_hit (idx : IVec S65536x1 32) (s : Fin 65536) (j' : Fin 256) (c : Fin 100) (j : Fin 256) :
    dS2.resultIdx? (ix2 s j') idx = some (ix2 c j) ↔ ((idx (ix2 s 0)).toInt = (c.val : Int) ∧ j' = j) := by
  unfold ScatterDims.resultIdx?
  split
  · rename_i h
    rw [Option.some.injEq]
    constructor
    · intro he
      have h0 := congrArg Fin.val (congrFun he 0)
      have h1 := congrArg Fin.val (congrFun he 1)
      have g0 := (h 0).1
      simp only [s2_start0, s2_window0, s2_start1, s2_window1] at h0 h1 g0
      refine ⟨?_, Fin.ext ?_⟩
      · change ((idx (ix2 s 0)).toInt + ((0 : Nat) : Int)).toNat = c.val at h0
        omega
      · change ((0 : Int) + (j'.val : Int)).toNat = j.val at h1
        omega
    · rintro ⟨hc, hj⟩
      refine funext fun a => Fin.ext ?_
      match a with
      | ⟨0, _⟩ =>
        show (dS2.start (ix2 s j') idx 0 + dS2.window (ix2 s j') 0).toNat = c.val
        rw [s2_start0, s2_window0, hc]; omega
      | ⟨1, _⟩ =>
        show (dS2.start (ix2 s j') idx 1 + dS2.window (ix2 s j') 1).toNat = j.val
        rw [s2_start1, s2_window1, hj]; omega
  · rename_i h
    constructor
    · intro he; exact absurd he (by simp)
    · rintro ⟨hc, hj⟩
      refine absurd (fun a => ?_) h
      match a with
      | ⟨0, _⟩ =>
        show 0 ≤ dS2.start (ix2 s j') idx 0 + dS2.window (ix2 s j') 0 ∧ dS2.start (ix2 s j') idx 0 + dS2.window (ix2 s j') 0 < (100 : Nat)
        rw [s2_start0, s2_window0, hc]; have := c.isLt; omega
      | ⟨1, _⟩ =>
        show 0 ≤ dS2.start (ix2 s j') idx 1 + dS2.window (ix2 s j') 1 ∧ dS2.start (ix2 s j') idx 1 + dS2.window (ix2 s j') 1 < (256 : Nat)
        rw [s2_start1, s2_window1]; have := j'.isLt; omega

/-- A 32-bit word read signed is a class number below 100 exactly when it is that number's word. -/
theorem toInt_eq_class (w : BitVec 32) (c : Fin 100) : w.toInt = (c.val : Int) ↔ w = BitVec.ofNat 32 c.val := by
  have hc := c.isLt
  have hn : (BitVec.ofNat 32 c.val).toNat = c.val := by
    rw [BitVec.toNat_ofNat]; exact Nat.mod_eq_of_lt (by omega)
  have key : (BitVec.ofNat 32 c.val).toInt = (c.val : Int) := by
    rw [BitVec.toInt_eq_toNat_of_lt (by rw [hn]; omega), hn]
  constructor
  · intro h
    exact BitVec.eq_of_toInt_eq (h.trans key.symm)
  · intro h
    rw [h, key]

/-- The segment sums: the scatter-add of the mapped support rows by label, at class c and feature j. -/
theorem v24_at (x1 : S65536x256.Idx → EReal) (x2 : S65536.Idx → BitVec 32) (x3 : S256x256.Idx → EReal) (x4 : S256.Idx → EReal)
    (x5 : S256x256.Idx → EReal) (x6 : S256.Idx → EReal) (c : Fin 100) (j : Fin 256) :
    val_main_v24 (F := Ideal) x1 x2 x3 x4 x5 x6 (ix2 c j)
      = refSum (hitOf x2) (embed (cur2 x3) (cur1 x4) (cur2 x5) (cur1 x6) (cur2 x1)) (Fin.castLE (by decide) c) j := by
  unfold val_main_v24 Host.scatterAdd
  rw [Ideal.hostScatterAdd_def]
  unfold Ideal.hostScatterAdd
  rw [val_main_v22_apply, val_main_cst_apply, Ideal.ofBits_def, Ideal.ofBits_zero_f32, zero_add]
  rw [Finset.sum_filter, sum_idx2]
  unfold refSum
  rw [Finset.sum_filter]
  refine Finset.sum_congr rfl fun s _ => ?_
  have hlbl : val_main_v23 (F := Ideal) x2 (ix2 s 0) = x2 (ix1 s) := by
    rw [val_main_v23_apply]; exact congrArg x2 (by idx_ext1)
  simp only [s2_hit, toInt_eq_class, hlbl, v21_at]
  by_cases hA : hitOf x2 s (Fin.castLE (by decide) c)
  · have hA' : x2 (ix1 s) = BitVec.ofNat 32 c.val := hA
    simp [hA, hA']
  · have hA' : ¬ x2 (ix1 s) = BitVec.ofNat 32 c.val := hA
    simp [hA, hA']

theorem s1_start0 (idx : IVec S65536x1 32) (s : Fin 65536) :
    dS1.start (ix1 s) idx 0 = (idx (ix2 s 0)).toInt := by
  unfold ScatterDims.start
  rw [dif_pos (by decide)]
  refine congrArg (fun t => (idx t).toInt) ?_
  idx_ext2

theorem s1_window0 (s : Fin 65536) : dS1.window (ix1 s) 0 = 0 := by
  unfold ScatterDims.window
  rw [dif_neg (by decide)]

/-- A rank-1 update lands at class c exactly when its label, read signed, is c. -/
theorem s1_hit (idx : IVec S65536x1 32) (s : Fin 65536) (c : Fin 100) :
    dS1.resultIdx? (ix1 s) idx = some (ix1 c) ↔ (idx (ix2 s 0)).toInt = (c.val : Int) := by
  unfold ScatterDims.resultIdx?
  split
  · rename_i h
    rw [Option.some.injEq]
    constructor
    · intro he
      have h0 := congrArg Fin.val (congrFun he 0)
      have g0 := (h 0).1
      simp only [s1_start0, s1_window0] at h0 g0
      change ((idx (ix2 s 0)).toInt + ((0 : Nat) : Int)).toNat = c.val at h0
      omega
    · intro hc
      refine funext fun a => Fin.ext ?_
      match a with
      | ⟨0, _⟩ =>
        show (dS1.start (ix1 s) idx 0 + dS1.window (ix1 s) 0).toNat = c.val
        rw [s1_start0, s1_window0, hc]; omega
  · rename_i h
    constructor
    · intro he; exact absurd he (by simp)
    · intro hc
      refine absurd (fun a => ?_) h
      match a with
      | ⟨0, _⟩ =>
        show 0 ≤ dS1.start (ix1 s) idx 0 + dS1.window (ix1 s) 0 ∧ dS1.start (ix1 s) idx 0 + dS1.window (ix1 s) 0 < (100 : Nat)
        rw [s1_start0, s1_window0, hc]; have := c.isLt; omega

/-- A sum over a rank-1 index set is the sum over its coordinate. -/
theorem sum_idx1 {M : Type*} [AddCommMonoid M] {n : Nat} (f : (⟨1, ![n]⟩ : Shape).Idx → M) :
    ∑ i, f i = ∑ a : Fin n, f (ix1 a) :=
  (Fintype.sum_equiv ⟨fun a => ix1 a, fun i => i 0, fun _ => rfl, fun i => (eq_ix1 i).symm⟩ _ _ (fun _ => rfl)).symm

/-- The word 0x3F800000 is one. -/
theorem one_word : Ideal.ofBits .f32 0x3F800000#32 = 1 := by
  simp [Ideal.ofBits, Ideal.ieee, -EReal.coe_mul]; norm_num

/-- The segment counts: the scatter-add of ones by label, at class c. -/
theorem v28_at (x2 : S65536.Idx → BitVec 32) (c : Fin 100) :
    val_main_v28 (F := Ideal) x2 (ix1 c) = refCount (hitOf x2) (Fin.castLE (by decide) c) := by
  unfold val_main_v28 Host.scatterAdd
  rw [Ideal.hostScatterAdd_def]
  unfold Ideal.hostScatterAdd
  rw [val_main_v26_apply, val_main_cst_1_apply, Ideal.ofBits_def, Ideal.ofBits_zero_f32, zero_add]
  rw [Finset.sum_filter, sum_idx1]
  unfold refCount
  rw [Finset.sum_filter]
  refine Finset.sum_congr rfl fun s _ => ?_
  have hlbl : val_main_v27 (F := Ideal) x2 (ix2 s 0) = x2 (ix1 s) := by
    rw [val_main_v27_apply]; exact congrArg x2 (by idx_ext1)
  simp only [s1_hit, toInt_eq_class, hlbl, val_main_v25_apply, val_main_cst_0_apply, Ideal.ofBits_def, one_word]
  by_cases hA : hitOf x2 s (Fin.castLE (by decide) c)
  · have hA' : x2 (ix1 s) = BitVec.ofNat 32 c.val := hA
    simp [hA, hA']
  · have hA' : ¬ x2 (ix1 s) = BitVec.ofNat 32 c.val := hA
    simp [hA, hA']

/-- The class means: the guarded quotient of the segment sum by the segment count. -/
theorem v37_at (x1 : S65536x256.Idx → EReal) (x2 : S65536.Idx → BitVec 32) (x3 : S256x256.Idx → EReal) (x4 : S256.Idx → EReal)
    (x5 : S256x256.Idx → EReal) (x6 : S256.Idx → EReal) (c : Fin 100) (j : Fin 256) :
    val_main_v37 (F := Ideal) x1 x2 x3 x4 x5 x6 (ix2 c j)
      = refProto (hitOf x2) (embed (cur2 x3) (cur1 x4) (cur2 x5) (cur1 x6) (cur2 x1)) (Fin.castLE (by decide) c) j := by
  simp only [val_main_v37_apply, val_main_call2_v1_apply, val_main_v31_apply, val_main_v29_apply, val_main_v30_apply,
    val_main_cst_2_apply, val_main_v36_apply, val_main_v35_apply, val_main_v34_apply, val_main_v33_apply,
    val_main_v32_apply, val_main_cst_3_apply, val_main_call2_v2_apply, val_main_call2_v0_apply, val_main_cst_4_apply]
  have e1 : idx_main_v29 (idx_main_call2_v1 (ix2 c j)) = ix1 c := by idx_ext1
  have e2 : idx_main_v34 (idx_main_v35 (ix2 c j)) = ix1 c := by idx_ext1
  rw [e1, e2, v24_at, v28_at]
  simp only [Ideal.cmpf_def, Ideal.hostDivf_def, Ideal.maximumf_def, Ideal.ofBits_def, Ideal.ofBits_zero_f32, one_word,
    Ideal.cmp]
  unfold refProto
  by_cases h : 0 < refCount (hitOf x2) (Fin.castLE (by decide) c)
  · rw [if_pos h, decide_eq_true h]
    exact select_one _ _
  · rw [if_neg h, decide_eq_false h]
    exact select_zero _ _

/-- The result: minus the sum over the feature axis of the squared differences. -/
theorem v45_at (x0 : S8192x256.Idx → EReal) (x1 : S65536x256.Idx → EReal) (x2 : S65536.Idx → BitVec 32)
    (x3 : S256x256.Idx → EReal) (x4 : S256.Idx → EReal) (x5 : S256x256.Idx → EReal) (x6 : S256.Idx → EReal)
    (r : Fin 8192) (c' : Fin 100) :
    val_main_v45 (F := Ideal) x0 x1 x2 x3 x4 x5 x6 (ix2 r c')
      = refOut (hitOf x2) (cur2 x3) (cur1 x4) (cur2 x5) (cur1 x6) (cur2 x0) (cur2 x1) r (Fin.castLE (by decide) c') := by
  rw [val_main_v45_apply, val_main_v44_apply]
  simp only [val_main_v43_apply, val_main_v42_apply, val_main_v40_apply, val_main_v41_apply, val_main_v38_apply,
    val_main_v39_apply, val_main_cst_5_apply]
  have e1 : ∀ k, idx_main_v38 (idx_main_v40 (idx_main_v44 (ix2 r c') k)) = ix2 r k := fun k => by idx_ext2
  have e2 : ∀ k, idx_main_v39 (idx_main_v41 (idx_main_v44 (ix2 r c') k)) = ix2 c' k := fun k => by idx_ext2
  simp only [e1, e2, v10_at, v37_at]
  simp only [Ideal.hostNegf_def, Ideal.negf_def, Ideal.mulf_def, Ideal.subf_def, Ideal.ofBits_def, Ideal.ofBits_zero_f32,
    zero_add]
  rfl

/-- The reference run's result at query row r and class c' is the specification's value there, of the argument
    arrays read by coordinates. -/
theorem ref_value (m : (ℓ : Loc nD τ sig) → Buf (Elt Ideal) ℓ) (c : Dev nD) (r : Fin 8192) (c' : Fin 100) :
    (res_out0 (F := Ideal) m c : S8192x100.Idx → EReal) (ix2 r c')
      = refOut (hitOf (m ((c.tc : Thread nD τ).loc main_arg2)))
          (cur2 (m ((c.tc : Thread nD τ).loc main_arg3))) (cur1 (m ((c.tc : Thread nD τ).loc main_arg4)))
          (cur2 (m ((c.tc : Thread nD τ).loc main_arg5))) (cur1 (m ((c.tc : Thread nD τ).loc main_arg6)))
          (cur2 (m ((c.tc : Thread nD τ).loc main_arg0))) (cur2 (m ((c.tc : Thread nD τ).loc main_arg1)))
          r (Fin.castLE (by decide) c') := by
  unfold res_out0
  rw [val_main_v45_eq]
  exact v45_at _ _ _ _ _ _ _ r c'

end Cert.ReferenceIdeal.RefValue

end
-- ==== Proof.Algebra.lean ====
/-
  The two descriptions agree on finite inputs. With every input a real number all intermediate values are
  real, so: a marked sum over all rows is the sum over the rows of the class; the second layer, being affine,
  commutes with the mean of a non-empty class (the sum of n copies of the bias divided by n is the bias); and
  |y|² + |p|² − 2 y·p is the sum of the squared differences, which is non-negative, so the clamp at zero does
  nothing and its negation is the reference's value.
-/
import proofs.«422305_j79542794322400_3_alg».proof.Proof.Spec
import Mathlib.Algebra.BigOperators.Field
import Mathlib.Algebra.BigOperators.Ring.Finset
import Mathlib.Algebra.Order.BigOperators.Group.Finset

noncomputable section

namespace Cert.ProtoSpec

open scoped BigOperators

/-! ## Coercions of real values into the extended reals -/

/-- The coercion of a finite real sum is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The larger of two coerced reals is the coercion of the larger real. -/
theorem coe_max (a b : ℝ) : max (a : EReal) (b : EReal) = ((max a b : ℝ) : EReal) :=
  (EReal.coe_strictMono.monotone.map_max).symm

/-- A quotient of coerced reals by a coerced real that is at least one is the coerced real quotient. -/
theorem quot_coe (a n : ℝ) (hn : 1 ≤ n) :
    quot (a : EReal) (max (n : EReal) 1) = ((a / n : ℝ) : EReal) := by
  have h1 : max (n : EReal) 1 = (n : EReal) :=
    max_eq_left (by rw [← EReal.coe_one]; exact EReal.coe_le_coe_iff.mpr hn)
  have hne : (n : EReal) ≠ 0 := EReal.coe_ne_zero.mpr (by linarith)
  rw [h1, quot, if_neg hne, div_eq_mul_inv, EReal.coe_mul, EReal.coe_inv]

/-! ## The real-valued twins of the two layers -/

/-- The first layer on real data. -/
def hiddenR {R : ℕ} (W1 : Fin 256 → Fin 256 → ℝ) (b1 : Fin 256 → ℝ) (a : Fin R → Fin 256 → ℝ) :
    Fin R → Fin 256 → ℝ :=
  fun r j => max ((∑ k, a r k * W1 j k) + b1 j) 0

/-- Both layers on real data. -/
def embedR {R : ℕ} (W1 : Fin 256 → Fin 256 → ℝ) (b1 : Fin 256 → ℝ) (W2 : Fin 256 → Fin 256 → ℝ)
    (b2 : Fin 256 → ℝ) (a : Fin R → Fin 256 → ℝ) : Fin R → Fin 256 → ℝ :=
  fun r j => (∑ k, hiddenR W1 b1 a r k * W2 j k) + b2 j

theorem hidden_coe {R : ℕ} (W1 : Fin 256 → Fin 256 → ℝ) (b1 : Fin 256 → ℝ) (a : Fin R → Fin 256 → ℝ) :
    hidden (fun j k => (W1 j k : EReal)) (fun j => (b1 j : EReal)) (fun r k => (a r k : EReal))
      = fun r j => ((hiddenR W1 b1 a r j : ℝ) : EReal) := by
  funext r j
  simp only [hidden, hiddenR, ← EReal.coe_mul, ← coe_sum, ← EReal.coe_add, ← EReal.coe_zero, coe_max]

theorem embed_coe {R : ℕ} (W1 : Fin 256 → Fin 256 → ℝ) (b1 : Fin 256 → ℝ) (W2 : Fin 256 → Fin 256 → ℝ)
    (b2 : Fin 256 → ℝ) (a : Fin R → Fin 256 → ℝ) :
    embed (fun j k => (W1 j k : EReal)) (fun j => (b1 j : EReal)) (fun j k => (W2 j k : EReal))
        (fun j => (b2 j : EReal)) (fun r k => (a r k : EReal))
      = fun r j => ((embedR W1 b1 W2 b2 a r j : ℝ) : EReal) := by
  funext r j
  simp only [embed, embedR, hidden_coe, ← EReal.coe_mul, ← coe_sum, ← EReal.coe_add]

/-! ## Real algebra -/

/-- An affine map commutes with the mean of a non-empty family. -/
theorem mean_affine {ι κ : Type*} [Fintype κ] (s : Finset ι) (h : ι → κ → ℝ) (W : κ → ℝ) (b n : ℝ)
    (hn : n = (s.card : ℝ)) (hpos : 0 < n) :
    (∑ k, (∑ r ∈ s, h r k) / n * W k) + b = (∑ r ∈ s, ((∑ k, h r k * W k) + b)) / n := by
  have hne : n ≠ 0 := ne_of_gt hpos
  rw [Finset.sum_add_distrib, Finset.sum_const, nsmul_eq_mul, ← hn, Finset.sum_comm, add_div,
    mul_div_cancel_left₀ b hne, Finset.sum_div]
  congr 1
  apply Finset.sum_congr rfl
  intro k _
  rw [div_mul_eq_mul_div, Finset.sum_mul]

/-- The expanded squared distance is the sum of the squared differences. -/
theorem sq_dist_expand {κ : Type*} [Fintype κ] (y p : κ → ℝ) :
    ((∑ j, y j * y j) + ∑ j, p j * p j) - 2 * ∑ j, y j * p j = ∑ j, (y j - p j) * (y j - p j) := by
  rw [Finset.mul_sum, ← Finset.sum_add_distrib, ← Finset.sum_sub_distrib]
  apply Finset.sum_congr rfl
  intro j _
  ring

/-- On coerced reals the clamped expanded distance, negated, is minus the sum of squared differences. -/
theorem out_coe {κ : Type*} [Fintype κ] (y p : κ → ℝ) :
    (0 : EReal) - max ((((∑ j, (y j : EReal) * (y j : EReal)) + ∑ j, (p j : EReal) * (p j : EReal))
        - 2 * ∑ j, (y j : EReal) * (p j : EReal))) 0
      = -(∑ j, ((y j : EReal) - (p j : EReal)) * ((y j : EReal) - (p j : EReal))) := by
  have h2 : (2 : EReal) = ((2 : ℝ) : EReal) := rfl
  simp only [h2, ← EReal.coe_mul, ← EReal.coe_sub, ← coe_sum, ← EReal.coe_add, ← EReal.coe_zero, coe_max,
    ← EReal.coe_neg]
  rw [EReal.coe_eq_coe_iff, sq_dist_expand, max_eq_left, zero_sub]
  exact Finset.sum_nonneg (fun j _ => mul_self_nonneg _)

section
variable (hit : Fin 65536 → Fin 128 → Prop) [∀ r c, Decidable (hit r c)]

/-! ## Marked sums are sums over the class -/

theorem kerSum_eq_refSum (h : Fin 65536 → Fin 256 → EReal) (c : Fin 128) (j : Fin 256) :
    kerSum hit h c j = refSum hit h c j := by
  unfold kerSum refSum
  rw [Finset.sum_filter]
  apply Finset.sum_congr rfl
  intro r _
  unfold mark
  split_ifs
  · rw [one_mul]
  · rw [zero_mul]

theorem kerCount_eq_refCount (c : Fin 128) : kerCount hit c = refCount hit c := by
  unfold kerCount refCount mark
  rw [Finset.sum_filter]

theorem refCount_eq (c : Fin 128) :
    refCount hit c = (((Finset.univ.filter (fun r => hit r c)).card : ℝ) : EReal) := by
  unfold refCount
  rw [← EReal.coe_one, ← coe_sum, Finset.sum_const, nsmul_eq_mul, mul_one]

theorem refSum_coe (y : Fin 65536 → Fin 256 → ℝ) (c : Fin 128) (j : Fin 256) :
    refSum hit (fun r j => (y r j : EReal)) c j
      = ((∑ r ∈ Finset.univ.filter (fun r => hit r c), y r j : ℝ) : EReal) := by
  unfold refSum
  rw [coe_sum]

/-! ## The two prototypes as coerced reals -/

theorem refProto_coe (y : Fin 65536 → Fin 256 → ℝ) (c : Fin 128) (j : Fin 256) :
    refProto hit (fun r j => (y r j : EReal)) c j
      = ((if 0 < ((Finset.univ.filter (fun r => hit r c)).card : ℝ)
          then (∑ r ∈ Finset.univ.filter (fun r => hit r c), y r j)
            / ((Finset.univ.filter (fun r => hit r c)).card : ℝ) else 0 : ℝ) : EReal) := by
  unfold refProto
  rw [refCount_eq]
  by_cases hpos : 0 < ((Finset.univ.filter (fun r => hit r c)).card : ℝ)
  · have h1 : (1 : ℝ) ≤ ((Finset.univ.filter (fun r => hit r c)).card : ℝ) := by
      exact_mod_cast Nat.succ_le_of_lt (by exact_mod_cast hpos)
    rw [if_pos (EReal.coe_pos.mpr hpos), if_pos hpos, refSum_coe, quot_coe _ _ h1]
  · rw [if_neg (mt EReal.coe_pos.mp hpos), if_neg hpos, EReal.coe_zero]

theorem kerProto_coe (W2 : Fin 256 → Fin 256 → ℝ) (b2 : Fin 256 → ℝ) (h : Fin 65536 → Fin 256 → ℝ)
    (c : Fin 128) (j : Fin 256) :
    kerProto hit (fun j k => (W2 j k : EReal)) (fun j => (b2 j : EReal)) (fun r k => (h r k : EReal)) c j
      = ((if 0 < ((Finset.univ.filter (fun r => hit r c)).card : ℝ)
          then (∑ k, (∑ r ∈ Finset.univ.filter (fun r => hit r c), h r k)
            / ((Finset.univ.filter (fun r => hit r c)).card : ℝ) * W2 j k) + b2 j else 0 : ℝ) : EReal) := by
  unfold kerProto
  rw [kerCount_eq_refCount, refCount_eq]
  by_cases hpos : 0 < ((Finset.univ.filter (fun r => hit r c)).card : ℝ)
  · have h1 : (1 : ℝ) ≤ ((Finset.univ.filter (fun r => hit r c)).card : ℝ) := by
      exact_mod_cast Nat.succ_le_of_lt (by exact_mod_cast hpos)
    rw [if_pos (EReal.coe_pos.mpr hpos), if_pos hpos]
    simp only [kerSum_eq_refSum, refSum_coe, fun a => quot_coe a _ h1, ← EReal.coe_mul, ← coe_sum,
      ← EReal.coe_add]
  · rw [if_neg (mt EReal.coe_pos.mp hpos), if_neg hpos, EReal.coe_zero]

end

/-- On real inputs the kernel's value is the reference's, at every query row and every class. -/
theorem kerOut_eq_refOut (hit : Fin 65536 → Fin 128 → Prop) [∀ r c, Decidable (hit r c)]
    (W1 : Fin 256 → Fin 256 → ℝ) (b1 : Fin 256 → ℝ) (W2 : Fin 256 → Fin 256 → ℝ) (b2 : Fin 256 → ℝ)
    (q : Fin 8192 → Fin 256 → ℝ) (x : Fin 65536 → Fin 256 → ℝ) (r : Fin 8192) (c : Fin 128) :
    kerOut hit (fun j k => (W1 j k : EReal)) (fun j => (b1 j : EReal)) (fun j k => (W2 j k : EReal)) (fun j => (b2 j : EReal))
        (fun r k => (q r k : EReal)) (fun r k => (x r k : EReal)) r c
      = refOut hit (fun j k => (W1 j k : EReal)) (fun j => (b1 j : EReal)) (fun j k => (W2 j k : EReal)) (fun j => (b2 j : EReal))
        (fun r k => (q r k : EReal)) (fun r k => (x r k : EReal)) r c := by
  unfold kerOut refOut
  simp only [embed_coe, hidden_coe, refProto_coe, kerProto_coe]
  have hp : ∀ j : Fin 256,
      (if 0 < ((Finset.univ.filter (fun r => hit r c)).card : ℝ)
        then (∑ k, (∑ r ∈ Finset.univ.filter (fun r => hit r c), hiddenR W1 b1 x r k)
          / ((Finset.univ.filter (fun r => hit r c)).card : ℝ) * W2 j k) + b2 j else 0 : ℝ)
      = (if 0 < ((Finset.univ.filter (fun r => hit r c)).card : ℝ)
        then (∑ r ∈ Finset.univ.filter (fun r => hit r c), embedR W1 b1 W2 b2 x r j)
          / ((Finset.univ.filter (fun r => hit r c)).card : ℝ) else 0 : ℝ) := by
    intro j
    by_cases hpos : 0 < ((Finset.univ.filter (fun r => hit r c)).card : ℝ)
    · rw [if_pos hpos, if_pos hpos]
      exact mean_affine _ (hiddenR W1 b1 x) (W2 j) (b2 j) _ rfl hpos
    · rw [if_neg hpos, if_neg hpos]
  simp only [hp]
  exact out_coe _ _

end Cert.ProtoSpec

end
-- ==== Proof.Finite.lean ====
/-
  Under the precondition every float input is a real number: the precondition is the conjunction, input by input,
  of "every entry's absolute value is below +infinity", and an extended real whose absolute value is below
  +infinity is the coercion of a real.
-/
import proofs.«422305_j79542794322400_3_alg».proof.Pre_finite_inputs
import proofs.«422305_j79542794322400_3_alg».proof.Proof.Gen.Pre_finite_inputs
import Idealize.ShloMosaic.PureOps.Ideal
import Idealize.ShloMosaic.Lib.ReduceAll

noncomputable section

namespace Cert.Pre_finite_inputs.Finite

open Cert.Pre_finite_inputs Idealize.ShloMosaic

/-- The rank-zero shape has a single index. -/
instance : Subsingleton S_.Idx := ⟨fun a b => funext fun d => d.elim0⟩

/-- A one-bit word made from a decided proposition is 1 only when the proposition holds. -/
theorem of_ofBool_decide_eq_one {p : Prop} [Decidable p] (h : BitVec.ofBool (decide p) = 1#1) : p := by
  by_cases hp : p
  · exact hp
  · rw [decide_eq_false hp] at h
    exact absurd h (by decide)

/-- The pattern 0x7F800000 denotes +infinity. -/
theorem ofBits_inf : Ideal.ofBits .f32 0x7F800000#32 = (⊤ : EReal) := by
  simp [Ideal.ofBits, Ideal.ieee]

/-- An extended real whose absolute value max x (−x) is strictly below +infinity is a real: at −infinity and at
    +infinity the absolute value is +infinity itself. -/
theorem real_of_abs_lt_inf (x : EReal)
    (h : Ideal.cmp .olt (max x (-x)) (Ideal.ofBits .f32 0x7F800000#32) = 1#1) : ∃ v : ℝ, x = (v : EReal) := by
  rw [ofBits_inf] at h
  have hlt : max x (-x) < ⊤ := of_ofBool_decide_eq_one h
  induction x using EReal.rec with
  | bot => simp at hlt
  | coe v => exact ⟨v, rfl⟩
  | top => simp at hlt

/-- One input's conjunct: if the conjunction over all entries of "absolute value below the broadcast +infinity" is
    true, every entry is a real. -/
theorem all_real {s : Shape} {axes : List (Fin s.rank)} (a : FVec Ideal s .f32)
    (hb : S_.BroadcastsInDim s (![] : Fin 0 → Fin s.rank)) (hr : s.ReducesTo axes S_) (hu : 0 < S_.numel)
    (init : IVec S_ 1) (j : S_.Idx)
    (e : Host.reduce IntOp.andi
        (cmpf .olt (Host.absf a) (broadcastInDim s ![] hb (constant S_ .f32 0x7F800000#32))) init hr hu j = 1#1) :
    ∀ i, ∃ v : ℝ, (a i : EReal) = (v : EReal) := by
  intro i
  have hi := Host.reduce_andi_all _ init hr hu j e i
  exact real_of_abs_lt_inf (a i) hi

/-- A pointwise conjunction of one-bit words is 1 only where both are. -/
theorem andi_apply_eq_one {s : Shape} (x y : IVec s 1) (i : s.Idx) (h : andi x y i = 1#1) :
    x i = 1#1 ∧ y i = 1#1 := IntOp.andi_eq_one.1 h

/-- If the printed precondition evaluates to true on the arguments, every entry of every float argument is real. -/
theorem reals_of_pre [Cert.Pre_finite_inputs.Facts]
    (a0 : FVec Ideal S8192x256 .f32) (a1 : FVec Ideal S65536x256 .f32) (a2 : IVec S65536 32) (a3 : FVec Ideal S256x256 .f32)
    (a4 : FVec Ideal S256 .f32) (a5 : FVec Ideal S256x256 .f32) (a6 : FVec Ideal S256 .f32)
    (h : Cert.Pre_finite_inputs.fn (F := Ideal) a0 a1 a2 a3 a4 a5 a6 = (fun _ => 1#1)) :
    (∀ i, ∃ v : ℝ, (a0 i : EReal) = (v : EReal)) ∧ (∀ i, ∃ v : ℝ, (a1 i : EReal) = (v : EReal))
      ∧ (∀ i, ∃ v : ℝ, (a3 i : EReal) = (v : EReal)) ∧ (∀ i, ∃ v : ℝ, (a4 i : EReal) = (v : EReal))
      ∧ (∀ i, ∃ v : ℝ, (a5 i : EReal) = (v : EReal)) ∧ (∀ i, ∃ v : ℝ, (a6 i : EReal) = (v : EReal)) := by
  have h0 := congrFun h (fun d => d.elim0)
  dsimp only [Cert.Pre_finite_inputs.fn, Cert.Pre_finite_inputs.fn_part1] at h0
  obtain ⟨h1, e6⟩ := andi_apply_eq_one _ _ _ h0
  obtain ⟨h2, e5⟩ := andi_apply_eq_one _ _ _ h1
  obtain ⟨h3, e4⟩ := andi_apply_eq_one _ _ _ h2
  obtain ⟨h4, e3⟩ := andi_apply_eq_one _ _ _ h3
  obtain ⟨e0, e1⟩ := andi_apply_eq_one _ _ _ h4
  exact ⟨all_real a0 _ _ _ _ _ e0, all_real a1 _ _ _ _ _ e1, all_real a3 _ _ _ _ _ e3, all_real a4 _ _ _ _ _ e4,
    all_real a5 _ _ _ _ _ e5, all_real a6 _ _ _ _ _ e6⟩

end Cert.Pre_finite_inputs.Finite

end
-- ==== Proof.lean ====
/-
  The certificate's claim. Both the word-level kernel program and its idealization run as seven segments (a host
  stretch, the accumulation region, three host stretches, the distance region, a host stretch) to the contents folded
  from the launch memory, the argument arrays written by no segment: the two frames. The reference is a straight line
  of host operations: its frame is its run with the result dropped. The idealization rewrote nothing. And at the exact
  instance, under the precondition, every input is a real number, the kernel program's result is the specification's
  kernel value, the reference's result the specification's reference value, and the two specifications agree on real
  inputs: per-class marked sums are the sums over each class's rows, the affine second layer commutes with the mean of
  a non-empty class, and the expanded squared distance is the sum of squared differences, which is non-negative.
-/
import proofs.«422305_j79542794322400_3_alg».proof.Defs
import proofs.«422305_j79542794322400_3_alg».proof.Proof.Gen.Kernel
import proofs.«422305_j79542794322400_3_alg».proof.Proof.Gen.KernelIdeal
import proofs.«422305_j79542794322400_3_alg».proof.Proof.Gen.ReferenceIdeal
import proofs.«422305_j79542794322400_3_alg».proof.Proof.Gen.Pre_finite_inputs
import proofs.«422305_j79542794322400_3_alg».proof.Proof.FrameB.Run
import proofs.«422305_j79542794322400_3_alg».proof.Proof.FrameI.Run
import proofs.«422305_j79542794322400_3_alg».proof.Proof.Glue
import proofs.«422305_j79542794322400_3_alg».proof.Proof.RefValue
import proofs.«422305_j79542794322400_3_alg».proof.Proof.Algebra
import proofs.«422305_j79542794322400_3_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx
open Cert.ProtoSpec

/-- The word-level program runs and leaves its arguments as launched. -/
theorem frame_k : Cert.frame_Kernel := fun m ρ _ =>
  (θ_run Cert.Kernel.defs _ _).mono (fun r h c =>
    ⟨(h c _ (Cert.Kernel.Hand.mem_uc Cert.Kernel.main_arg0 (by decide))).trans (Cert.Kernel.Hand.W7_main_arg0 m c),
     (h c _ (Cert.Kernel.Hand.mem_uc Cert.Kernel.main_arg1 (by decide))).trans (Cert.Kernel.Hand.W7_main_arg1 m c),
     (h c _ (Cert.Kernel.Hand.mem_uc Cert.Kernel.main_arg2 (by decide))).trans (Cert.Kernel.Hand.W7_main_arg2 m c),
     (h c _ (Cert.Kernel.Hand.mem_uc Cert.Kernel.main_arg3 (by decide))).trans (Cert.Kernel.Hand.W7_main_arg3 m c),
     (h c _ (Cert.Kernel.Hand.mem_uc Cert.Kernel.main_arg4 (by decide))).trans (Cert.Kernel.Hand.W7_main_arg4 m c),
     (h c _ (Cert.Kernel.Hand.mem_uc Cert.Kernel.main_arg5 (by decide))).trans (Cert.Kernel.Hand.W7_main_arg5 m c),
     (h c _ (Cert.Kernel.Hand.mem_uc Cert.Kernel.main_arg6 (by decide))).trans (Cert.Kernel.Hand.W7_main_arg6 m c)⟩)
    (Cert.Kernel.Hand.run_all (F := Bits) m ρ)

/-- So does its idealization. -/
theorem frame_ki : Cert.frame_KernelIdeal := fun m ρ _ =>
  (θ_run Cert.KernelIdeal.defs _ _).mono (fun r h c =>
    ⟨(h c _ (Cert.KernelIdeal.Hand.mem_uc Cert.KernelIdeal.main_arg0 (by decide))).trans (Cert.KernelIdeal.Hand.W7_main_arg0 m c),
     (h c _ (Cert.KernelIdeal.Hand.mem_uc Cert.KernelIdeal.main_arg1 (by decide))).trans (Cert.KernelIdeal.Hand.W7_main_arg1 m c),
     (h c _ (Cert.KernelIdeal.Hand.mem_uc Cert.KernelIdeal.main_arg2 (by decide))).trans (Cert.KernelIdeal.Hand.W7_main_arg2 m c),
     (h c _ (Cert.KernelIdeal.Hand.mem_uc Cert.KernelIdeal.main_arg3 (by decide))).trans (Cert.KernelIdeal.Hand.W7_main_arg3 m c),
     (h c _ (Cert.KernelIdeal.Hand.mem_uc Cert.KernelIdeal.main_arg4 (by decide))).trans (Cert.KernelIdeal.Hand.W7_main_arg4 m c),
     (h c _ (Cert.KernelIdeal.Hand.mem_uc Cert.KernelIdeal.main_arg5 (by decide))).trans (Cert.KernelIdeal.Hand.W7_main_arg5 m c),
     (h c _ (Cert.KernelIdeal.Hand.mem_uc Cert.KernelIdeal.main_arg6 (by decide))).trans (Cert.KernelIdeal.Hand.W7_main_arg6 m c)⟩)
    (Cert.KernelIdeal.Hand.run_all (F := Ideal) m ρ)

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- An array every entry of which is real, as the coercion of a real array read by coordinates. -/
theorem cur2_real {n0 n1 : ℕ} (a : (⟨2, ![n0, n1]⟩ : Shape).Idx → EReal) (v : (⟨2, ![n0, n1]⟩ : Shape).Idx → ℝ) (h : ∀ i, a i = (v i : EReal)) :
    cur2 a = fun r k => ((v (ix2 r k) : ℝ) : EReal) := funext fun r => funext fun k => h _
theorem cur1_real {n : ℕ} (a : (⟨1, ![n]⟩ : Shape).Idx → EReal) (v : (⟨1, ![n]⟩ : Shape).Idx → ℝ) (h : ∀ i, a i = (v i : EReal)) :
    cur1 a = fun k => ((v (ix1 k) : ℝ) : EReal) := funext fun k => h _

/-- At the exact instance the two programs end with equal results: both are the specification's value of the
    arguments, which are real under the precondition. -/
theorem algebraic : Cert.algebraic_KernelIdeal_ReferenceIdeal := by
  intro m ρ m' ρ' hpre hagree
  refine ⟨fun c => Cert.KernelIdeal.Hand.W7 (F := Ideal) m c (Proc.devRef .tc Cert.KernelIdeal.main_v34), ?_, ?_⟩
  · exact (θ_run Cert.KernelIdeal.defs _ _).mono (fun r h c =>
      ⟨h c _ (Cert.KernelIdeal.Hand.mem_uc Cert.KernelIdeal.main_v34 (by decide)),
       (h c _ (Cert.KernelIdeal.Hand.mem_uc Cert.KernelIdeal.main_arg0 (by decide))).trans (Cert.KernelIdeal.Hand.W7_main_arg0 m c),
       (h c _ (Cert.KernelIdeal.Hand.mem_uc Cert.KernelIdeal.main_arg1 (by decide))).trans (Cert.KernelIdeal.Hand.W7_main_arg1 m c),
       (h c _ (Cert.KernelIdeal.Hand.mem_uc Cert.KernelIdeal.main_arg2 (by decide))).trans (Cert.KernelIdeal.Hand.W7_main_arg2 m c),
       (h c _ (Cert.KernelIdeal.Hand.mem_uc Cert.KernelIdeal.main_arg3 (by decide))).trans (Cert.KernelIdeal.Hand.W7_main_arg3 m c),
       (h c _ (Cert.KernelIdeal.Hand.mem_uc Cert.KernelIdeal.main_arg4 (by decide))).trans (Cert.KernelIdeal.Hand.W7_main_arg4 m c),
       (h c _ (Cert.KernelIdeal.Hand.mem_uc Cert.KernelIdeal.main_arg5 (by decide))).trans (Cert.KernelIdeal.Hand.W7_main_arg5 m c),
       (h c _ (Cert.KernelIdeal.Hand.mem_uc Cert.KernelIdeal.main_arg6 (by decide))).trans (Cert.KernelIdeal.Hand.W7_main_arg6 m c)⟩)
      (Cert.KernelIdeal.Hand.run_all (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h3, h4, h5, h6⟩ := Cert.Pre_finite_inputs.Finite.reals_of_pre _ _ _ _ _ _ _ (hpre c)
    choose q hq using h0
    choose x hx using h1
    choose w1 hw1 using h3
    choose b1 hb1 using h4
    choose w2 hw2 using h5
    choose b2 hb2 using h6
    funext i
    obtain ⟨r, c', rfl⟩ : ∃ (r : Fin 8192) (c' : Fin 100), i = ix2 r c' := ⟨i 0, i 1, eq_ix2 i⟩
    refine (Cert.ReferenceIdeal.RefValue.ref_value m' c r c').trans ?_
    refine Eq.trans ?_ (Cert.KernelIdeal.Hand.kernel_value m c r c').symm
    rw [(hagree c).1, (hagree c).2.1, (hagree c).2.2.1, (hagree c).2.2.2.1, (hagree c).2.2.2.2.1, (hagree c).2.2.2.2.2.1, (hagree c).2.2.2.2.2.2]
    rw [cur2_real _ q hq, cur2_real _ x hx, cur2_real _ w1 hw1, cur1_real _ b1 hb1, cur2_real _ w2 hw2, cur1_real _ b2 hb2]
    exact (kerOut_eq_refOut _ _ _ _ _ _ _ r _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
